-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v53_0)) (v1 : (c : Dev Cert.KernelIdeal.nD) → Buf (Elt Ideal) ((c.tc : Thread Cert.KernelIdeal.nD Cert.KernelIdeal.τ).loc Cert.KernelIdeal.main_v53_1)) (v2 : (c : Dev Cert.KernelIdeal.nD) → Buf (Elt Ideal) ((c.tc : Thread Cert.KernelIdeal.nD Cert.KernelIdeal.τ).loc Cert.KernelIdeal.main_v53_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53_0) = v0 c
          ∧ r.2.mem ((c.tc : Thread Cert.KernelIdeal.nD Cert.KernelIdeal.τ).loc Cert.KernelIdeal.main_v53_1) = v1 c
          ∧ r.2.mem ((c.tc : Thread Cert.KernelIdeal.nD Cert.KernelIdeal.τ).loc Cert.KernelIdeal.main_v53_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v134) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S8192x16x8 : Shape := ⟨3, ![8192, 16, 8]⟩
abbrev S2x8192x512 : Shape := ⟨3, ![2, 8192, 512]⟩
abbrev S257x32 : Shape := ⟨2, ![257, 32]⟩
abbrev S64x13 : Shape := ⟨2, ![64, 13]⟩
abbrev S16x6 : Shape := ⟨2, ![16, 6]⟩
abbrev S8x4 : Shape := ⟨2, ![8, 4]⟩
abbrev S256x29 : Shape := ⟨2, ![256, 29]⟩
abbrev S2048x1472 : Shape := ⟨2, ![2048, 1472]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩

class Facts : Prop where
  bcast_S_S8192x16x8 : S_.BroadcastsInDim S8192x16x8 (![] : Fin 0 → Fin S8192x16x8.rank)
  reducesTo_S8192x16x8_S_d0_1_2 : S8192x16x8.ReducesTo [0, 1, 2] S_
  h_S_ : 0 < S_.numel
  bcast_S_S2x8192x512 : S_.BroadcastsInDim S2x8192x512 (![] : Fin 0 → Fin S2x8192x512.rank)
  reducesTo_S2x8192x512_S_d0_1_2 : S2x8192x512.ReducesTo [0, 1, 2] S_
  bcast_S_S257x32 : S_.BroadcastsInDim S257x32 (![] : Fin 0 → Fin S257x32.rank)
  reducesTo_S257x32_S_d0_1 : S257x32.ReducesTo [0, 1] S_
  bcast_S_S64x13 : S_.BroadcastsInDim S64x13 (![] : Fin 0 → Fin S64x13.rank)
  reducesTo_S64x13_S_d0_1 : S64x13.ReducesTo [0, 1] S_
  bcast_S_S16x6 : S_.BroadcastsInDim S16x6 (![] : Fin 0 → Fin S16x6.rank)
  reducesTo_S16x6_S_d0_1 : S16x6.ReducesTo [0, 1] S_
  bcast_S_S8x4 : S_.BroadcastsInDim S8x4 (![] : Fin 0 → Fin S8x4.rank)
  reducesTo_S8x4_S_d0_1 : S8x4.ReducesTo [0, 1] S_
  bcast_S_S256x29 : S_.BroadcastsInDim S256x29 (![] : Fin 0 → Fin S256x29.rank)
  reducesTo_S256x29_S_d0_1 : S256x29.ReducesTo [0, 1] S_
  bcast_S_S2048x1472 : S_.BroadcastsInDim S2048x1472 (![] : Fin 0 → Fin S2048x1472.rank)
  reducesTo_S2048x1472_S_d0_1 : S2048x1472.ReducesTo [0, 1] S_
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part5 {F : FTy → Type} [FloatOps F] (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  main_v88

def fn_part4 {F : FTy → Type} [FloatOps F] (main_arg19 : FVec F S2048 .f32) (main_arg20 : FVec F S2048 .f32) (main_arg21 : FVec F S256x512 .f32) (main_arg22 : FVec F S256 .f32) (main_v63 : IVec S_ 1) (main_v67 : IVec S_ 1) : IVec S_ 1 :=
  let main_v68 : IVec S_ 1 := andi main_v63 main_v67
  let main_v69 : FVec F S2048 .f32 := Host.absf main_arg19
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg20
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S256x512 .f32 := Host.absf main_arg21
  let main_cst_30 : FVec F S_ .f32 := constant S_ .f32 0x7F800000#32
  let main_v80 : FVec F S256x512 .f32 := broadcastInDim S256x512 ![] bcast_S_S256x512 main_cst_30
  let main_v81 : IVec S256x512 1 := cmpf .olt main_v79 main_v80
  let main_c_31 : IVec S_ 1 := constantI S_ 1 1#1
  let main_v82 : IVec S_ 1 := (fun x v => Host.reduce IntOp.andi x v reducesTo_S256x512_S_d0_1 h_S_) main_v81 main_c_31
  let main_v83 : IVec S_ 1 := andi main_v78 main_v82
  let main_v84 : FVec F S256 .f32 := Host.absf main_arg22
  let main_cst_32 : FVec F S_ .f32 := constant S_ .f32 0x7F800000#32
  fn_part5 (F := F) main_v83 main_v84 main_cst_32

def fn_part3 {F : FTy → Type} [FloatOps F] (main_arg16 : FVec F S2048 .f32) (main_arg17 : FVec F S2048x512 .f32) (main_arg18 : FVec F S2048x512 .f32) (main_arg19 : FVec F S2048 .f32) (main_arg20 : FVec F S2048 .f32) (main_arg21 : FVec F S256x512 .f32) (main_arg22 : FVec F S256 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048 .f32 := Host.absf main_arg16
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048x512 .f32 := Host.absf main_arg17
  let main_cst_22 : FVec F S_ .f32 := constant S_ .f32 0x7F800000#32
  let main_v60 : FVec F S2048x512 .f32 := broadcastInDim S2048x512 ![] bcast_S_S2048x512 main_cst_22
  let main_v61 : IVec S2048x512 1 := cmpf .olt main_v59 main_v60
  let main_c_23 : IVec S_ 1 := constantI S_ 1 1#1
  let main_v62 : IVec S_ 1 := (fun x v => Host.reduce IntOp.andi x v reducesTo_S2048x512_S_d0_1 h_S_) main_v61 main_c_23
  let main_v63 : IVec S_ 1 := andi main_v58 main_v62
  let main_v64 : FVec F S2048x512 .f32 := Host.absf main_arg18
  let main_cst_24 : FVec F S_ .f32 := constant S_ .f32 0x7F800000#32
  let main_v65 : FVec F S2048x512 .f32 := broadcastInDim S2048x512 ![] bcast_S_S2048x512 main_cst_24
  let main_v66 : IVec S2048x512 1 := cmpf .olt main_v64 main_v65
  let main_c_25 : IVec S_ 1 := constantI S_ 1 1#1
  let main_v67 : IVec S_ 1 := (fun x v => Host.reduce IntOp.andi x v reducesTo_S2048x512_S_d0_1 h_S_) main_v66 main_c_25
  fn_part4 (F := F) main_arg19 main_arg20 main_arg21 main_arg22 main_v63 main_v67

def fn_part2 {F : FTy → Type} [FloatOps F] (main_arg12 : FVec F S256x29 .f32) (main_arg13 : FVec F S2048x1472 .f32) (main_arg14 : FVec F S2048x512 .f32) (main_arg15 : FVec F S2048 .f32) (main_arg16 : FVec F S2048 .f32) (main_arg17 : FVec F S2048x512 .f32) (main_arg18 : FVec F S2048x512 .f32) (main_arg19 : FVec F S2048 .f32) (main_arg20 : FVec F S2048 .f32) (main_arg21 : FVec F S256x512 .f32) (main_arg22 : FVec F S256 .f32) (main_v33 : IVec S_ 1) : IVec S_ 1 :=
  let main_v34 : FVec F S256x29 .f32 := Host.absf main_arg12
  let main_cst_12 : FVec F S_ .f32 := constant S_ .f32 0x7F800000#32
  let main_v35 : FVec F S256x29 .f32 := broadcastInDim S256x29 ![] bcast_S_S256x29 main_cst_12
  let main_v36 : IVec S256x29 1 := cmpf .olt main_v34 main_v35
  let main_c_13 : IVec S_ 1 := constantI S_ 1 1#1
  let main_v37 : IVec S_ 1 := (fun x v => Host.reduce IntOp.andi x v reducesTo_S256x29_S_d0_1 h_S_) main_v36 main_c_13
  let main_v38 : IVec S_ 1 := andi main_v33 main_v37
  let main_v39 : FVec F S2048x1472 .f32 := Host.absf main_arg13
  let main_cst_14 : FVec F S_ .f32 := constant S_ .f32 0x7F800000#32
  let main_v40 : FVec F S2048x1472 .f32 := broadcastInDim S2048x1472 ![] bcast_S_S2048x1472 main_cst_14
  let main_v41 : IVec S2048x1472 1 := cmpf .olt main_v39 main_v40
  let main_c_15 : IVec S_ 1 := constantI S_ 1 1#1
  let main_v42 : IVec S_ 1 := (fun x v => Host.reduce IntOp.andi x v reducesTo_S2048x1472_S_d0_1 h_S_) main_v41 main_c_15
  let main_v43 : IVec S_ 1 := andi main_v38 main_v42
  let main_v44 : FVec F S2048x512 .f32 := Host.absf main_arg14
  let main_cst_16 : FVec F S_ .f32 := constant S_ .f32 0x7F800000#32
  let main_v45 : FVec F S2048x512 .f32 := broadcastInDim S2048x512 ![] bcast_S_S2048x512 main_cst_16
  let main_v46 : IVec S2048x512 1 := cmpf .olt main_v44 main_v45
  let main_c_17 : IVec S_ 1 := constantI S_ 1 1#1
  let main_v47 : IVec S_ 1 := (fun x v => Host.reduce IntOp.andi x v reducesTo_S2048x512_S_d0_1 h_S_) main_v46 main_c_17
  let main_v48 : IVec S_ 1 := andi main_v43 main_v47
  let main_v49 : FVec F S2048 .f32 := Host.absf main_arg15
  let main_cst_18 : FVec F S_ .f32 := constant S_ .f32 0x7F800000#32
  let main_v50 : FVec F S2048 .f32 := broadcastInDim S2048 ![] bcast_S_S2048 main_cst_18
  fn_part3 (F := F) main_arg16 main_arg17 main_arg18 main_arg19 main_arg20 main_arg21 main_arg22 main_v48 main_v49 main_v50

def fn_part1 {F : FTy → Type} [FloatOps F] (main_arg9 : FVec F S64x13 .f32) (main_arg10 : FVec F S16x6 .f32) (main_arg11 : FVec F S8x4 .f32) (main_arg12 : FVec F S256x29 .f32) (main_arg13 : FVec F S2048x1472 .f32) (main_arg14 : FVec F S2048x512 .f32) (main_arg15 : FVec F S2048 .f32) (main_arg16 : FVec F S2048 .f32) (main_arg17 : FVec F S2048x512 .f32) (main_arg18 : FVec F S2048x512 .f32) (main_arg19 : FVec F S2048 .f32) (main_arg20 : FVec F S2048 .f32) (main_arg21 : FVec F S256x512 .f32) (main_arg22 : FVec F S256 .f32) (main_v13 : IVec S_ 1) (main_v16 : IVec S257x32 1) : IVec S_ 1 :=
  let main_c_5 : IVec S_ 1 := constantI S_ 1 1#1
  let main_v17 : IVec S_ 1 := (fun x v => Host.reduce IntOp.andi x v reducesTo_S257x32_S_d0_1 h_S_) main_v16 main_c_5
  let main_v18 : IVec S_ 1 := andi main_v13 main_v17
  let main_v19 : FVec F S64x13 .f32 := Host.absf main_arg9
  let main_cst_6 : FVec F S_ .f32 := constant S_ .f32 0x7F800000#32
  let main_v20 : FVec F S64x13 .f32 := broadcastInDim S64x13 ![] bcast_S_S64x13 main_cst_6
  let main_v21 : IVec S64x13 1 := cmpf .olt main_v19 main_v20
  let main_c_7 : IVec S_ 1 := constantI S_ 1 1#1
  let main_v22 : IVec S_ 1 := (fun x v => Host.reduce IntOp.andi x v reducesTo_S64x13_S_d0_1 h_S_) main_v21 main_c_7
  let main_v23 : IVec S_ 1 := andi main_v18 main_v22
  let main_v24 : FVec F S16x6 .f32 := Host.absf main_arg10
  let main_cst_8 : FVec F S_ .f32 := constant S_ .f32 0x7F800000#32
  let main_v25 : FVec F S16x6 .f32 := broadcastInDim S16x6 ![] bcast_S_S16x6 main_cst_8
  let main_v26 : IVec S16x6 1 := cmpf .olt main_v24 main_v25
  let main_c_9 : IVec S_ 1 := constantI S_ 1 1#1
  let main_v27 : IVec S_ 1 := (fun x v => Host.reduce IntOp.andi x v reducesTo_S16x6_S_d0_1 h_S_) main_v26 main_c_9
  let main_v28 : IVec S_ 1 := andi main_v23 main_v27
  let main_v29 : FVec F S8x4 .f32 := Host.absf main_arg11
  let main_cst_10 : FVec F S_ .f32 := constant S_ .f32 0x7F800000#32
  let main_v30 : FVec F S8x4 .f32 := broadcastInDim S8x4 ![] bcast_S_S8x4 main_cst_10
  let main_v31 : IVec S8x4 1 := cmpf .olt main_v29 main_v30
  let main_c_11 : IVec S_ 1 := constantI S_ 1 1#1
  let main_v32 : IVec S_ 1 := (fun x v => Host.reduce IntOp.andi x v reducesTo_S8x4_S_d0_1 h_S_) main_v31 main_c_11
  let main_v33 : IVec S_ 1 := andi main_v28 main_v32
  fn_part2 (F := F) main_arg12 main_arg13 main_arg14 main_arg15 main_arg16 main_arg17 main_arg18 main_arg19 main_arg20 main_arg21 main_arg22 main_v33

def fn {F : FTy → Type} [FloatOps F] (main_arg0 : IVec S8192x16 32) (main_arg1 : IVec S8192x16 32) (main_arg2 : IVec S8192x16 32) (main_arg3 : IVec S8192x16 32) (main_arg4 : IVec S8192x16 32) (main_arg5 : FVec F S8192x16x8 .f32) (main_arg6 : FVec F S2x8192x512 .f32) (main_arg7 : FVec F S2x8192x512 .f32) (main_arg8 : FVec F S257x32 .f32) (main_arg9 : FVec F S64x13 .f32) (main_arg10 : FVec F S16x6 .f32) (main_arg11 : FVec F S8x4 .f32) (main_arg12 : FVec F S256x29 .f32) (main_arg13 : FVec F S2048x1472 .f32) (main_arg14 : FVec F S2048x512 .f32) (main_arg15 : FVec F S2048 .f32) (main_arg16 : FVec F S2048 .f32) (main_arg17 : FVec F S2048x512 .f32) (main_arg18 : FVec F S2048x512 .f32) (main_arg19 : FVec F S2048 .f32) (main_arg20 : FVec F S2048 .f32) (main_arg21 : FVec F S256x512 .f32) (main_arg22 : FVec F S256 .f32) : IVec S_ 1 :=
  let main_v0 : FVec F S8192x16x8 .f32 := Host.absf main_arg5
  let main_cst : FVec F S_ .f32 := constant S_ .f32 0x7F800000#32
  let main_v1 : FVec F S8192x16x8 .f32 := broadcastInDim S8192x16x8 ![] bcast_S_S8192x16x8 main_cst
  let main_v2 : IVec S8192x16x8 1 := cmpf .olt main_v0 main_v1
  let main_c : IVec S_ 1 := constantI S_ 1 1#1
  let main_v3 : IVec S_ 1 := (fun x v => Host.reduce IntOp.andi x v reducesTo_S8192x16x8_S_d0_1_2 h_S_) main_v2 main_c
  let main_v4 : FVec F S2x8192x512 .f32 := Host.absf main_arg6
  let main_cst_0 : FVec F S_ .f32 := constant S_ .f32 0x7F800000#32
  let main_v5 : FVec F S2x8192x512 .f32 := broadcastInDim S2x8192x512 ![] bcast_S_S2x8192x512 main_cst_0
  let main_v6 : IVec S2x8192x512 1 := cmpf .olt main_v4 main_v5
  let main_c_1 : IVec S_ 1 := constantI S_ 1 1#1
  let main_v7 : IVec S_ 1 := (fun x v => Host.reduce IntOp.andi x v reducesTo_S2x8192x512_S_d0_1_2 h_S_) main_v6 main_c_1
  let main_v8 : IVec S_ 1 := andi main_v3 main_v7
  let main_v9 : FVec F S2x8192x512 .f32 := Host.absf main_arg7
  let main_cst_2 : FVec F S_ .f32 := constant S_ .f32 0x7F800000#32
  let main_v10 : FVec F S2x8192x512 .f32 := broadcastInDim S2x8192x512 ![] bcast_S_S2x8192x512 main_cst_2
  let main_v11 : IVec S2x8192x512 1 := cmpf .olt main_v9 main_v10
  let main_c_3 : IVec S_ 1 := constantI S_ 1 1#1
  let main_v12 : IVec S_ 1 := (fun x v => Host.reduce IntOp.andi x v reducesTo_S2x8192x512_S_d0_1_2 h_S_) main_v11 main_c_3
  let main_v13 : IVec S_ 1 := andi main_v8 main_v12
  let main_v14 : FVec F S257x32 .f32 := Host.absf main_arg8
  let main_cst_4 : FVec F S_ .f32 := constant S_ .f32 0x7F800000#32
  let main_v15 : FVec F S257x32 .f32 := broadcastInDim S257x32 ![] bcast_S_S257x32 main_cst_4
  let main_v16 : IVec S257x32 1 := cmpf .olt main_v14 main_v15
  fn_part1 (F := F) main_arg9 main_arg10 main_arg11 main_arg12 main_arg13 main_arg14 main_arg15 main_arg16 main_arg17 main_arg18 main_arg19 main_arg20 main_arg21 main_arg22 main_v13 main_v16
-- ==== Kernel.lean ====
abbrev S8192x16 : Shape := ⟨2, ![8192, 16]⟩
abbrev S8192x16x8 : Shape := ⟨3, ![8192, 16, 8]⟩
abbrev S2x8192x512 : Shape := ⟨3, ![2, 8192, 512]⟩
abbrev S257x32 : Shape := ⟨2, ![257, 32]⟩
abbrev S64x13 : Shape := ⟨2, ![64, 13]⟩
abbrev S16x6 : Shape := ⟨2, ![16, 6]⟩
abbrev S8x4 : Shape := ⟨2, ![8, 4]⟩
abbrev S256x29 : Shape := ⟨2, ![256, 29]⟩
abbrev S2048x1472 : Shape := ⟨2, ![2048, 1472]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩
abbrev S8192x16x1 : Shape := ⟨3, ![8192, 16, 1]⟩
abbrev S8192x16x32 : Shape := ⟨3, ![8192, 16, 32]⟩
abbrev S8192x16x13 : Shape := ⟨3, ![8192, 16, 13]⟩
abbrev S8192x16x6 : Shape := ⟨3, ![8192, 16, 6]⟩
abbrev S8192x16x4 : Shape := ⟨3, ![8192, 16, 4]⟩
abbrev S8192x16x29 : Shape := ⟨3, ![8192, 16, 29]⟩
abbrev S8192x16x92 : Shape := ⟨3, ![8192, 16, 92]⟩
abbrev S8192x1472 : Shape := ⟨2, ![8192, 1472]⟩
abbrev S1472x2048 : Shape := ⟨2, ![1472, 2048]⟩
abbrev S512x2048 : Shape := ⟨2, ![512, 2048]⟩
abbrev S512x256 : Shape := ⟨2, ![512, 256]⟩
abbrev S1x2048 : Shape := ⟨2, ![1, 2048]⟩
abbrev S1x256 : Shape := ⟨2, ![1, 256]⟩
abbrev S8192x1x256 : Shape := ⟨3, ![8192, 1, 256]⟩
abbrev S128x1472 : Shape := ⟨2, ![128, 1472]⟩
abbrev S2x128x512 : Shape := ⟨3, ![2, 128, 512]⟩
abbrev S128x1x256 : Shape := ⟨3, ![128, 1, 256]⟩
abbrev S1x128x512 : Shape := ⟨3, ![1, 128, 512]⟩
abbrev S128x512 : Shape := ⟨2, ![128, 512]⟩
abbrev S128x2048 : Shape := ⟨2, ![128, 2048]⟩
abbrev S128x256 : Shape := ⟨2, ![128, 256]⟩

abbrev nBuf : Space → Nat
  | .hbm => 89
  | .vmem => 20
  | .smem => 0
  | _ => 0

abbrev bufTy : (tb : Table) → Fin (tcTables nBuf tb) → BufTy
  | .hbm, ⟨0, _⟩ => ⟨S8192x16, .i32⟩
  | .hbm, ⟨1, _⟩ => ⟨S8192x16, .i32⟩
  | .hbm, ⟨2, _⟩ => ⟨S8192x16, .i32⟩
  | .hbm, ⟨3, _⟩ => ⟨S8192x16, .i32⟩
  | .hbm, ⟨4, _⟩ => ⟨S8192x16, .i32⟩
  | .hbm, ⟨5, _⟩ => ⟨S8192x16x8, .f32⟩
  | .hbm, ⟨6, _⟩ => ⟨S2x8192x512, .f32⟩
  | .hbm, ⟨7, _⟩ => ⟨S2x8192x512, .f32⟩
  | .hbm, ⟨8, _⟩ => ⟨S257x32, .f32⟩
  | .hbm, ⟨9, _⟩ => ⟨S64x13, .f32⟩
  | .hbm, ⟨10, _⟩ => ⟨S16x6, .f32⟩
  | .hbm, ⟨11, _⟩ => ⟨S8x4, .f32⟩
  | .hbm, ⟨12, _⟩ => ⟨S256x29, .f32⟩
  | .hbm, ⟨13, _⟩ => ⟨S2048x1472, .f32⟩
  | .hbm, ⟨14, _⟩ => ⟨S2048x512, .f32⟩
  | .hbm, ⟨15, _⟩ => ⟨S2048, .f32⟩
  | .hbm, ⟨16, _⟩ => ⟨S2048, .f32⟩
  | .hbm, ⟨17, _⟩ => ⟨S2048x512, .f32⟩
  | .hbm, ⟨18, _⟩ => ⟨S2048x512, .f32⟩
  | .hbm, ⟨19, _⟩ => ⟨S2048, .f32⟩
  | .hbm, ⟨20, _⟩ => ⟨S2048, .f32⟩
  | .hbm, ⟨21, _⟩ => ⟨S256x512, .f32⟩
  | .hbm, ⟨22, _⟩ => ⟨S256, .f32⟩
  | .hbm, ⟨23, _⟩ => ⟨S_, .i32⟩
  | .hbm, ⟨24, _⟩ => ⟨S8192x16, .i32⟩
  | .hbm, ⟨25, _⟩ => ⟨S8192x16, .i1⟩
  | .hbm, ⟨26, _⟩ => ⟨S_, .i32⟩
  | .hbm, ⟨27, _⟩ => ⟨S8192x16, .i32⟩
  | .hbm, ⟨28, _⟩ => ⟨S8192x16, .i32⟩
  | .hbm, ⟨29, _⟩ => ⟨S8192x16, .i32⟩
  | .hbm, ⟨30, _⟩ => ⟨S8192x16x1, .i32⟩
  | .hbm, ⟨31, _⟩ => ⟨S8192x16x32, .f32⟩
  | .hbm, ⟨32, _⟩ => ⟨S_, .i32⟩
  | .hbm, ⟨33, _⟩ => ⟨S8192x16, .i32⟩
  | .hbm, ⟨34, _⟩ => ⟨S8192x16, .i1⟩
  | .hbm, ⟨35, _⟩ => ⟨S_, .i32⟩
  | .hbm, ⟨36, _⟩ => ⟨S8192x16, .i32⟩
  | .hbm, ⟨37, _⟩ => ⟨S8192x16, .i32⟩
  | .hbm, ⟨38, _⟩ => ⟨S8192x16, .i32⟩
  | .hbm, ⟨39, _⟩ => ⟨S8192x16x1, .i32⟩
  | .hbm, ⟨40, _⟩ => ⟨S8192x16x13, .f32⟩
  | .hbm, ⟨41, _⟩ => ⟨S_, .i32⟩
  | .hbm, ⟨42, _⟩ => ⟨S8192x16, .i32⟩
  | .hbm, ⟨43, _⟩ => ⟨S8192x16, .i1⟩
  | .hbm, ⟨44, _⟩ => ⟨S_, .i32⟩
  | .hbm, ⟨45, _⟩ => ⟨S8192x16, .i32⟩
  | .hbm, ⟨46, _⟩ => ⟨S8192x16, .i32⟩
  | .hbm, ⟨47, _⟩ => ⟨S8192x16, .i32⟩
  | .hbm, ⟨48, _⟩ => ⟨S8192x16x1, .i32⟩
  | .hbm, ⟨49, _⟩ => ⟨S8192x16x6, .f32⟩
  | .hbm, ⟨50, _⟩ => ⟨S_, .i32⟩
  | .hbm, ⟨51, _⟩ => ⟨S8192x16, .i32⟩
  | .hbm, ⟨52, _⟩ => ⟨S8192x16, .i1⟩
  | .hbm, ⟨53, _⟩ => ⟨S_, .i32⟩
  | .hbm, ⟨54, _⟩ => ⟨S8192x16, .i32⟩
  | .hbm, ⟨55, _⟩ => ⟨S8192x16, .i32⟩
  | .hbm, ⟨56, _⟩ => ⟨S8192x16, .i32⟩
  | .hbm, ⟨57, _⟩ => ⟨S8192x16x1, .i32⟩
  | .hbm, ⟨58, _⟩ => ⟨S8192x16x4, .f32⟩
  | .hbm, ⟨59, _⟩ => ⟨S_, .i32⟩
  | .hbm, ⟨60, _⟩ => ⟨S8192x16, .i32⟩
  | .hbm, ⟨61, _⟩ => ⟨S8192x16, .i1⟩
  | .hbm, ⟨62, _⟩ => ⟨S_, .i32⟩
  | .hbm, ⟨63, _⟩ => ⟨S8192x16, .i32⟩
  | .hbm, ⟨64, _⟩ => ⟨S8192x16, .i32⟩
  | .hbm, ⟨65, _⟩ => ⟨S8192x16, .i32⟩
  | .hbm, ⟨66, _⟩ => ⟨S8192x16x1, .i32⟩
  | .hbm, ⟨67, _⟩ => ⟨S8192x16x29, .f32⟩
  | .hbm, ⟨68, _⟩ => ⟨S8192x16x92, .f32⟩
  | .hbm, ⟨69, _⟩ => ⟨S8192x1472, .f32⟩
  | .hbm, ⟨70, _⟩ => ⟨S8192x1472, .bf16⟩
  | .hbm, ⟨71, _⟩ => ⟨S1472x2048, .f32⟩
  | .hbm, ⟨72, _⟩ => ⟨S1472x2048, .bf16⟩
  | .hbm, ⟨73, _⟩ => ⟨S512x2048, .f32⟩
  | .hbm, ⟨74, _⟩ => ⟨S512x2048, .bf16⟩
  | .hbm, ⟨75, _⟩ => ⟨S512x2048, .f32⟩
  | .hbm, ⟨76, _⟩ => ⟨S512x2048, .bf16⟩
  | .hbm, ⟨77, _⟩ => ⟨S512x2048, .f32⟩
  | .hbm, ⟨78, _⟩ => ⟨S512x2048, .bf16⟩
  | .hbm, ⟨79, _⟩ => ⟨S512x256, .f32⟩
  | .hbm, ⟨80, _⟩ => ⟨S512x256, .bf16⟩
  | .hbm, ⟨81, _⟩ => ⟨S2048, .f32⟩
  | .hbm, ⟨82, _⟩ => ⟨S1x2048, .f32⟩
  | .hbm, ⟨83, _⟩ => ⟨S2048, .f32⟩
  | .hbm, ⟨84, _⟩ => ⟨S1x2048, .f32⟩
  | .hbm, ⟨85, _⟩ => ⟨S1x256, .f32⟩
  | .hbm, ⟨86, _⟩ => ⟨S8192x1x256, .f32⟩
  | .hbm, ⟨87, _⟩ => ⟨S2x8192x512, .f32⟩
  | .hbm, ⟨88, _⟩ => ⟨S2x8192x512, .f32⟩
  | .local _ .vmem, ⟨0, _⟩ => ⟨S128x1472, .bf16⟩
  | .local _ .vmem, ⟨1, _⟩ => ⟨S128x1472, .bf16⟩
  | .local _ .vmem, ⟨2, _⟩ => ⟨S2x128x512, .f32⟩
  | .local _ .vmem, ⟨3, _⟩ => ⟨S2x128x512, .f32⟩
  | .local _ .vmem, ⟨4, _⟩ => ⟨S2x128x512, .f32⟩
  | .local _ .vmem, ⟨5, _⟩ => ⟨S2x128x512, .f32⟩
  | .local _ .vmem, ⟨6, _⟩ => ⟨S1472x2048, .bf16⟩
  | .local _ .vmem, ⟨7, _⟩ => ⟨S512x2048, .bf16⟩
  | .local _ .vmem, ⟨8, _⟩ => ⟨S512x2048, .bf16⟩
  | .local _ .vmem, ⟨9, _⟩ => ⟨S512x2048, .bf16⟩
  | .local _ .vmem, ⟨10, _⟩ => ⟨S512x256, .bf16⟩
  | .local _ .vmem, ⟨11, _⟩ => ⟨S1x2048, .f32⟩
  | .local _ .vmem, ⟨12, _⟩ => ⟨S1x2048, .f32⟩
  | .local _ .vmem, ⟨13, _⟩ => ⟨S1x256, .f32⟩
  | .local _ .vmem, ⟨14, _⟩ => ⟨S128x1x256, .f32⟩
  | .local _ .vmem, ⟨15, _⟩ => ⟨S128x1x256, .f32⟩
  | .local _ .vmem, ⟨16, _⟩ => ⟨S2x128x512, .f32⟩
  | .local _ .vmem, ⟨17, _⟩ => ⟨S2x128x512, .f32⟩
  | .local _ .vmem, ⟨18, _⟩ => ⟨S2x128x512, .f32⟩
  | .local _ .vmem, ⟨19, _⟩ => ⟨S2x128x512, .f32⟩
  | _, _ => ⟨S8192x16, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_7 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53_0 : Ref sig .tc := ⟨.hbm, 86, rfl⟩
abbrev main_v53_1 : Ref sig .tc := ⟨.hbm, 87, rfl⟩
abbrev main_v53_2 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S128x1472 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1472x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S128x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  concatenates_S8192x16x32_S8192x16x13_S8192x16x6_S8192x16x4_S8192x16x29_S8192x16x8_S8192x16x92_d2 : Shape.Concatenates [S8192x16x32, S8192x16x13, S8192x16x6, S8192x16x4, S8192x16x29, S8192x16x8] S8192x16x92 2
  shapeCasts_S8192x16x92_S8192x1472 : S8192x16x92.ShapeCasts S8192x1472
  bitsLt_bf16_f32 : FTy.bits .bf16 < FTy.bits .f32
  transposes_S2048x1472_S1472x2048_1_0 : S2048x1472.Transposes [1, 0] S1472x2048
  transposes_S2048x512_S512x2048_1_0 : S2048x512.Transposes [1, 0] S512x2048
  transposes_S256x512_S512x256_1_0 : S256x512.Transposes [1, 0] S512x256
  shapeCasts_S2048_S1x2048 : S2048.ShapeCasts S1x2048
  shapeCasts_S256_S1x256 : S256.ShapeCasts S1x256
  inb_S128x1472_S128x1472_0_0 : ∀ a, (![0, 0] : Fin 2 → Nat) a + S128x1472.size a ≤ S128x1472.size a
  h_S128x1472 : 0 < S128x1472.numel
  shapeCasts_S128x1472_S128x1472 : S128x1472.ShapeCasts S128x1472
  inb_S2x128x512_S1x128x512_0_0_0 : ∀ a, (![0, 0, 0] : Fin 3 → Nat) a + S1x128x512.size a ≤ S2x128x512.size a
  h_S1x128x512 : 0 < S1x128x512.numel
  shapeCasts_S1x128x512_S128x512 : S1x128x512.ShapeCasts S128x512
  inb_S2x128x512_S1x128x512_1_0_0 : ∀ a, (![1, 0, 0] : Fin 3 → Nat) a + S1x128x512.size a ≤ S2x128x512.size a
  inb_S1472x2048_S1472x2048_0_0 : ∀ a, (![0, 0] : Fin 2 → Nat) a + S1472x2048.size a ≤ S1472x2048.size a
  h_S1472x2048 : 0 < S1472x2048.numel
  shapeCasts_S1472x2048_S1472x2048 : S1472x2048.ShapeCasts S1472x2048
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  slices_S128x2048_o0_0_S128x512 : S128x2048.Slices ![0, 0] S128x512
  slices_S128x2048_o0_512_S128x512 : S128x2048.Slices ![0, 512] S128x512
  slices_S128x2048_o0_1024_S128x512 : S128x2048.Slices ![0, 1024] S128x512
  slices_S128x2048_o0_1536_S128x512 : S128x2048.Slices ![0, 1536] S128x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S128x256 : S1x256.Broadcasts S128x256
  shapeCasts_S128x256_S128x1x256 : S128x256.ShapeCasts S128x1x256
  inb_S128x1x256_S128x1x256_0_0_0 : ∀ a, (![0, 0, 0] : Fin 3 → Nat) a + S128x1x256.size a ≤ S128x1x256.size a
  h_S128x1x256 : 0 < S128x1x256.numel
  shapeCasts_S128x512_S1x128x512 : S128x512.ShapeCasts S1x128x512
  gather_S257x32_S8192x16x1_S8192x16x32_2_0_n_n_0_2_132_wf : GatherDims.WF S257x32 S8192x16x1 S8192x16x32 [2] [0] [] [0] [] 2 ![1, 32]
  gather_S64x13_S8192x16x1_S8192x16x13_2_0_n_n_0_2_113_wf : GatherDims.WF S64x13 S8192x16x1 S8192x16x13 [2] [0] [] [0] [] 2 ![1, 13]
  gather_S16x6_S8192x16x1_S8192x16x6_2_0_n_n_0_2_16_wf : GatherDims.WF S16x6 S8192x16x1 S8192x16x6 [2] [0] [] [0] [] 2 ![1, 6]
  gather_S8x4_S8192x16x1_S8192x16x4_2_0_n_n_0_2_14_wf : GatherDims.WF S8x4 S8192x16x1 S8192x16x4 [2] [0] [] [0] [] 2 ![1, 4]
  gather_S256x29_S8192x16x1_S8192x16x29_2_0_n_n_0_2_129_wf : GatherDims.WF S256x29 S8192x16x1 S8192x16x29 [2] [0] [] [0] [] 2 ![1, 29]
  dot_S128x1472_S1472x2048_S128x2048_1_0_0_1_n_n_wf : DotDims.WF S128x1472 S1472x2048 S128x2048 [1] [0] [0] [1] [] []
  dot_S128x512_S512x2048_S128x2048_1_0_0_1_n_n_wf : DotDims.WF S128x512 S512x2048 S128x2048 [1] [0] [0] [1] [] []
  dot_S128x512_S512x256_S128x256_1_0_0_1_n_n_wf : DotDims.WF S128x512 S512x256 S128x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1472.size a ≤ S8192x1472.size a
  hwx0_0 : ∀ i : grid0.Coords, EltTy.bits .bf16 = 32 ∨ (Rect.block (s := S8192x1472) S128x1472.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x128x512.size a ≤ S2x8192x512.size a
  hwx0_1 : ∀ i : grid0.Coords, EltTy.bits .f32 = 32 ∨ (Rect.block (s := S2x8192x512) S2x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x512.size a ≤ S2x8192x512.size a
  hwx0_2 : ∀ i : grid0.Coords, EltTy.bits .f32 = 32 ∨ (Rect.block (s := S2x8192x512) S2x128x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1472x2048.size a ≤ S1472x2048.size a
  hwx0_3 : ∀ i : grid0.Coords, EltTy.bits .bf16 = 32 ∨ (Rect.block (s := S1472x2048) S1472x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x2048.size a ≤ S512x2048.size a
  hwx0_5 : ∀ i : grid0.Coords, EltTy.bits .bf16 = 32 ∨ (Rect.block (s := S512x2048) S512x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512x2048.size a ≤ S512x2048.size a
  hwx0_6 : ∀ i : grid0.Coords, EltTy.bits .bf16 = 32 ∨ (Rect.block (s := S512x2048) S512x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S512x256.size a
  hwx0_7 : ∀ i : grid0.Coords, EltTy.bits .bf16 = 32 ∨ (Rect.block (s := S512x256) S512x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x1x256.size a ≤ S8192x1x256.size a
  hwx0_11 : ∀ i : grid0.Coords, EltTy.bits .f32 = 32 ∨ (Rect.block (s := S8192x1x256) S128x1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S2x128x512.size a ≤ S2x8192x512.size a
  hwx0_12 : ∀ i : grid0.Coords, EltTy.bits .f32 = 32 ∨ (Rect.block (s := S2x8192x512) S2x128x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S2x128x512.size a ≤ S2x8192x512.size a
  hwx0_13 : ∀ i : grid0.Coords, EltTy.bits .f32 = 32 ∨ (Rect.block (s := S2x8192x512) S2x128x512.size (cc0_transform_13 i) (hinb0_13 i)).WholeWords (EltTy.packing .f32)

variable [Facts₀]

def gather_S257x32_S8192x16x1_S8192x16x32_2_0_n_n_0_2_132 : GatherDims S257x32 S8192x16x1 S8192x16x32 where
  offsetDims := [2]
  collapsedSliceDims := [0]
  operandBatchingDims := []
  startIndicesBatchingDims := []
  startIndexMap := [0]
  indexVectorDim := 2
  sliceSizes := ![1, 32]
  wf := gather_S257x32_S8192x16x1_S8192x16x32_2_0_n_n_0_2_132_wf
def gather_S64x13_S8192x16x1_S8192x16x13_2_0_n_n_0_2_113 : GatherDims S64x13 S8192x16x1 S8192x16x13 where
  offsetDims := [2]
  collapsedSliceDims := [0]
  operandBatchingDims := []
  startIndicesBatchingDims := []
  startIndexMap := [0]
  indexVectorDim := 2
  sliceSizes := ![1, 13]
  wf := gather_S64x13_S8192x16x1_S8192x16x13_2_0_n_n_0_2_113_wf
def gather_S16x6_S8192x16x1_S8192x16x6_2_0_n_n_0_2_16 : GatherDims S16x6 S8192x16x1 S8192x16x6 where
  offsetDims := [2]
  collapsedSliceDims := [0]
  operandBatchingDims := []
  startIndicesBatchingDims := []
  startIndexMap := [0]
  indexVectorDim := 2
  sliceSizes := ![1, 6]
  wf := gather_S16x6_S8192x16x1_S8192x16x6_2_0_n_n_0_2_16_wf
def gather_S8x4_S8192x16x1_S8192x16x4_2_0_n_n_0_2_14 : GatherDims S8x4 S8192x16x1 S8192x16x4 where
  offsetDims := [2]
  collapsedSliceDims := [0]
  operandBatchingDims := []
  startIndicesBatchingDims := []
  startIndexMap := [0]
  indexVectorDim := 2
  sliceSizes := ![1, 4]
  wf := gather_S8x4_S8192x16x1_S8192x16x4_2_0_n_n_0_2_14_wf
def gather_S256x29_S8192x16x1_S8192x16x29_2_0_n_n_0_2_129 : GatherDims S256x29 S8192x16x1 S8192x16x29 where
  offsetDims := [2]
  collapsedSliceDims := [0]
  operandBatchingDims := []
  startIndicesBatchingDims := []
  startIndexMap := [0]
  indexVectorDim := 2
  sliceSizes := ![1, 29]
  wf := gather_S256x29_S8192x16x1_S8192x16x29_2_0_n_n_0_2_129_wf
def dot_S128x1472_S1472x2048_S128x2048_1_0_0_1_n_n : DotDims S128x1472 S1472x2048 S128x2048 where
  lhsContracting := [1]
  rhsContracting := [0]
  lhsNonContracting := [0]
  rhsNonContracting := [1]
  lhsBatch := []
  rhsBatch := []
  wf := dot_S128x1472_S1472x2048_S128x2048_1_0_0_1_n_n_wf
def dot_S128x512_S512x2048_S128x2048_1_0_0_1_n_n : DotDims S128x512 S512x2048 S128x2048 where
  lhsContracting := [1]
  rhsContracting := [0]
  lhsNonContracting := [0]
  rhsNonContracting := [1]
  lhsBatch := []
  rhsBatch := []
  wf := dot_S128x512_S512x2048_S128x2048_1_0_0_1_n_n_wf
def dot_S128x512_S512x256_S128x256_1_0_0_1_n_n : DotDims S128x512 S512x256 S128x256 where
  lhsContracting := [1]
  rhsContracting := [0]
  lhsNonContracting := [0]
  rhsNonContracting := [1]
  lhsBatch := []
  rhsBatch := []
  wf := dot_S128x512_S512x256_S128x256_1_0_0_1_n_n_wf

abbrev win0_0 : Pipeline.Window sig grid0 :=
  Pipeline.Window.ofSpec (Memref.whole main_v37) S128x1472.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S2x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg7) S2x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v39) S1472x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v41) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v43) S512x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v45) S512x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v47) S512x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v49) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v51) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v52) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v53_0) S128x1x256.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v53_1) S2x128x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v53_2) S2x128x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x16 : Shape := ⟨2, ![8192, 16]⟩
abbrev S8192x16x8 : Shape := ⟨3, ![8192, 16, 8]⟩
abbrev S2x8192x512 : Shape := ⟨3, ![2, 8192, 512]⟩
abbrev S257x32 : Shape := ⟨2, ![257, 32]⟩
abbrev S64x13 : Shape := ⟨2, ![64, 13]⟩
abbrev S16x6 : Shape := ⟨2, ![16, 6]⟩
abbrev S8x4 : Shape := ⟨2, ![8, 4]⟩
abbrev S256x29 : Shape := ⟨2, ![256, 29]⟩
abbrev S2048x1472 : Shape := ⟨2, ![2048, 1472]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩
abbrev S8192x16x1 : Shape := ⟨3, ![8192, 16, 1]⟩
abbrev S8192x16x32 : Shape := ⟨3, ![8192, 16, 32]⟩
abbrev S8192x16x13 : Shape := ⟨3, ![8192, 16, 13]⟩
abbrev S8192x16x6 : Shape := ⟨3, ![8192, 16, 6]⟩
abbrev S8192x16x4 : Shape := ⟨3, ![8192, 16, 4]⟩
abbrev S8192x16x29 : Shape := ⟨3, ![8192, 16, 29]⟩
abbrev S8192x16x92 : Shape := ⟨3, ![8192, 16, 92]⟩
abbrev S8192x1472 : Shape := ⟨2, ![8192, 1472]⟩
abbrev S1x8192x512 : Shape := ⟨3, ![1, 8192, 512]⟩
abbrev S8192x512 : Shape := ⟨2, ![8192, 512]⟩
abbrev S1472x2048 : Shape := ⟨2, ![1472, 2048]⟩
abbrev S8192x2048 : Shape := ⟨2, ![8192, 2048]⟩
abbrev S512x2048 : Shape := ⟨2, ![512, 2048]⟩
abbrev S1x2048 : Shape := ⟨2, ![1, 2048]⟩
abbrev S512x256 : Shape := ⟨2, ![512, 256]⟩
abbrev S8192x256 : Shape := ⟨2, ![8192, 256]⟩
abbrev S1x256 : Shape := ⟨2, ![1, 256]⟩
abbrev S8192x1x256 : Shape := ⟨3, ![8192, 1, 256]⟩

abbrev nBuf : Space → Nat
  | .hbm => 180
  | .vmem => 0
  | .smem => 0
  | _ => 0

abbrev hbmTy0_0 (i : Nat) : BufTy := match i % 128 with
  | 0 => ⟨S8192x16, .i32⟩
  | 1 => ⟨S8192x16, .i32⟩
  | 2 => ⟨S8192x16, .i32⟩
  | 3 => ⟨S8192x16, .i32⟩
  | 4 => ⟨S8192x16, .i32⟩
  | 5 => ⟨S8192x16x8, .f32⟩
  | 6 => ⟨S2x8192x512, .f32⟩
  | 7 => ⟨S2x8192x512, .f32⟩
  | 8 => ⟨S257x32, .f32⟩
  | 9 => ⟨S64x13, .f32⟩
  | 10 => ⟨S16x6, .f32⟩
  | 11 => ⟨S8x4, .f32⟩
  | 12 => ⟨S256x29, .f32⟩
  | 13 => ⟨S2048x1472, .f32⟩
  | 14 => ⟨S2048x512, .f32⟩
  | 15 => ⟨S2048, .f32⟩
  | 16 => ⟨S2048, .f32⟩
  | 17 => ⟨S2048x512, .f32⟩
  | 18 => ⟨S2048x512, .f32⟩
  | 19 => ⟨S2048, .f32⟩
  | 20 => ⟨S2048, .f32⟩
  | 21 => ⟨S256x512, .f32⟩
  | 22 => ⟨S256, .f32⟩
  | 23 => ⟨S_, .i32⟩
  | 24 => ⟨S8192x16, .i32⟩
  | 25 => ⟨S8192x16, .i1⟩
  | 26 => ⟨S_, .i32⟩
  | 27 => ⟨S8192x16, .i32⟩
  | 28 => ⟨S8192x16, .i32⟩
  | 29 => ⟨S8192x16, .i32⟩
  | 30 => ⟨S8192x16x1, .i32⟩
  | 31 => ⟨S8192x16x32, .f32⟩
  | 32 => ⟨S_, .i32⟩
  | 33 => ⟨S8192x16, .i32⟩
  | 34 => ⟨S8192x16, .i1⟩
  | 35 => ⟨S_, .i32⟩
  | 36 => ⟨S8192x16, .i32⟩
  | 37 => ⟨S8192x16, .i32⟩
  | 38 => ⟨S8192x16, .i32⟩
  | 39 => ⟨S8192x16x1, .i32⟩
  | 40 => ⟨S8192x16x13, .f32⟩
  | 41 => ⟨S_, .i32⟩
  | 42 => ⟨S8192x16, .i32⟩
  | 43 => ⟨S8192x16, .i1⟩
  | 44 => ⟨S_, .i32⟩
  | 45 => ⟨S8192x16, .i32⟩
  | 46 => ⟨S8192x16, .i32⟩
  | 47 => ⟨S8192x16, .i32⟩
  | 48 => ⟨S8192x16x1, .i32⟩
  | 49 => ⟨S8192x16x6, .f32⟩
  | 50 => ⟨S_, .i32⟩
  | 51 => ⟨S8192x16, .i32⟩
  | 52 => ⟨S8192x16, .i1⟩
  | 53 => ⟨S_, .i32⟩
  | 54 => ⟨S8192x16, .i32⟩
  | 55 => ⟨S8192x16, .i32⟩
  | 56 => ⟨S8192x16, .i32⟩
  | 57 => ⟨S8192x16x1, .i32⟩
  | 58 => ⟨S8192x16x4, .f32⟩
  | 59 => ⟨S_, .i32⟩
  | 60 => ⟨S8192x16, .i32⟩
  | 61 => ⟨S8192x16, .i1⟩
  | 62 => ⟨S_, .i32⟩
  | 63 => ⟨S8192x16, .i32⟩
  | 64 => ⟨S8192x16, .i32⟩
  | 65 => ⟨S8192x16, .i32⟩
  | 66 => ⟨S8192x16x1, .i32⟩
  | 67 => ⟨S8192x16x29, .f32⟩
  | 68 => ⟨S8192x16x92, .f32⟩
  | 69 => ⟨S8192x1472, .f32⟩
  | 70 => ⟨S1x8192x512, .f32⟩
  | 71 => ⟨S8192x512, .f32⟩
  | 72 => ⟨S1x8192x512, .f32⟩
  | 73 => ⟨S8192x512, .f32⟩
  | 74 => ⟨S1472x2048, .f32⟩
  | 75 => ⟨S8192x2048, .f32⟩
  | 76 => ⟨S512x2048, .f32⟩
  | 77 => ⟨S8192x2048, .f32⟩
  | 78 => ⟨S8192x2048, .f32⟩
  | 79 => ⟨S1x2048, .f32⟩
  | 80 => ⟨S8192x2048, .f32⟩
  | 81 => ⟨S8192x2048, .f32⟩
  | 82 => ⟨S1x2048, .f32⟩
  | 83 => ⟨S8192x2048, .f32⟩
  | 84 => ⟨S8192x2048, .f32⟩
  | 85 => ⟨S8192x512, .f32⟩
  | 86 => ⟨S8192x512, .f32⟩
  | 87 => ⟨S8192x512, .f32⟩
  | 88 => ⟨S8192x512, .f32⟩
  | 89 => ⟨S8192x512, .f32⟩
  | 90 => ⟨S8192x512, .f32⟩
  | 91 => ⟨S_, .f32⟩
  | 92 => ⟨S8192x512, .f32⟩
  | 93 => ⟨S8192x512, .f32⟩
  | 94 => ⟨S_, .f32⟩
  | 95 => ⟨S8192x512, .f32⟩
  | 96 => ⟨S8192x512, .f32⟩
  | 97 => ⟨S8192x512, .f32⟩
  | 98 => ⟨S8192x512, .f32⟩
  | 99 => ⟨S_, .f32⟩
  | 100 => ⟨S8192x512, .f32⟩
  | 101 => ⟨S8192x512, .f32⟩
  | 102 => ⟨S_, .f32⟩
  | 103 => ⟨S8192x512, .f32⟩
  | 104 => ⟨S8192x512, .f32⟩
  | 105 => ⟨S8192x512, .f32⟩
  | 106 => ⟨S8192x512, .f32⟩
  | 107 => ⟨S_, .f32⟩
  | 108 => ⟨S8192x512, .f32⟩
  | 109 => ⟨S8192x512, .f32⟩
  | 110 => ⟨S_, .f32⟩
  | 111 => ⟨S8192x512, .f32⟩
  | 112 => ⟨S8192x512, .f32⟩
  | 113 => ⟨S8192x512, .f32⟩
  | 114 => ⟨S8192x512, .f32⟩
  | 115 => ⟨S8192x512, .f32⟩
  | 116 => ⟨S8192x512, .f32⟩
  | 117 => ⟨S8192x512, .f32⟩
  | 118 => ⟨S8192x512, .f32⟩
  | 119 => ⟨S1x8192x512, .f32⟩
  | 120 => ⟨S8192x512, .f32⟩
  | 121 => ⟨S1x8192x512, .f32⟩
  | 122 => ⟨S8192x512, .f32⟩
  | 123 => ⟨S512x2048, .f32⟩
  | 124 => ⟨S8192x2048, .f32⟩
  | 125 => ⟨S512x2048, .f32⟩
  | 126 => ⟨S8192x2048, .f32⟩
  | 127 => ⟨S8192x2048, .f32⟩
  | _ => ⟨S8192x16, .i32⟩

abbrev hbmTy0_1 (i : Nat) : BufTy := match i % 128 with
  | 0 => ⟨S1x2048, .f32⟩
  | 1 => ⟨S8192x2048, .f32⟩
  | 2 => ⟨S8192x2048, .f32⟩
  | 3 => ⟨S1x2048, .f32⟩
  | 4 => ⟨S8192x2048, .f32⟩
  | 5 => ⟨S8192x2048, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S_, .f32⟩
  | 24 => ⟨S8192x512, .f32⟩
  | 25 => ⟨S8192x512, .f32⟩
  | 26 => ⟨S8192x512, .f32⟩
  | 27 => ⟨S8192x512, .f32⟩
  | 28 => ⟨S_, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S8192x512, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S512x256, .f32⟩
  | 41 => ⟨S8192x256, .f32⟩
  | 42 => ⟨S1x256, .f32⟩
  | 43 => ⟨S8192x256, .f32⟩
  | 44 => ⟨S8192x256, .f32⟩
  | 45 => ⟨S8192x1x256, .f32⟩
  | 46 => ⟨S1x8192x512, .f32⟩
  | 47 => ⟨S1x8192x512, .f32⟩
  | 48 => ⟨S2x8192x512, .f32⟩
  | 49 => ⟨S1x8192x512, .f32⟩
  | 50 => ⟨S1x8192x512, .f32⟩
  | 51 => ⟨S2x8192x512, .f32⟩
  | _ => ⟨S8192x16, .i32⟩

abbrev hbmTy (i : Nat) : BufTy := match i / 128 with
  | 0 => hbmTy0_0 i
  | 1 => hbmTy0_1 i
  | _ => ⟨S8192x16, .i32⟩

abbrev bufTy : (tb : Table) → Fin (tcTables nBuf tb) → BufTy
  | .hbm, ⟨i, _⟩ => hbmTy i
  | _, _ => ⟨S8192x16, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_v0 : Ref sig .tc := ⟨.hbm, 24, rfl⟩
abbrev main_v1 : Ref sig .tc := ⟨.hbm, 25, rfl⟩
abbrev main_c_0 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_c_1 : Ref sig .tc := ⟨.hbm, 32, rfl⟩
abbrev main_v7 : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_c_6 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_c_7 : Ref sig .tc := ⟨.hbm, 59, rfl⟩
abbrev main_v28 : Ref sig .tc := ⟨.hbm, 60, rfl⟩
abbrev main_v29 : Ref sig .tc := ⟨.hbm, 61, rfl⟩
abbrev main_c_8 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst : Ref sig .tc := ⟨.hbm, 91, rfl⟩
abbrev main_v58 : Ref sig .tc := ⟨.hbm, 92, rfl⟩
abbrev main_v59 : Ref sig .tc := ⟨.hbm, 93, rfl⟩
abbrev main_cst_9 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_cst_10 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_cst_12 : Ref sig .tc := ⟨.hbm, 107, rfl⟩
abbrev main_v70 : Ref sig .tc := ⟨.hbm, 108, rfl⟩
abbrev main_v71 : Ref sig .tc := ⟨.hbm, 109, rfl⟩
abbrev main_cst_13 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_cst_14 : Ref sig .tc := ⟨.hbm, 140, rfl⟩
abbrev main_v101 : Ref sig .tc := ⟨.hbm, 141, rfl⟩
abbrev main_v102 : Ref sig .tc := ⟨.hbm, 142, rfl⟩
abbrev main_cst_15 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_cst_16 : Ref sig .tc := ⟨.hbm, 148, rfl⟩
abbrev main_v107 : Ref sig .tc := ⟨.hbm, 149, rfl⟩
abbrev main_v108 : Ref sig .tc := ⟨.hbm, 150, rfl⟩
abbrev main_cst_17 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_cst_18 : Ref sig .tc := ⟨.hbm, 156, rfl⟩
abbrev main_v113 : Ref sig .tc := ⟨.hbm, 157, rfl⟩
abbrev main_v114 : Ref sig .tc := ⟨.hbm, 158, rfl⟩
abbrev main_cst_19 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩

abbrev nD : Nat := 1
abbrev τ : Topo := Topo.v7x

variable {F : FTy → Type} [FloatOps F]

class Facts₀ : Prop where
  bcast_S_S8192x16 : S_.BroadcastsInDim S8192x16 (![] : Fin 0 → Fin S8192x16.rank)
  bcast_S8192x16_S8192x16x1_0_1 : S8192x16.BroadcastsInDim S8192x16x1 (![0, 1] : Fin 2 → Fin S8192x16x1.rank)
  concatenates_S8192x16x32_S8192x16x13_S8192x16x6_S8192x16x4_S8192x16x29_S8192x16x8_S8192x16x92_d2 : Shape.Concatenates [S8192x16x32, S8192x16x13, S8192x16x6, S8192x16x4, S8192x16x29, S8192x16x8] S8192x16x92 2
  shapeCasts_S8192x16x92_S8192x1472 : S8192x16x92.ShapeCasts S8192x1472
  slices_S2x8192x512_S1x8192x512_0_0_0 : S2x8192x512.Slices ![0, 0, 0] S1x8192x512
  shapeCasts_S1x8192x512_S8192x512 : S1x8192x512.ShapeCasts S8192x512
  transposes_S2048x1472_S1472x2048_1_0 : S2048x1472.Transposes [1, 0] S1472x2048
  transposes_S2048x512_S512x2048_1_0 : S2048x512.Transposes [1, 0] S512x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  slices_S2x8192x512_S1x8192x512_1_0_0 : S2x8192x512.Slices ![1, 0, 0] S1x8192x512
  transposes_S256x512_S512x256_1_0 : S256x512.Transposes [1, 0] S512x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x256_S8192x1x256_0_2 : S8192x256.BroadcastsInDim S8192x1x256 (![0, 2] : Fin 2 → Fin S8192x1x256.rank)
  bcast_S8192x512_S1x8192x512_1_2 : S8192x512.BroadcastsInDim S1x8192x512 (![1, 2] : Fin 2 → Fin S1x8192x512.rank)
  concatenates_S1x8192x512_S1x8192x512_S2x8192x512_d0 : Shape.Concatenates [S1x8192x512, S1x8192x512] S2x8192x512 0
  gather_S257x32_S8192x16x1_S8192x16x32_2_0_n_n_0_2_132_wf : GatherDims.WF S257x32 S8192x16x1 S8192x16x32 [2] [0] [] [0] [] 2 ![1, 32]
  gather_S64x13_S8192x16x1_S8192x16x13_2_0_n_n_0_2_113_wf : GatherDims.WF S64x13 S8192x16x1 S8192x16x13 [2] [0] [] [0] [] 2 ![1, 13]
  gather_S16x6_S8192x16x1_S8192x16x6_2_0_n_n_0_2_16_wf : GatherDims.WF S16x6 S8192x16x1 S8192x16x6 [2] [0] [] [0] [] 2 ![1, 6]
  gather_S8x4_S8192x16x1_S8192x16x4_2_0_n_n_0_2_14_wf : GatherDims.WF S8x4 S8192x16x1 S8192x16x4 [2] [0] [] [0] [] 2 ![1, 4]
  gather_S256x29_S8192x16x1_S8192x16x29_2_0_n_n_0_2_129_wf : GatherDims.WF S256x29 S8192x16x1 S8192x16x29 [2] [0] [] [0] [] 2 ![1, 29]
  dot_S8192x1472_S1472x2048_S8192x2048_1_0_0_1_n_n_wf : DotDims.WF S8192x1472 S1472x2048 S8192x2048 [1] [0] [0] [1] [] []
  dot_S8192x512_S512x2048_S8192x2048_1_0_0_1_n_n_wf : DotDims.WF S8192x512 S512x2048 S8192x2048 [1] [0] [0] [1] [] []
  dot_S8192x512_S512x256_S8192x256_1_0_0_1_n_n_wf : DotDims.WF S8192x512 S512x256 S8192x256 [1] [0] [0] [1] [] []

variable [Facts₀]

def gather_S257x32_S8192x16x1_S8192x16x32_2_0_n_n_0_2_132 : GatherDims S257x32 S8192x16x1 S8192x16x32 where
  offsetDims := [2]
  collapsedSliceDims := [0]
  operandBatchingDims := []
  startIndicesBatchingDims := []
  startIndexMap := [0]
  indexVectorDim := 2
  sliceSizes := ![1, 32]
  wf := gather_S257x32_S8192x16x1_S8192x16x32_2_0_n_n_0_2_132_wf
def gather_S64x13_S8192x16x1_S8192x16x13_2_0_n_n_0_2_113 : GatherDims S64x13 S8192x16x1 S8192x16x13 where
  offsetDims := [2]
  collapsedSliceDims := [0]
  operandBatchingDims := []
  startIndicesBatchingDims := []
  startIndexMap := [0]
  indexVectorDim := 2
  sliceSizes := ![1, 13]
  wf := gather_S64x13_S8192x16x1_S8192x16x13_2_0_n_n_0_2_113_wf
def gather_S16x6_S8192x16x1_S8192x16x6_2_0_n_n_0_2_16 : GatherDims S16x6 S8192x16x1 S8192x16x6 where
  offsetDims := [2]
  collapsedSliceDims := [0]
  operandBatchingDims := []
  startIndicesBatchingDims := []
  startIndexMap := [0]
  indexVectorDim := 2
  sliceSizes := ![1, 6]
  wf := gather_S16x6_S8192x16x1_S8192x16x6_2_0_n_n_0_2_16_wf
def gather_S8x4_S8192x16x1_S8192x16x4_2_0_n_n_0_2_14 : GatherDims S8x4 S8192x16x1 S8192x16x4 where
  offsetDims := [2]
  collapsedSliceDims := [0]
  operandBatchingDims := []
  startIndicesBatchingDims := []
  startIndexMap := [0]
  indexVectorDim := 2
  sliceSizes := ![1, 4]
  wf := gather_S8x4_S8192x16x1_S8192x16x4_2_0_n_n_0_2_14_wf
def gather_S256x29_S8192x16x1_S8192x16x29_2_0_n_n_0_2_129 : GatherDims S256x29 S8192x16x1 S8192x16x29 where
  offsetDims := [2]
  collapsedSliceDims := [0]
  operandBatchingDims := []
  startIndicesBatchingDims := []
  startIndexMap := [0]
  indexVectorDim := 2
  sliceSizes := ![1, 29]
  wf := gather_S256x29_S8192x16x1_S8192x16x29_2_0_n_n_0_2_129_wf
def dot_S8192x1472_S1472x2048_S8192x2048_1_0_0_1_n_n : DotDims S8192x1472 S1472x2048 S8192x2048 where
  lhsContracting := [1]
  rhsContracting := [0]
  lhsNonContracting := [0]
  rhsNonContracting := [1]
  lhsBatch := []
  rhsBatch := []
  wf := dot_S8192x1472_S1472x2048_S8192x2048_1_0_0_1_n_n_wf
def dot_S8192x512_S512x2048_S8192x2048_1_0_0_1_n_n : DotDims S8192x512 S512x2048 S8192x2048 where
  lhsContracting := [1]
  rhsContracting := [0]
  lhsNonContracting := [0]
  rhsNonContracting := [1]
  lhsBatch := []
  rhsBatch := []
  wf := dot_S8192x512_S512x2048_S8192x2048_1_0_0_1_n_n_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.LibNaryCongr.lean ====
/-
  Rewriting under a host operation of any number of operands (a concatenation of several arrays) uses the operation's
  congruence principle: equal operands, result buffer and function give equal operations. It is stated here once, so that
  every module that rewrites under such an operation shares the one statement.
-/
import Idealize.ShloMosaic.Lib.StableHlo.Run

namespace Cert.Lib

/-- The congruence principle of the n-ary host operation exists (it is realized by naming it). -/
theorem nary_congr_realized : True := by
  have := @Idealize.ShloMosaic.StableHlo.nary.congr_simp
  trivial

end Cert.Lib
-- ==== Proof.FrameHostKernel.lean ====
/- The program's host prefix and what the region finds. @main is 63 host operations (five table look-ups, their
  concatenation into the feature rows, the transposed weights, the summed biases) followed by one pipelined region. None of
  those operations writes an argument array, so the region finds every argument as launched; each window's block at a grid
  point is read off the array the region finds; an input window's staging buffer holds that block at every point, fetched
  there or kept from the point before; and a run of the region that leaves the arrays no window stages alone leaves the
  twenty-three arguments as launched.
-/
import proofs.«171206_j17300128268701_1_alg».proof.Proof.LaunchKernel
import proofs.«171206_j17300128268701_1_alg».proof.Proof.LibNaryCongr
import proofs.«171206_j17300128268701_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the 63 host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a buffer of its own, none of them an argument: decided reference by reference. -/
local macro "kept_by_host" : tactic => `(tactic| (
  simp only [hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

set_option maxHeartbeats 1000000 in
/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by kept_by_host))
set_option maxHeartbeats 1000000 in
/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by kept_by_host))
set_option maxHeartbeats 1000000 in
/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by kept_by_host))
set_option maxHeartbeats 1000000 in
/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by kept_by_host))
set_option maxHeartbeats 1000000 in
/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by kept_by_host))
set_option maxHeartbeats 1000000 in
/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by kept_by_host))
set_option maxHeartbeats 1000000 in
/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by kept_by_host))
set_option maxHeartbeats 1000000 in
/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by kept_by_host))
set_option maxHeartbeats 1000000 in
/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by kept_by_host))
set_option maxHeartbeats 1000000 in
/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by kept_by_host))
set_option maxHeartbeats 1000000 in
/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by kept_by_host))
set_option maxHeartbeats 1000000 in
/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by kept_by_host))
set_option maxHeartbeats 1000000 in
/-- The region finds argument 12 as launched. -/
theorem V_main_arg12 (c : Dev nD) : V m c main_arg12 = m ((c : Thread nD τ).loc main_arg12) :=
  StableHlo.after_of_forall_not_mem (b := Proc.devRef .tc main_arg12) _ _ (List.forall_iff_forall_mem.mp (by kept_by_host))
set_option maxHeartbeats 1000000 in
/-- The region finds argument 13 as launched. -/
theorem V_main_arg13 (c : Dev nD) : V m c main_arg13 = m ((c : Thread nD τ).loc main_arg13) :=
  StableHlo.after_of_forall_not_mem (b := Proc.devRef .tc main_arg13) _ _ (List.forall_iff_forall_mem.mp (by kept_by_host))
set_option maxHeartbeats 1000000 in
/-- The region finds argument 14 as launched. -/
theorem V_main_arg14 (c : Dev nD) : V m c main_arg14 = m ((c : Thread nD τ).loc main_arg14) :=
  StableHlo.after_of_forall_not_mem (b := Proc.devRef .tc main_arg14) _ _ (List.forall_iff_forall_mem.mp (by kept_by_host))
set_option maxHeartbeats 1000000 in
/-- The region finds argument 15 as launched. -/
theorem V_main_arg15 (c : Dev nD) : V m c main_arg15 = m ((c : Thread nD τ).loc main_arg15) :=
  StableHlo.after_of_forall_not_mem (b := Proc.devRef .tc main_arg15) _ _ (List.forall_iff_forall_mem.mp (by kept_by_host))
set_option maxHeartbeats 1000000 in
/-- The region finds argument 16 as launched. -/
theorem V_main_arg16 (c : Dev nD) : V m c main_arg16 = m ((c : Thread nD τ).loc main_arg16) :=
  StableHlo.after_of_forall_not_mem (b := Proc.devRef .tc main_arg16) _ _ (List.forall_iff_forall_mem.mp (by kept_by_host))
set_option maxHeartbeats 1000000 in
/-- The region finds argument 17 as launched. -/
theorem V_main_arg17 (c : Dev nD) : V m c main_arg17 = m ((c : Thread nD τ).loc main_arg17) :=
  StableHlo.after_of_forall_not_mem (b := Proc.devRef .tc main_arg17) _ _ (List.forall_iff_forall_mem.mp (by kept_by_host))
set_option maxHeartbeats 1000000 in
/-- The region finds argument 18 as launched. -/
theorem V_main_arg18 (c : Dev nD) : V m c main_arg18 = m ((c : Thread nD τ).loc main_arg18) :=
  StableHlo.after_of_forall_not_mem (b := Proc.devRef .tc main_arg18) _ _ (List.forall_iff_forall_mem.mp (by kept_by_host))
set_option maxHeartbeats 1000000 in
/-- The region finds argument 19 as launched. -/
theorem V_main_arg19 (c : Dev nD) : V m c main_arg19 = m ((c : Thread nD τ).loc main_arg19) :=
  StableHlo.after_of_forall_not_mem (b := Proc.devRef .tc main_arg19) _ _ (List.forall_iff_forall_mem.mp (by kept_by_host))
set_option maxHeartbeats 1000000 in
/-- The region finds argument 20 as launched. -/
theorem V_main_arg20 (c : Dev nD) : V m c main_arg20 = m ((c : Thread nD τ).loc main_arg20) :=
  StableHlo.after_of_forall_not_mem (b := Proc.devRef .tc main_arg20) _ _ (List.forall_iff_forall_mem.mp (by kept_by_host))
set_option maxHeartbeats 1000000 in
/-- The region finds argument 21 as launched. -/
theorem V_main_arg21 (c : Dev nD) : V m c main_arg21 = m ((c : Thread nD τ).loc main_arg21) :=
  StableHlo.after_of_forall_not_mem (b := Proc.devRef .tc main_arg21) _ _ (List.forall_iff_forall_mem.mp (by kept_by_host))
set_option maxHeartbeats 1000000 in
/-- The region finds argument 22 as launched. -/
theorem V_main_arg22 (c : Dev nD) : V m c main_arg22 = m ((c : Thread nD τ).loc main_arg22) :=
  StableHlo.after_of_forall_not_mem (b := Proc.devRef .tc main_arg22) _ _ (List.forall_iff_forall_mem.mp (by kept_by_host))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the point fetches it or keeps the previous one. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the point fetches it or keeps the previous one. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the point fetches it or keeps the previous one. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the point fetches it or keeps the previous one. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the point fetches it or keeps the previous one. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the point fetches it or keeps the previous one. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the point fetches it or keeps the previous one. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether the point fetches it or keeps the previous one. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether the point fetches it or keeps the previous one. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, whether the point fetches it or keeps the previous one. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, whether the point fetches it or keeps the previous one. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the region -/

/-- From a run that ends with every staged array at what the proof data computes and every other buffer as the region found
    it: an argument a window stages as an input is never written back, and the others are among the buffers left alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

end Cert.Kernel.Fr

end
-- ==== Proof.BodyDefsKernel.lean ====
/-
  What the kernel body computes at one grid point, as functions of the input blocks. The body loads the row block of the
  features, the two layers' previous hidden and cell states (the two halves of each state block), the five weight matrices
  and the three bias rows; it computes one LSTM step through the two layers and the output projection; it stores the logits
  into the first output buffer, the two new hidden states into the two halves of the second, and the two new cell states into
  the two halves of the third. Each output buffer after the body is the canonical array of its stores, which cover it.
-/
import proofs.«171206_j17300128268701_1_alg».proof.Proof.Gen.Kernel.Skeleton
import Idealize.ShloMosaic.Lib.Pipeline.FrameBody
import Idealize.ShloMosaic.Lib.Ring

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The rectangles the body reads and writes through -/

abbrev rX : Rect S128x1472 := Rect.unit (s := S128x1472) ![0, 0] S128x1472.size inb_S128x1472_S128x1472_0_0
abbrev rS0 : Rect S2x128x512 := Rect.unit (s := S2x128x512) ![0, 0, 0] S1x128x512.size inb_S2x128x512_S1x128x512_0_0_0
abbrev rS1 : Rect S2x128x512 := Rect.unit (s := S2x128x512) ![1, 0, 0] S1x128x512.size inb_S2x128x512_S1x128x512_1_0_0
abbrev rW : Rect S1472x2048 := Rect.unit (s := S1472x2048) ![0, 0] S1472x2048.size inb_S1472x2048_S1472x2048_0_0
abbrev rU : Rect S512x2048 := Rect.unit (s := S512x2048) ![0, 0] S512x2048.size inb_S512x2048_S512x2048_0_0
abbrev rP : Rect S512x256 := Rect.unit (s := S512x256) ![0, 0] S512x256.size inb_S512x256_S512x256_0_0
abbrev rB : Rect S1x2048 := Rect.unit (s := S1x2048) ![0, 0] S1x2048.size inb_S1x2048_S1x2048_0_0
abbrev rBo : Rect S1x256 := Rect.unit (s := S1x256) ![0, 0] S1x256.size inb_S1x256_S1x256_0_0
abbrev rL : Rect S128x1x256 := Rect.unit (s := S128x1x256) ![0, 0, 0] S128x1x256.size inb_S128x1x256_S128x1x256_0_0_0

/-! ## The values the body computes, from the input blocks -/

/-- Layer 0's new cell state. -/
def cell1 (x0 : Vec F S128x1472 .bf16) (x1 x2 : Vec F S2x128x512 .f32) (x3 : Vec F S1472x2048 .bf16) (x4 : Vec F S512x2048 .bf16) (x8 : Vec F S1x2048 .f32) : FVec F S128x512 .f32 :=
  k0_pay7 (View.ld x0 rX) (View.ld x1 rS0) (View.ld x2 rS0) (View.ld x3 rW) (View.ld x4 rU) (View.ld x8 rB)
/-- Layer 0's new hidden state. -/
def hid1 (x0 : Vec F S128x1472 .bf16) (x1 x2 : Vec F S2x128x512 .f32) (x3 : Vec F S1472x2048 .bf16) (x4 : Vec F S512x2048 .bf16) (x8 : Vec F S1x2048 .f32) : FVec F S128x512 .f32 :=
  k0_pay8 (View.ld x0 rX) (View.ld x1 rS0) (View.ld x2 rS0) (View.ld x3 rW) (View.ld x4 rU) (View.ld x8 rB)
/-- Layer 0's new hidden state as layer 1 is fed it. -/
def hid1n (x0 : Vec F S128x1472 .bf16) (x1 x2 : Vec F S2x128x512 .f32) (x3 : Vec F S1472x2048 .bf16) (x4 : Vec F S512x2048 .bf16) (x8 : Vec F S1x2048 .f32) : FVec F S128x512 .bf16 :=
  k0_pay9 (View.ld x0 rX) (View.ld x1 rS0) (View.ld x2 rS0) (View.ld x3 rW) (View.ld x4 rU) (View.ld x8 rB)
/-- Layer 1's new cell state. -/
def cell2 (x0 : Vec F S128x1472 .bf16) (x1 x2 : Vec F S2x128x512 .f32) (x3 : Vec F S1472x2048 .bf16) (x4 x5 x6 : Vec F S512x2048 .bf16) (x8 x9 : Vec F S1x2048 .f32) : FVec F S128x512 .f32 :=
  k0_pay11 (k0_pay4 (View.ld x1 rS1)) (k0_pay5 (View.ld x2 rS1)) (hid1n x0 x1 x2 x3 x4 x8) (View.ld x5 rU) (View.ld x6 rU) (View.ld x9 rB)
/-- Layer 1's new hidden state. -/
def hid2 (x0 : Vec F S128x1472 .bf16) (x1 x2 : Vec F S2x128x512 .f32) (x3 : Vec F S1472x2048 .bf16) (x4 x5 x6 : Vec F S512x2048 .bf16) (x8 x9 : Vec F S1x2048 .f32) : FVec F S128x512 .f32 :=
  k0_pay12 (k0_pay4 (View.ld x1 rS1)) (k0_pay5 (View.ld x2 rS1)) (hid1n x0 x1 x2 x3 x4 x8) (View.ld x5 rU) (View.ld x6 rU) (View.ld x9 rB)
/-- The logits. -/
def logit (x0 : Vec F S128x1472 .bf16) (x1 x2 : Vec F S2x128x512 .f32) (x3 : Vec F S1472x2048 .bf16) (x4 x5 x6 : Vec F S512x2048 .bf16) (x7 : Vec F S512x256 .bf16) (x8 x9 : Vec F S1x2048 .f32) (x10 : Vec F S1x256 .f32) : FVec F S128x1x256 .f32 :=
  k0_pay13 (k0_pay4 (View.ld x1 rS1)) (k0_pay5 (View.ld x2 rS1)) (hid1n x0 x1 x2 x3 x4 x8) (View.ld x5 rU) (View.ld x6 rU) (View.ld x9 rB) (View.ld x7 rP) (View.ld x10 rBo)

/-! ## What the body leaves in each output window's buffer (the stores as pieces, the last one first) -/

def out0_11 (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) : Vec F S128x1x256 .f32 :=
  View.canon [⟨rL, logit x0 x1 x2 x3 x4 x5 x6 x7 x8 x9 x10⟩]
def out0_12 (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) : Vec F S2x128x512 .f32 :=
  View.canon [⟨rS1, k0_pay1 (hid2 x0 x1 x2 x3 x4 x5 x6 x8 x9)⟩, ⟨rS0, k0_pay14 (hid1 x0 x1 x2 x3 x4 x8)⟩]
def out0_13 (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) : Vec F S2x128x512 .f32 :=
  View.canon [⟨rS1, k0_pay3 (cell2 x0 x1 x2 x3 x4 x5 x6 x8 x9)⟩, ⟨rS0, k0_pay2 (cell1 x0 x1 x2 x3 x4 x8)⟩]

/-- One store writes the whole logits buffer. -/
theorem cover0_11 (p0 : Vec F S128x1x256 .f32) (y : S128x1x256.Idx) :
    ∃ pc ∈ ([⟨rL, p0⟩] : List (View.Piece (Elt F) S128x1x256 .f32)), y ∈ pc.1.set :=
  View.cover_of_tiled [⟨rL, p0⟩] S128x1x256.size (by rfl) y
/-- The two stores into a state buffer write its two halves. -/
theorem cover0_st (p1 p0 : Vec F S1x128x512 .f32) (y : S2x128x512.Idx) :
    ∃ pc ∈ ([⟨rS1, p1⟩, ⟨rS0, p0⟩] : List (View.Piece (Elt F) S2x128x512 .f32)), y ∈ pc.1.set :=
  View.cover_of_tiled [⟨rS1, p1⟩, ⟨rS0, p0⟩] S1x128x512.size (by rfl) y

end Cert.Kernel.Body

end
-- ==== Proof.FrameBodyKernel.lean ====
/-
  The kernel body's triple: on whole staging buffers, the inputs' at known contents and the outputs' at anything, the body
  runs without a fault to a continuation that holds the inputs' buffers as they were and each output's buffer at the
  canonical array of its stores over the input blocks.
-/
import proofs.«171206_j17300128268701_1_alg».proof.Proof.LaunchKernel
import proofs.«171206_j17300128268701_1_alg».proof.Proof.BodyDefsKernel
import proofs.«171206_j17300128268701_1_alg».proof.Proof.Gen.Kernel.Points
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers, the inputs' at read contents and the outputs' at anything, runs to a continuation
    that holds the inputs' as they were and each output's at what the stores leave. -/
theorem sound_kernel (c : Dev nD) (E : Set ℕ) (i : grid0.Coords) (arg0 : Memref sig .tc .vmem S128x1472 .bf16) (harg0 : arg0.IsWhole) (arg1 : Memref sig .tc .vmem S2x128x512 .f32) (harg1 : arg1.IsWhole) (arg2 : Memref sig .tc .vmem S2x128x512 .f32) (harg2 : arg2.IsWhole) (arg3 : Memref sig .tc .vmem S1472x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x256 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S128x1x256 .f32) (harg11 : arg11.IsWhole) (arg12 : Memref sig .tc .vmem S2x128x512 .f32) (harg12 : arg12.IsWhole) (arg13 : Memref sig .tc .vmem S2x128x512 .f32) (harg13 : arg13.IsWhole)
    (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (out0_11 x0 x1 x2 x3 x4 x5 x6 x7 x8 x9 x10)
            ∗ owns (c : Thread nD τ) arg12 fullShare (out0_12 x0 x1 x2 x3 x4 x5 x6 x7 x8 x9 x10)
            ∗ owns (c : Thread nD τ) arg13 fullShare (out0_13 x0 x1 x2 x3 x4 x5 x6 x7 x8 x9 x10)) -∗ K ⟨⟩))
      ⊢ wp frame (wpE (defs₀ (F := F)) Variants.none c none) E (cc0__lstm_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_st _ _)
  iexists _; isplitr
  swap; · iexact H13
  ipureintro
  exact View.read_writes_eq_canon _ _ _ (cover0_st _ _)

end Cert.Kernel.Body

end
-- ==== Proof.FrameRunKernel.lean ====
/-
  The region's run. The proof data of the one pipeline: each array as the region finds it; after the body at a grid point
  each input window's buffer still at its block and each output window's at what the body's stores leave, a function of
  the point's input blocks; nothing owed, full shares. The body obligation at a generic point, the run of @main to the
  post in which every staged array is named, and the frame: every argument ends as launched.
-/
import proofs.«171206_j17300128268701_1_alg».proof.Proof.FrameHostKernel
import proofs.«171206_j17300128268701_1_alg».proof.Proof.FrameBodyKernel

set_option maxRecDepth 16384

noncomputable section

namespace Cert.Kernel.Fr

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the twenty-three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.Kernel.Fr

end
-- ==== Proof.FrameHostKernelIdeal.lean ====
/- The program's host prefix and what the region finds. @main is 63 host operations (five table look-ups, their
  concatenation into the feature rows, the transposed weights, the summed biases) followed by one pipelined region. None of
  those operations writes an argument array, so the region finds every argument as launched; each window's block at a grid
  point is read off the array the region finds; an input window's staging buffer holds that block at every point, fetched
  there or kept from the point before; and a run of the region that leaves the arrays no window stages alone leaves the
  twenty-three arguments as launched.
-/
import proofs.«171206_j17300128268701_1_alg».proof.Proof.LaunchKernelIdeal
import proofs.«171206_j17300128268701_1_alg».proof.Proof.LibNaryCongr
import proofs.«171206_j17300128268701_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: the launch memory after the 63 host operations. -/
abbrev V (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- Every host operation writes a buffer of its own, none of them an argument: decided reference by reference. -/
local macro "kept_by_host" : tactic => `(tactic| (
  simp only [hostOps0, List.Forall, StableHlo.nullary_writes, StableHlo.unary_writes, StableHlo.binary_writes,
    StableHlo.ternary_writes, StableHlo.quaternary_writes, StableHlo.reshape_writes, StableHlo.binaryIndexed_writes,
    StableHlo.nary_writes, Finset.mem_singleton]
  repeat' apply And.intro
  all_goals exact StableHlo.devRef_ne_of_ne (by decide)))

set_option maxHeartbeats 1000000 in
/-- The region finds argument 0 as launched. -/
theorem V_main_arg0 (c : Dev nD) : V m c main_arg0 = m ((c : Thread nD τ).loc main_arg0) :=
  StableHlo.after_of_forall_not_mem (b := Proc.devRef .tc main_arg0) _ _ (List.forall_iff_forall_mem.mp (by kept_by_host))
set_option maxHeartbeats 1000000 in
/-- The region finds argument 1 as launched. -/
theorem V_main_arg1 (c : Dev nD) : V m c main_arg1 = m ((c : Thread nD τ).loc main_arg1) :=
  StableHlo.after_of_forall_not_mem (b := Proc.devRef .tc main_arg1) _ _ (List.forall_iff_forall_mem.mp (by kept_by_host))
set_option maxHeartbeats 1000000 in
/-- The region finds argument 2 as launched. -/
theorem V_main_arg2 (c : Dev nD) : V m c main_arg2 = m ((c : Thread nD τ).loc main_arg2) :=
  StableHlo.after_of_forall_not_mem (b := Proc.devRef .tc main_arg2) _ _ (List.forall_iff_forall_mem.mp (by kept_by_host))
set_option maxHeartbeats 1000000 in
/-- The region finds argument 3 as launched. -/
theorem V_main_arg3 (c : Dev nD) : V m c main_arg3 = m ((c : Thread nD τ).loc main_arg3) :=
  StableHlo.after_of_forall_not_mem (b := Proc.devRef .tc main_arg3) _ _ (List.forall_iff_forall_mem.mp (by kept_by_host))
set_option maxHeartbeats 1000000 in
/-- The region finds argument 4 as launched. -/
theorem V_main_arg4 (c : Dev nD) : V m c main_arg4 = m ((c : Thread nD τ).loc main_arg4) :=
  StableHlo.after_of_forall_not_mem (b := Proc.devRef .tc main_arg4) _ _ (List.forall_iff_forall_mem.mp (by kept_by_host))
set_option maxHeartbeats 1000000 in
/-- The region finds argument 5 as launched. -/
theorem V_main_arg5 (c : Dev nD) : V m c main_arg5 = m ((c : Thread nD τ).loc main_arg5) :=
  StableHlo.after_of_forall_not_mem (b := Proc.devRef .tc main_arg5) _ _ (List.forall_iff_forall_mem.mp (by kept_by_host))
set_option maxHeartbeats 1000000 in
/-- The region finds argument 6 as launched. -/
theorem V_main_arg6 (c : Dev nD) : V m c main_arg6 = m ((c : Thread nD τ).loc main_arg6) :=
  StableHlo.after_of_forall_not_mem (b := Proc.devRef .tc main_arg6) _ _ (List.forall_iff_forall_mem.mp (by kept_by_host))
set_option maxHeartbeats 1000000 in
/-- The region finds argument 7 as launched. -/
theorem V_main_arg7 (c : Dev nD) : V m c main_arg7 = m ((c : Thread nD τ).loc main_arg7) :=
  StableHlo.after_of_forall_not_mem (b := Proc.devRef .tc main_arg7) _ _ (List.forall_iff_forall_mem.mp (by kept_by_host))
set_option maxHeartbeats 1000000 in
/-- The region finds argument 8 as launched. -/
theorem V_main_arg8 (c : Dev nD) : V m c main_arg8 = m ((c : Thread nD τ).loc main_arg8) :=
  StableHlo.after_of_forall_not_mem (b := Proc.devRef .tc main_arg8) _ _ (List.forall_iff_forall_mem.mp (by kept_by_host))
set_option maxHeartbeats 1000000 in
/-- The region finds argument 9 as launched. -/
theorem V_main_arg9 (c : Dev nD) : V m c main_arg9 = m ((c : Thread nD τ).loc main_arg9) :=
  StableHlo.after_of_forall_not_mem (b := Proc.devRef .tc main_arg9) _ _ (List.forall_iff_forall_mem.mp (by kept_by_host))
set_option maxHeartbeats 1000000 in
/-- The region finds argument 10 as launched. -/
theorem V_main_arg10 (c : Dev nD) : V m c main_arg10 = m ((c : Thread nD τ).loc main_arg10) :=
  StableHlo.after_of_forall_not_mem (b := Proc.devRef .tc main_arg10) _ _ (List.forall_iff_forall_mem.mp (by kept_by_host))
set_option maxHeartbeats 1000000 in
/-- The region finds argument 11 as launched. -/
theorem V_main_arg11 (c : Dev nD) : V m c main_arg11 = m ((c : Thread nD τ).loc main_arg11) :=
  StableHlo.after_of_forall_not_mem (b := Proc.devRef .tc main_arg11) _ _ (List.forall_iff_forall_mem.mp (by kept_by_host))
set_option maxHeartbeats 1000000 in
/-- The region finds argument 12 as launched. -/
theorem V_main_arg12 (c : Dev nD) : V m c main_arg12 = m ((c : Thread nD τ).loc main_arg12) :=
  StableHlo.after_of_forall_not_mem (b := Proc.devRef .tc main_arg12) _ _ (List.forall_iff_forall_mem.mp (by kept_by_host))
set_option maxHeartbeats 1000000 in
/-- The region finds argument 13 as launched. -/
theorem V_main_arg13 (c : Dev nD) : V m c main_arg13 = m ((c : Thread nD τ).loc main_arg13) :=
  StableHlo.after_of_forall_not_mem (b := Proc.devRef .tc main_arg13) _ _ (List.forall_iff_forall_mem.mp (by kept_by_host))
set_option maxHeartbeats 1000000 in
/-- The region finds argument 14 as launched. -/
theorem V_main_arg14 (c : Dev nD) : V m c main_arg14 = m ((c : Thread nD τ).loc main_arg14) :=
  StableHlo.after_of_forall_not_mem (b := Proc.devRef .tc main_arg14) _ _ (List.forall_iff_forall_mem.mp (by kept_by_host))
set_option maxHeartbeats 1000000 in
/-- The region finds argument 15 as launched. -/
theorem V_main_arg15 (c : Dev nD) : V m c main_arg15 = m ((c : Thread nD τ).loc main_arg15) :=
  StableHlo.after_of_forall_not_mem (b := Proc.devRef .tc main_arg15) _ _ (List.forall_iff_forall_mem.mp (by kept_by_host))
set_option maxHeartbeats 1000000 in
/-- The region finds argument 16 as launched. -/
theorem V_main_arg16 (c : Dev nD) : V m c main_arg16 = m ((c : Thread nD τ).loc main_arg16) :=
  StableHlo.after_of_forall_not_mem (b := Proc.devRef .tc main_arg16) _ _ (List.forall_iff_forall_mem.mp (by kept_by_host))
set_option maxHeartbeats 1000000 in
/-- The region finds argument 17 as launched. -/
theorem V_main_arg17 (c : Dev nD) : V m c main_arg17 = m ((c : Thread nD τ).loc main_arg17) :=
  StableHlo.after_of_forall_not_mem (b := Proc.devRef .tc main_arg17) _ _ (List.forall_iff_forall_mem.mp (by kept_by_host))
set_option maxHeartbeats 1000000 in
/-- The region finds argument 18 as launched. -/
theorem V_main_arg18 (c : Dev nD) : V m c main_arg18 = m ((c : Thread nD τ).loc main_arg18) :=
  StableHlo.after_of_forall_not_mem (b := Proc.devRef .tc main_arg18) _ _ (List.forall_iff_forall_mem.mp (by kept_by_host))
set_option maxHeartbeats 1000000 in
/-- The region finds argument 19 as launched. -/
theorem V_main_arg19 (c : Dev nD) : V m c main_arg19 = m ((c : Thread nD τ).loc main_arg19) :=
  StableHlo.after_of_forall_not_mem (b := Proc.devRef .tc main_arg19) _ _ (List.forall_iff_forall_mem.mp (by kept_by_host))
set_option maxHeartbeats 1000000 in
/-- The region finds argument 20 as launched. -/
theorem V_main_arg20 (c : Dev nD) : V m c main_arg20 = m ((c : Thread nD τ).loc main_arg20) :=
  StableHlo.after_of_forall_not_mem (b := Proc.devRef .tc main_arg20) _ _ (List.forall_iff_forall_mem.mp (by kept_by_host))
set_option maxHeartbeats 1000000 in
/-- The region finds argument 21 as launched. -/
theorem V_main_arg21 (c : Dev nD) : V m c main_arg21 = m ((c : Thread nD τ).loc main_arg21) :=
  StableHlo.after_of_forall_not_mem (b := Proc.devRef .tc main_arg21) _ _ (List.forall_iff_forall_mem.mp (by kept_by_host))
set_option maxHeartbeats 1000000 in
/-- The region finds argument 22 as launched. -/
theorem V_main_arg22 (c : Dev nD) : V m c main_arg22 = m ((c : Thread nD τ).loc main_arg22) :=
  StableHlo.after_of_forall_not_mem (b := Proc.devRef .tc main_arg22) _ _ (List.forall_iff_forall_mem.mp (by kept_by_host))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds its block at every point, whether the point fetches it or keeps the previous one. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, whether the point fetches it or keeps the previous one. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, whether the point fetches it or keeps the previous one. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, whether the point fetches it or keeps the previous one. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, whether the point fetches it or keeps the previous one. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's staging buffer holds its block at every point, whether the point fetches it or keeps the previous one. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's staging buffer holds its block at every point, whether the point fetches it or keeps the previous one. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's staging buffer holds its block at every point, whether the point fetches it or keeps the previous one. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's staging buffer holds its block at every point, whether the point fetches it or keeps the previous one. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's staging buffer holds its block at every point, whether the point fetches it or keeps the previous one. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's staging buffer holds its block at every point, whether the point fetches it or keeps the previous one. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The arguments after a run of the region -/

/-- From a run that ends with every staged array at what the proof data computes and every other buffer as the region found
    it: an argument a window stages as an input is never written back, and the others are among the buffers left alone. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats 0 c).arrAt_in 1 rfl _).trans ((hA c 1).trans (V_main_arg6 m c))),
      ((h c).1 2).trans (((dats 0 c).arrAt_in 2 rfl _).trans ((hA c 2).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c),
      ((h c).2 main_arg14 (Pipeline.mem_restRefs_of main_arg14 (by decide) (by decide))).trans (V_main_arg14 m c),
      ((h c).2 main_arg15 (Pipeline.mem_restRefs_of main_arg15 (by decide) (by decide))).trans (V_main_arg15 m c),
      ((h c).2 main_arg16 (Pipeline.mem_restRefs_of main_arg16 (by decide) (by decide))).trans (V_main_arg16 m c),
      ((h c).2 main_arg17 (Pipeline.mem_restRefs_of main_arg17 (by decide) (by decide))).trans (V_main_arg17 m c),
      ((h c).2 main_arg18 (Pipeline.mem_restRefs_of main_arg18 (by decide) (by decide))).trans (V_main_arg18 m c),
      ((h c).2 main_arg19 (Pipeline.mem_restRefs_of main_arg19 (by decide) (by decide))).trans (V_main_arg19 m c),
      ((h c).2 main_arg20 (Pipeline.mem_restRefs_of main_arg20 (by decide) (by decide))).trans (V_main_arg20 m c),
      ((h c).2 main_arg21 (Pipeline.mem_restRefs_of main_arg21 (by decide) (by decide))).trans (V_main_arg21 m c),
      ((h c).2 main_arg22 (Pipeline.mem_restRefs_of main_arg22 (by decide) (by decide))).trans (V_main_arg22 m c)⟩) h

end Cert.KernelIdeal.Fr

end
-- ==== Proof.BodyDefsKernelIdeal.lean ====
/-
  What the kernel body computes at one grid point, as functions of the input blocks. The body loads the row block of the
  features, the two layers' previous hidden and cell states (the two halves of each state block), the five weight matrices
  and the three bias rows; it computes one LSTM step through the two layers and the output projection; it stores the logits
  into the first output buffer, the two new hidden states into the two halves of the second, and the two new cell states into
  the two halves of the third. Each output buffer after the body is the canonical array of its stores, which cover it.
-/
import proofs.«171206_j17300128268701_1_alg».proof.Proof.Gen.KernelIdeal.Skeleton
import Idealize.ShloMosaic.Lib.Pipeline.FrameBody
import Idealize.ShloMosaic.Lib.Ring

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The rectangles the body reads and writes through -/

abbrev rX : Rect S128x1472 := Rect.unit (s := S128x1472) ![0, 0] S128x1472.size inb_S128x1472_S128x1472_0_0
abbrev rS0 : Rect S2x128x512 := Rect.unit (s := S2x128x512) ![0, 0, 0] S1x128x512.size inb_S2x128x512_S1x128x512_0_0_0
abbrev rS1 : Rect S2x128x512 := Rect.unit (s := S2x128x512) ![1, 0, 0] S1x128x512.size inb_S2x128x512_S1x128x512_1_0_0
abbrev rW : Rect S1472x2048 := Rect.unit (s := S1472x2048) ![0, 0] S1472x2048.size inb_S1472x2048_S1472x2048_0_0
abbrev rU : Rect S512x2048 := Rect.unit (s := S512x2048) ![0, 0] S512x2048.size inb_S512x2048_S512x2048_0_0
abbrev rP : Rect S512x256 := Rect.unit (s := S512x256) ![0, 0] S512x256.size inb_S512x256_S512x256_0_0
abbrev rB : Rect S1x2048 := Rect.unit (s := S1x2048) ![0, 0] S1x2048.size inb_S1x2048_S1x2048_0_0
abbrev rBo : Rect S1x256 := Rect.unit (s := S1x256) ![0, 0] S1x256.size inb_S1x256_S1x256_0_0
abbrev rL : Rect S128x1x256 := Rect.unit (s := S128x1x256) ![0, 0, 0] S128x1x256.size inb_S128x1x256_S128x1x256_0_0_0

/-! ## The values the body computes, from the input blocks -/

/-- Layer 0's new cell state. -/
def cell1 (x0 : Vec F S128x1472 .bf16) (x1 x2 : Vec F S2x128x512 .f32) (x3 : Vec F S1472x2048 .bf16) (x4 : Vec F S512x2048 .bf16) (x8 : Vec F S1x2048 .f32) : FVec F S128x512 .f32 :=
  k0_pay7 (View.ld x0 rX) (View.ld x1 rS0) (View.ld x2 rS0) (View.ld x3 rW) (View.ld x4 rU) (View.ld x8 rB)
/-- Layer 0's new hidden state. -/
def hid1 (x0 : Vec F S128x1472 .bf16) (x1 x2 : Vec F S2x128x512 .f32) (x3 : Vec F S1472x2048 .bf16) (x4 : Vec F S512x2048 .bf16) (x8 : Vec F S1x2048 .f32) : FVec F S128x512 .f32 :=
  k0_pay8 (View.ld x0 rX) (View.ld x1 rS0) (View.ld x2 rS0) (View.ld x3 rW) (View.ld x4 rU) (View.ld x8 rB)
/-- Layer 0's new hidden state as layer 1 is fed it. -/
def hid1n (x0 : Vec F S128x1472 .bf16) (x1 x2 : Vec F S2x128x512 .f32) (x3 : Vec F S1472x2048 .bf16) (x4 : Vec F S512x2048 .bf16) (x8 : Vec F S1x2048 .f32) : FVec F S128x512 .bf16 :=
  k0_pay9 (View.ld x0 rX) (View.ld x1 rS0) (View.ld x2 rS0) (View.ld x3 rW) (View.ld x4 rU) (View.ld x8 rB)
/-- Layer 1's new cell state. -/
def cell2 (x0 : Vec F S128x1472 .bf16) (x1 x2 : Vec F S2x128x512 .f32) (x3 : Vec F S1472x2048 .bf16) (x4 x5 x6 : Vec F S512x2048 .bf16) (x8 x9 : Vec F S1x2048 .f32) : FVec F S128x512 .f32 :=
  k0_pay11 (k0_pay4 (View.ld x1 rS1)) (k0_pay5 (View.ld x2 rS1)) (hid1n x0 x1 x2 x3 x4 x8) (View.ld x5 rU) (View.ld x6 rU) (View.ld x9 rB)
/-- Layer 1's new hidden state. -/
def hid2 (x0 : Vec F S128x1472 .bf16) (x1 x2 : Vec F S2x128x512 .f32) (x3 : Vec F S1472x2048 .bf16) (x4 x5 x6 : Vec F S512x2048 .bf16) (x8 x9 : Vec F S1x2048 .f32) : FVec F S128x512 .f32 :=
  k0_pay12 (k0_pay4 (View.ld x1 rS1)) (k0_pay5 (View.ld x2 rS1)) (hid1n x0 x1 x2 x3 x4 x8) (View.ld x5 rU) (View.ld x6 rU) (View.ld x9 rB)
/-- The logits. -/
def logit (x0 : Vec F S128x1472 .bf16) (x1 x2 : Vec F S2x128x512 .f32) (x3 : Vec F S1472x2048 .bf16) (x4 x5 x6 : Vec F S512x2048 .bf16) (x7 : Vec F S512x256 .bf16) (x8 x9 : Vec F S1x2048 .f32) (x10 : Vec F S1x256 .f32) : FVec F S128x1x256 .f32 :=
  k0_pay13 (k0_pay4 (View.ld x1 rS1)) (k0_pay5 (View.ld x2 rS1)) (hid1n x0 x1 x2 x3 x4 x8) (View.ld x5 rU) (View.ld x6 rU) (View.ld x9 rB) (View.ld x7 rP) (View.ld x10 rBo)

/-! ## What the body leaves in each output window's buffer (the stores as pieces, the last one first) -/

def out0_11 (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) : Vec F S128x1x256 .f32 :=
  View.canon [⟨rL, logit x0 x1 x2 x3 x4 x5 x6 x7 x8 x9 x10⟩]
def out0_12 (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) : Vec F S2x128x512 .f32 :=
  View.canon [⟨rS1, k0_pay1 (hid2 x0 x1 x2 x3 x4 x5 x6 x8 x9)⟩, ⟨rS0, k0_pay14 (hid1 x0 x1 x2 x3 x4 x8)⟩]
def out0_13 (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) : Vec F S2x128x512 .f32 :=
  View.canon [⟨rS1, k0_pay3 (cell2 x0 x1 x2 x3 x4 x5 x6 x8 x9)⟩, ⟨rS0, k0_pay2 (cell1 x0 x1 x2 x3 x4 x8)⟩]

/-- One store writes the whole logits buffer. -/
theorem cover0_11 (p0 : Vec F S128x1x256 .f32) (y : S128x1x256.Idx) :
    ∃ pc ∈ ([⟨rL, p0⟩] : List (View.Piece (Elt F) S128x1x256 .f32)), y ∈ pc.1.set :=
  View.cover_of_tiled [⟨rL, p0⟩] S128x1x256.size (by rfl) y
/-- The two stores into a state buffer write its two halves. -/
theorem cover0_st (p1 p0 : Vec F S1x128x512 .f32) (y : S2x128x512.Idx) :
    ∃ pc ∈ ([⟨rS1, p1⟩, ⟨rS0, p0⟩] : List (View.Piece (Elt F) S2x128x512 .f32)), y ∈ pc.1.set :=
  View.cover_of_tiled [⟨rS1, p1⟩, ⟨rS0, p0⟩] S1x128x512.size (by rfl) y

end Cert.KernelIdeal.Body

end
-- ==== Proof.FrameBodyKernelIdeal.lean ====
/-
  The kernel body's triple: on whole staging buffers, the inputs' at known contents and the outputs' at anything, the body
  runs without a fault to a continuation that holds the inputs' buffers as they were and each output's buffer at the
  canonical array of its stores over the input blocks.
-/
import proofs.«171206_j17300128268701_1_alg».proof.Proof.LaunchKernelIdeal
import proofs.«171206_j17300128268701_1_alg».proof.Proof.BodyDefsKernelIdeal
import proofs.«171206_j17300128268701_1_alg».proof.Proof.Gen.KernelIdeal.Points
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple -/

set_option maxHeartbeats 4000000 in
/-- The body on whole staging buffers, the inputs' at read contents and the outputs' at anything, runs to a continuation
    that holds the inputs' as they were and each output's at what the stores leave. -/
theorem sound_kernel (c : Dev nD) (E : Set ℕ) (i : grid0.Coords) (arg0 : Memref sig .tc .vmem S128x1472 .bf16) (harg0 : arg0.IsWhole) (arg1 : Memref sig .tc .vmem S2x128x512 .f32) (harg1 : arg1.IsWhole) (arg2 : Memref sig .tc .vmem S2x128x512 .f32) (harg2 : arg2.IsWhole) (arg3 : Memref sig .tc .vmem S1472x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S512x2048 .bf16) (harg6 : arg6.IsWhole) (arg7 : Memref sig .tc .vmem S512x256 .bf16) (harg7 : arg7.IsWhole) (arg8 : Memref sig .tc .vmem S1x2048 .f32) (harg8 : arg8.IsWhole) (arg9 : Memref sig .tc .vmem S1x2048 .f32) (harg9 : arg9.IsWhole) (arg10 : Memref sig .tc .vmem S1x256 .f32) (harg10 : arg10.IsWhole) (arg11 : Memref sig .tc .vmem S128x1x256 .f32) (harg11 : arg11.IsWhole) (arg12 : Memref sig .tc .vmem S2x128x512 .f32) (harg12 : arg12.IsWhole) (arg13 : Memref sig .tc .vmem S2x128x512 .f32) (harg13 : arg13.IsWhole)
    (x0 : Vec F S128x1472 .bf16) (x1 : Vec F S2x128x512 .f32) (x2 : Vec F S2x128x512 .f32) (x3 : Vec F S1472x2048 .bf16) (x4 : Vec F S512x2048 .bf16) (x5 : Vec F S512x2048 .bf16) (x6 : Vec F S512x2048 .bf16) (x7 : Vec F S512x256 .bf16) (x8 : Vec F S1x2048 .f32) (x9 : Vec F S1x2048 .f32) (x10 : Vec F S1x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (out0_11 x0 x1 x2 x3 x4 x5 x6 x7 x8 x9 x10)
            ∗ owns (c : Thread nD τ) arg12 fullShare (out0_12 x0 x1 x2 x3 x4 x5 x6 x7 x8 x9 x10)
            ∗ owns (c : Thread nD τ) arg13 fullShare (out0_13 x0 x1 x2 x3 x4 x5 x6 x7 x8 x9 x10)) -∗ K ⟨⟩))
      ⊢ wp frame (wpE (defs₀ (F := F)) Variants.none c none) E (cc0__lstm_kernel i arg0 harg0 arg1 harg1 arg2 harg2 arg3 harg3 arg4 harg4 arg5 harg5 arg6 harg6 arg7 harg7 arg8 harg8 arg9 harg9 arg10 harg10 arg11 harg11 arg12 harg12 arg13 harg13) K := by
  simp only [cc0__lstm_kernel_eq_skeleton]; unfold cc0__lstm_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover0_11 _)
  isplitl [H12]
  · iexists _; isplitr
    swap; · iexact H12
    ipureintro
    exact View.read_writes_eq_canon _ _ _ (cover0_st _ _)
  iexists _; isplitr
  swap; · iexact H13
  ipureintro
  exact View.read_writes_eq_canon _ _ _ (cover0_st _ _)

end Cert.KernelIdeal.Body

end
-- ==== Proof.FrameRunKernelIdeal.lean ====
/-
  The region's run. The proof data of the one pipeline: each array as the region finds it; after the body at a grid point
  each input window's buffer still at its block and each output window's at what the body's stores leave, a function of
  the point's input blocks; nothing owed, full shares. The body obligation at a generic point, the run of @main to the
  post in which every staged array is named, and the frame: every argument ends as launched.
-/
import proofs.«171206_j17300128268701_1_alg».proof.Proof.FrameHostKernelIdeal
import proofs.«171206_j17300128268701_1_alg».proof.Proof.FrameBodyKernelIdeal

set_option maxRecDepth 16384

noncomputable section

namespace Cert.KernelIdeal.Fr

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 2000000 in
/-- The body at any point: the inputs' buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the twenty-three arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  frame_of m ρ (dats m) (A_eq m) (run_main m ρ)

end Cert.KernelIdeal.Fr

end
-- ==== Proof.ValueBlocksKernelIdeal.lean ====
/-
  The region's run with its three result arrays named. After the run the logits, hidden-state and cell-state arrays hold
  what the pipeline's write-backs leave of the blocks the body computed point by point; the arguments are as launched. What
  grid point t writes back to a result array is the body's result for that window over the point's input blocks.
-/
import proofs.«171206_j17300128268701_1_alg».proof.Proof.FrameRunKernelIdeal
import Idealize.ShloMosaic.Lib.Pipeline.Value

noncomputable section

namespace Cert.KernelIdeal.Val

open Cert.KernelIdeal Cert.KernelIdeal.Gen Cert.KernelIdeal.Body Cert.KernelIdeal.Fr Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- What point `t` writes back to the logits array. -/
theorem flushed11 (c : Dev nD) (t : Fin cfg0.N) :
    (dats m 0 c).flushed 11 t = (cfg0.win 11).cut (grid0.coords t) (out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 11).cut (grid0.coords t) ((dats m 0 c).after 11 t) = _
  rw [after0_11]
/-- What point `t` writes back to the hidden-state array. -/
theorem flushed12 (c : Dev nD) (t : Fin cfg0.N) :
    (dats m 0 c).flushed 12 t = (cfg0.win 12).cut (grid0.coords t) (out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 12).cut (grid0.coords t) ((dats m 0 c).after 12 t) = _
  rw [after0_12]
/-- What point `t` writes back to the cell-state array. -/
theorem flushed13 (c : Dev nD) (t : Fin cfg0.N) :
    (dats m 0 c).flushed 13 t = (cfg0.win 13).cut (grid0.coords t) (out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t)) := by
  show (cfg0.win 13).cut (grid0.coords t) ((dats m 0 c).after 13 t) = _
  rw [after0_13]

theorem post11 (r : PUnit × MemSt nD τ sig (Elt F)) (h : Pipeline.FramePost cfgs (dats m) 0 (V m) r) (c : Dev nD) :
    r.2.mem ((c : Thread nD τ).loc main_v53_0) = (dats m 0 c).arrAt 11 cfg0.N := (h c).1 11
theorem post12 (r : PUnit × MemSt nD τ sig (Elt F)) (h : Pipeline.FramePost cfgs (dats m) 0 (V m) r) (c : Dev nD) :
    r.2.mem ((c : Thread nD τ).loc main_v53_1) = (dats m 0 c).arrAt 12 cfg0.N := (h c).1 12
theorem post13 (r : PUnit × MemSt nD τ sig (Elt F)) (h : Pipeline.FramePost cfgs (dats m) 0 (V m) r) (c : Dev nD) :
    r.2.mem ((c : Thread nD τ).loc main_v53_2) = (dats m 0 c).arrAt 13 cfg0.N := (h c).1 13

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 1).trans (((dats m 0 c).arrAt_in 1 rfl _).trans ((A_eq m c 1).trans (V_main_arg6 m c)))
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 2).trans (((dats m 0 c).arrAt_in 2 rfl _).trans ((A_eq m c 2).trans (V_main_arg7 m c)))
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)
theorem kept_main_arg22 (r : PUnit × MemSt nD τ sig (Elt F)) (h : Pipeline.FramePost cfgs (dats m) 0 (V m) r) (c : Dev nD) :
    r.2.mem ((c : Thread nD τ).loc main_arg22) = m ((c : Thread nD τ).loc main_arg22) :=
  ((h c).2 main_arg22 (Pipeline.mem_restRefs_of main_arg22 (by decide) (by decide))).trans (V_main_arg22 m c)

/-- The run with each result array named, the arguments unchanged. -/
theorem run_blocks : θ_run defs (onTc (τ := τ) (main (F := F))) ⟨m, fun _ => 0, ρ⟩ fun r => ∀ c : Dev nD,
      r.2.mem ((c : Thread nD τ).loc main_v53_0) = (dats m 0 c).arrAt 11 cfg0.N
      ∧ r.2.mem ((c : Thread nD τ).loc main_v53_1) = (dats m 0 c).arrAt 12 cfg0.N
      ∧ r.2.mem ((c : Thread nD τ).loc main_v53_2) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22) :=
  (θ_run defs _ _).mono (fun r h c => ⟨post11 m r h c, post12 m r h c, post13 m r h c,
      kept_main_arg0 m r h c, kept_main_arg1 m r h c, kept_main_arg2 m r h c, kept_main_arg3 m r h c, kept_main_arg4 m r h c, kept_main_arg5 m r h c, kept_main_arg6 m r h c, kept_main_arg7 m r h c, kept_main_arg8 m r h c, kept_main_arg9 m r h c, kept_main_arg10 m r h c, kept_main_arg11 m r h c, kept_main_arg12 m r h c, kept_main_arg13 m r h c, kept_main_arg14 m r h c, kept_main_arg15 m r h c, kept_main_arg16 m r h c, kept_main_arg17 m r h c, kept_main_arg18 m r h c, kept_main_arg19 m r h c, kept_main_arg20 m r h c, kept_main_arg21 m r h c, kept_main_arg22 m r h c⟩)
    (run_main m ρ)

end Cert.KernelIdeal.Val

end
-- ==== Proof.Spec.lean ====
/-
  One step of a two-layer LSTM followed by a linear read-out, on the extended reals, for one row of the batch.
  For a feature row x, the layer's previous hidden row h and cell row c, input weights w (stored one row per gate
  unit), recurrent weights u and the two bias vectors, the pre-activations are
      g n = (Σₖ x k · w n k + Σₖ h k · u n k) + (bᵢ n + bₕ n),          n < 4·512,
  cut into the input, forget, cell and output gates at n = j, 512 + j, 1024 + j, 1536 + j; the new cell state is
      c' j = σ(g (512 + j)) · c j + σ(g j) · tanh (g (1024 + j)),   and the new hidden state   h' j = σ(g (1536 + j)) · tanh (c' j).
  Layer 1 is fed layer 0's new hidden row; the logits are Σₖ h'' k · wₒ n k + bₒ n. Everything is a function of ONE row of
  the batch, which is what lets a row block of the batch be computed apart from the others.
-/
import Idealize.ShloMosaic.PureOps.Ideal
import Idealize.ShloMosaic.Lib.ValueIdx

noncomputable section

namespace Cert.Spec

open Idealize.ShloMosaic Idealize.ShloMosaic.ValueIdx

/-- Gate unit `o + j` of the 4·512 pre-activations. -/
def gu (o : Nat) (j : Fin 512) (ho : o + 512 ≤ 2048 := by omega) : Fin 2048 := ⟨o + j.val, by have := j.isLt; omega⟩

/-- The pre-activations of one row: the feature row against the input weights (already transposed: `w k n`), the hidden
    row against the recurrent weights, and the bias. -/
def gates {K : Nat} (x : Fin K → EReal) (h : Fin 512 → EReal) (w : Fin K → Fin 2048 → EReal) (u : Fin 512 → Fin 2048 → EReal)
    (b : Fin 2048 → EReal) (n : Fin 2048) : EReal :=
  (∑ k : Fin K, x k * w k n + ∑ k : Fin 512, h k * u k n) + b n

/-- The new cell state of one row. -/
def cellNew (g : Fin 2048 → EReal) (c : Fin 512 → EReal) (j : Fin 512) : EReal :=
  Ideal.logistic (g (gu 512 j)) * c j + Ideal.logistic (g (gu 0 j)) * Ideal.tanh (g (gu 1024 j))

/-- The new hidden state of one row. -/
def hidNew (g : Fin 2048 → EReal) (c : Fin 512 → EReal) (j : Fin 512) : EReal :=
  Ideal.logistic (g (gu 1536 j)) * Ideal.tanh (cellNew g c j)

/-- The read-out of one row. -/
def readOut (h : Fin 512 → EReal) (w : Fin 512 → Fin 256 → EReal) (b : Fin 256 → EReal) (n : Fin 256) : EReal :=
  ∑ k : Fin 512, h k * w k n + b n

/-- The network's parameters, each weight matrix read transposed (`w k n` is unit `n`'s weight for input `k`) and each
    layer's two bias vectors summed. -/
structure Params where
  w0 : Fin 1472 → Fin 2048 → EReal
  u0 : Fin 512 → Fin 2048 → EReal
  b0 : Fin 2048 → EReal
  w1 : Fin 512 → Fin 2048 → EReal
  u1 : Fin 512 → Fin 2048 → EReal
  b1 : Fin 2048 → EReal
  wo : Fin 512 → Fin 256 → EReal
  bo : Fin 256 → EReal

/-- The parameters read off the argument arrays: the weights as stored, [units, inputs], and the bias vectors. -/
def params (a13 : (⟨2, ![2048, 1472]⟩ : Shape).Idx → EReal) (a14 a17 a18 : (⟨2, ![2048, 512]⟩ : Shape).Idx → EReal)
    (a15 a16 a19 a20 : (⟨1, ![2048]⟩ : Shape).Idx → EReal) (a21 : (⟨2, ![256, 512]⟩ : Shape).Idx → EReal)
    (a22 : (⟨1, ![256]⟩ : Shape).Idx → EReal) : Params where
  w0 k n := a13 (ix2 n k)
  u0 k n := a14 (ix2 n k)
  b0 n := a15 (ix1 n) + a16 (ix1 n)
  w1 k n := a17 (ix2 n k)
  u1 k n := a18 (ix2 n k)
  b1 n := a19 (ix1 n) + a20 (ix1 n)
  wo k n := a21 (ix2 n k)
  bo n := a22 (ix1 n)

variable (P : Params)

/-- Layer 0's pre-activations, new cell state and new hidden state of a row. -/
def g0 (x : Fin 1472 → EReal) (h0 : Fin 512 → EReal) : Fin 2048 → EReal := gates x h0 P.w0 P.u0 P.b0
def c1 (x : Fin 1472 → EReal) (h0 c0 : Fin 512 → EReal) : Fin 512 → EReal := cellNew (g0 P x h0) c0
def h1 (x : Fin 1472 → EReal) (h0 c0 : Fin 512 → EReal) : Fin 512 → EReal := hidNew (g0 P x h0) c0
/-- Layer 1's, fed layer 0's new hidden row. -/
def g1 (x : Fin 1472 → EReal) (h0 c0 h0' : Fin 512 → EReal) : Fin 2048 → EReal := gates (h1 P x h0 c0) h0' P.w1 P.u1 P.b1
def c2 (x : Fin 1472 → EReal) (h0 c0 h0' c0' : Fin 512 → EReal) : Fin 512 → EReal := cellNew (g1 P x h0 c0 h0') c0'
def h2 (x : Fin 1472 → EReal) (h0 c0 h0' c0' : Fin 512 → EReal) : Fin 512 → EReal := hidNew (g1 P x h0 c0 h0') c0'
/-- The logits of a row. -/
def lg (x : Fin 1472 → EReal) (h0 c0 h0' c0' : Fin 512 → EReal) : Fin 256 → EReal := readOut (h2 P x h0 c0 h0' c0') P.wo P.bo

/-! ## The three results as whole arrays over a batch of B rows -/

variable {B : Nat} (X : (⟨2, ![B, 1472]⟩ : Shape).Idx → EReal) (H C : (⟨3, ![2, B, 512]⟩ : Shape).Idx → EReal)

/-- Row `b` of the features, and of layer `l`'s hidden and cell states. -/
def xr (b : Fin B) : Fin 1472 → EReal := fun k => X (ix2 b k)
def sr (S : (⟨3, ![2, B, 512]⟩ : Shape).Idx → EReal) (l : Fin 2) (b : Fin B) : Fin 512 → EReal := fun k => S (ix3 l b k)

/-- The logits, [B, 1, 256]. -/
def Logits : (⟨3, ![B, 1, 256]⟩ : Shape).Idx → EReal := fun i =>
  lg P (xr X (i 0)) (sr H 0 (i 0)) (sr C 0 (i 0)) (sr H 1 (i 0)) (sr C 1 (i 0)) (i 2)
/-- The new hidden states, [2, B, 512]: layer 0's then layer 1's. -/
def Hid : (⟨3, ![2, B, 512]⟩ : Shape).Idx → EReal := fun i =>
  if (i 0).val = 0 then h1 P (xr X (i 1)) (sr H 0 (i 1)) (sr C 0 (i 1)) (i 2)
  else h2 P (xr X (i 1)) (sr H 0 (i 1)) (sr C 0 (i 1)) (sr H 1 (i 1)) (sr C 1 (i 1)) (i 2)
/-- The new cell states, [2, B, 512]. -/
def Cell : (⟨3, ![2, B, 512]⟩ : Shape).Idx → EReal := fun i =>
  if (i 0).val = 0 then c1 P (xr X (i 1)) (sr H 0 (i 1)) (sr C 0 (i 1)) (i 2)
  else c2 P (xr X (i 1)) (sr H 0 (i 1)) (sr C 0 (i 1)) (sr H 1 (i 1)) (sr C 1 (i 1)) (i 2)

theorem Logits_ix (b : Fin B) (n : Fin 256) : Logits P X H C (ix3 b 0 n) = lg P (xr X b) (sr H 0 b) (sr C 0 b) (sr H 1 b) (sr C 1 b) n := rfl
theorem Hid_ix0 (b : Fin B) (j : Fin 512) : Hid P X H C (ix3 0 b j) = h1 P (xr X b) (sr H 0 b) (sr C 0 b) j := rfl
theorem Hid_ix1 (b : Fin B) (j : Fin 512) : Hid P X H C (ix3 1 b j) = h2 P (xr X b) (sr H 0 b) (sr C 0 b) (sr H 1 b) (sr C 1 b) j := rfl
theorem Cell_ix0 (b : Fin B) (j : Fin 512) : Cell P X H C (ix3 0 b j) = c1 P (xr X b) (sr H 0 b) (sr C 0 b) j := rfl
theorem Cell_ix1 (b : Fin B) (j : Fin 512) : Cell P X H C (ix3 1 b j) = c2 P (xr X b) (sr H 0 b) (sr C 0 b) (sr H 1 b) (sr C 1 b) j := rfl

end Cert.Spec

end
-- ==== Proof.LibDotSum.lean ====
/-
  A matrix product with ONE contracted axis, read at an output index as a sum over that axis's coordinate.
  The library states the product's value as a sum over the dimension numbers' contraction index set of the operands at
  two computed operand indices. For the two patterns below the contraction index is one coordinate `k`, and the operand
  indices are (r, k), (k, c) for rows × columns, and (k, r), (k, c) when the left operand is contracted over its rows.
  Each is stated for any extents and any dimension-numbers record with those axis lists.
-/
import Idealize.ShloMosaic.PureOps.Ideal.Laws
import Idealize.ShloMosaic.Lib.ValueIdx

noncomputable section

namespace Cert.Lib

open Idealize.ShloMosaic Idealize.ShloMosaic.ValueIdx

variable {M K N : Nat}

/-! ## Rows × columns: left axis 1 against right axis 0 -/

/-- The dimension numbers of an [M, K] × [K, N] product. -/
def rc (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ := ⟨[1], [0], [0], [1], [], [], wf⟩

variable (wf : DotDims.WF ⟨2, ![M, K]⟩ ⟨2, ![K, N]⟩ ⟨2, ![M, N]⟩ [1] [0] [0] [1] [] [])

theorem rc_lhs_0 (i : (⟨2, ![M, N]⟩ : Shape).Idx) (q : (rc wf).contr.Idx) : ((rc wf).lhsIdx i q 0).val = (i 0).val := by
  unfold DotDims.lhsIdx
  rw [dif_neg (show ¬(0 : Fin (⟨2, ![M, K]⟩ : Shape).rank) ∈ (rc wf).lhsBatch by simp [rc]),
    dif_pos (show (0 : Fin (⟨2, ![M, K]⟩ : Shape).rank) ∈ (rc wf).lhsNonContracting by simp [rc])]
  rfl
theorem rc_lhs_1 (i : (⟨2, ![M, N]⟩ : Shape).Idx) (q : (rc wf).contr.Idx) :
    ((rc wf).lhsIdx i q 1).val = (q ⟨0, Nat.one_pos⟩).val :=
  (rc wf).lhsIdx_val_of_single rfl i q
theorem rc_rhs_0 (i : (⟨2, ![M, N]⟩ : Shape).Idx) (q : (rc wf).contr.Idx) :
    ((rc wf).rhsIdx i q 0).val = (q ⟨0, Nat.one_pos⟩).val :=
  (rc wf).rhsIdx_val_of_single rfl i q
theorem rc_rhs_1 (i : (⟨2, ![M, N]⟩ : Shape).Idx) (q : (rc wf).contr.Idx) : ((rc wf).rhsIdx i q 1).val = (i 1).val := by
  unfold DotDims.rhsIdx
  rw [dif_neg (show ¬(1 : Fin (⟨2, ![K, N]⟩ : Shape).rank) ∈ (rc wf).rhsBatch by simp [rc]),
    dif_pos (show (1 : Fin (⟨2, ![K, N]⟩ : Shape).rank) ∈ (rc wf).rhsNonContracting by simp [rc])]
  rfl

/-- The contraction sum of a rows × columns product at (r, c) runs over the pairs (r, k), (k, c). -/
theorem sum_rc {β : Type} [AddCommMonoid β] (f : (⟨2, ![M, K]⟩ : Shape).Idx → (⟨2, ![K, N]⟩ : Shape).Idx → β)
    (r : Fin M) (c : Fin N) :
    ∑ k : (rc wf).contr.Idx, f ((rc wf).lhsIdx (ix2 r c) k) ((rc wf).rhsIdx (ix2 r c) k)
      = ∑ k : Fin K, f (ix2 r k) (ix2 k c) := by
  rw [← Equiv.sum_comp (contrEquiv1 (rc wf) K rfl rfl).symm]
  refine Finset.sum_congr rfl fun k _ => ?_
  have hk := contrEquiv1_symm_val (rc wf) K rfl rfl k
  have el : (rc wf).lhsIdx (ix2 r c) ((contrEquiv1 (rc wf) K rfl rfl).symm k) = ix2 r k := funext fun a => Fin.ext (by
    match a with
    | ⟨0, _⟩ => exact rc_lhs_0 wf _ _
    | ⟨1, _⟩ => exact (rc_lhs_1 wf _ _).trans hk)
  have er : (rc wf).rhsIdx (ix2 r c) ((contrEquiv1 (rc wf) K rfl rfl).symm k) = ix2 k c := funext fun a => Fin.ext (by
    match a with
    | ⟨0, _⟩ => exact (rc_rhs_0 wf _ _).trans hk
    | ⟨1, _⟩ => exact rc_rhs_1 wf _ _)
  rw [el, er]

/-- The same for any record with those axis lists. -/
theorem sum_contr_rc {β : Type} [AddCommMonoid β] (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (f : (⟨2, ![M, K]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 r k) (ix2 k c) := by
  obtain ⟨lc, rc', ln, rn, lb, rb, wf'⟩ := d
  simp only at hlc hrc hln hrn hlb hrb
  subst hlc hrc hln hrn hlb hrb
  exact sum_rc wf' f r c

/-! ## Left operand contracted over its rows: left axis 0 against right axis 0 -/

/-- The dimension numbers of a [K, M]ᵀ × [K, N] product. -/
def cc (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ := ⟨[0], [0], [1], [1], [], [], wf⟩

variable (wg : DotDims.WF ⟨2, ![K, M]⟩ ⟨2, ![K, N]⟩ ⟨2, ![M, N]⟩ [0] [0] [1] [1] [] [])

theorem cc_lhs_0 (i : (⟨2, ![M, N]⟩ : Shape).Idx) (q : (cc wg).contr.Idx) :
    ((cc wg).lhsIdx i q 0).val = (q ⟨0, Nat.one_pos⟩).val :=
  (cc wg).lhsIdx_val_of_single rfl i q
theorem cc_lhs_1 (i : (⟨2, ![M, N]⟩ : Shape).Idx) (q : (cc wg).contr.Idx) : ((cc wg).lhsIdx i q 1).val = (i 0).val := by
  unfold DotDims.lhsIdx
  rw [dif_neg (show ¬(1 : Fin (⟨2, ![K, M]⟩ : Shape).rank) ∈ (cc wg).lhsBatch by simp [cc]),
    dif_pos (show (1 : Fin (⟨2, ![K, M]⟩ : Shape).rank) ∈ (cc wg).lhsNonContracting by simp [cc])]
  rfl
theorem cc_rhs_0 (i : (⟨2, ![M, N]⟩ : Shape).Idx) (q : (cc wg).contr.Idx) :
    ((cc wg).rhsIdx i q 0).val = (q ⟨0, Nat.one_pos⟩).val :=
  (cc wg).rhsIdx_val_of_single rfl i q
theorem cc_rhs_1 (i : (⟨2, ![M, N]⟩ : Shape).Idx) (q : (cc wg).contr.Idx) : ((cc wg).rhsIdx i q 1).val = (i 1).val := by
  unfold DotDims.rhsIdx
  rw [dif_neg (show ¬(1 : Fin (⟨2, ![K, N]⟩ : Shape).rank) ∈ (cc wg).rhsBatch by simp [cc]),
    dif_pos (show (1 : Fin (⟨2, ![K, N]⟩ : Shape).rank) ∈ (cc wg).rhsNonContracting by simp [cc])]
  rfl

/-- The contraction sum at (r, c) runs over the pairs (k, r), (k, c). -/
theorem sum_cc {β : Type} [AddCommMonoid β] (f : (⟨2, ![K, M]⟩ : Shape).Idx → (⟨2, ![K, N]⟩ : Shape).Idx → β)
    (r : Fin M) (c : Fin N) :
    ∑ k : (cc wg).contr.Idx, f ((cc wg).lhsIdx (ix2 r c) k) ((cc wg).rhsIdx (ix2 r c) k)
      = ∑ k : Fin K, f (ix2 k r) (ix2 k c) := by
  rw [← Equiv.sum_comp (contrEquiv1 (cc wg) K rfl rfl).symm]
  refine Finset.sum_congr rfl fun k _ => ?_
  have hk := contrEquiv1_symm_val (cc wg) K rfl rfl k
  have el : (cc wg).lhsIdx (ix2 r c) ((contrEquiv1 (cc wg) K rfl rfl).symm k) = ix2 k r := funext fun a => Fin.ext (by
    match a with
    | ⟨0, _⟩ => exact (cc_lhs_0 wg _ _).trans hk
    | ⟨1, _⟩ => exact cc_lhs_1 wg _ _)
  have er : (cc wg).rhsIdx (ix2 r c) ((contrEquiv1 (cc wg) K rfl rfl).symm k) = ix2 k c := funext fun a => Fin.ext (by
    match a with
    | ⟨0, _⟩ => exact (cc_rhs_0 wg _ _).trans hk
    | ⟨1, _⟩ => exact cc_rhs_1 wg _ _)
  rw [el, er]

/-- The same for any record with those axis lists. -/
theorem sum_contr_cc {β : Type} [AddCommMonoid β] (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (f : (⟨2, ![K, M]⟩ : Shape).Idx → (⟨2, ![K, N]⟩ : Shape).Idx → β) (r : Fin M) (c : Fin N) :
    ∑ k : d.contr.Idx, f (d.lhsIdx (ix2 r c) k) (d.rhsIdx (ix2 r c) k) = ∑ k : Fin K, f (ix2 k r) (ix2 k c) := by
  obtain ⟨lc, rc', ln, rn, lb, rb, wf'⟩ := d
  simp only at hlc hrc hln hrn hlb hrb
  subst hlc hrc hln hrn hlb hrb
  exact sum_cc wf' f r c

/-! ## The products themselves, at an output index -/

/-- A rows × columns block product into the zero accumulator, at (r, c): the sum over k of A (r, k) · B (k, c). -/
theorem matmul_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 r k) * B (ix2 k c) := by
  simp only [matmul]
  rw [Ideal.matmul_constant_zero_apply]
  exact sum_contr_rc d hlc hrc hln hrn hlb hrb (fun a b => A a * B b) r c

/-- A block product whose left operand is contracted over its rows, into the zero accumulator, at (r, c): the sum over
    k of A (k, r) · B (k, c). -/
theorem matmul_cc_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = []) (prec : Option ContractPrecision)
    (A : FVec Ideal ⟨2, ![K, M]⟩ φ₁) (B : FVec Ideal ⟨2, ![K, N]⟩ φ₂) (r : Fin M) (c : Fin N) :
    matmul d prec A B (constant ⟨2, ![M, N]⟩ .f32 0x00000000#32) (ix2 r c) = ∑ k : Fin K, A (ix2 k r) * B (ix2 k c) := by
  simp only [matmul]
  rw [Ideal.matmul_constant_zero_apply]
  exact sum_contr_cc d hlc hrc hln hrn hlb hrb (fun a b => A a * B b) r c

/-- The host's rows × columns product at (r, c): the same sum. -/
theorem dotGeneral_rc_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = []) (prec : Option ContractPrecision)
    (A : FVec Ideal ⟨2, ![M, K]⟩ φ₁) (B : FVec Ideal ⟨2, ![K, N]⟩ φ₂) (r : Fin M) (c : Fin N) :
    Host.dotGeneral d prec A B (ix2 r c) = ∑ k : Fin K, A (ix2 r k) * B (ix2 k c) := by
  simp only [Host.dotGeneral]
  rw [Ideal.dotGeneral_apply]
  exact sum_contr_rc d hlc hrc hln hrn hlb hrb (fun a b => A a * B b) r c

end Cert.Lib

end
-- ==== Proof.PayloadKernelIdeal.lean ====
/-
  The body's values at an index. Each value the body computes from its input blocks, read at row r of the block, is the
  LSTM step of row r alone: the block products are sums over the contracted coordinate, the bias row is broadcast down
  the rows, the four gates are the four runs of 512 columns of the pre-activations, and a change of float format is the
  identity on the extended reals.
-/
import proofs.«171206_j17300128268701_1_alg».proof.Proof.BodyDefsKernelIdeal
import proofs.«171206_j17300128268701_1_alg».proof.Proof.Spec
import proofs.«171206_j17300128268701_1_alg».proof.Proof.LibDotSum
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Cert.KernelIdeal.Body
open Idealize.ShloMosaic Idealize.ShloMosaic.TcCoe Idealize.ShloMosaic.ValueIdx

/-! ## Lane-wise operations and the loads, read at an index -/

theorem logistic_apply {s : Shape} {φ : FTy} (x : FVec Ideal s φ) (i : s.Idx) : logistic x i = Ideal.logistic (x i) := rfl
theorem tanh_apply {s : Shape} {φ : FTy} (x : FVec Ideal s φ) (i : s.Idx) : tanh x i = Ideal.tanh (x i) := rfl

/-- The zero offsets of a rank-2 rectangle, spelt as the constant function. -/
theorem hz : (![0, 0] : Fin 2 → Nat) = fun _ => 0 :=
  funext fun a => match a with | ⟨0, _⟩ => rfl | ⟨1, _⟩ => rfl

/-- A load of the first half of a state block reads layer 0's rows. -/
theorem ld_rS0 (s : Vec Ideal S2x128x512 .f32) (r : Fin 128) (k : Fin 512) :
    View.ld s rS0 (ix3 (0 : Fin 1) r k) = s (ix3 0 r k) := by
  show s (rS0.idx (ix3 (0 : Fin 1) r k)) = s (ix3 0 r k)
  refine congrArg s (funext fun a => Fin.ext ?_)
  match a with
  | ⟨0, _⟩ => rfl
  | ⟨1, _⟩ => show 0 + 1 * r.val = r.val; omega
  | ⟨2, _⟩ => show 0 + 1 * k.val = k.val; omega

/-- A load of the second half of a state block reads layer 1's rows. -/
theorem ld_rS1 (s : Vec Ideal S2x128x512 .f32) (r : Fin 128) (k : Fin 512) :
    View.ld s rS1 (ix3 (0 : Fin 1) r k) = s (ix3 1 r k) := by
  show s (rS1.idx (ix3 (0 : Fin 1) r k)) = s (ix3 1 r k)
  refine congrArg s (funext fun a => Fin.ext ?_)
  match a with
  | ⟨0, _⟩ => rfl
  | ⟨1, _⟩ => show 0 + 1 * r.val = r.val; omega
  | ⟨2, _⟩ => show 0 + 1 * k.val = k.val; omega

/-! ## The gates: the four runs of 512 columns of the pre-activations -/

/-- The run of 512 columns from `o` of a [128, 2048] block, at (r, j), is the block at column `o + j`. -/
theorem gate_at (o : Nat) (ho : o + 512 ≤ 2048) (G : FVec Ideal S128x2048 .f32) (h : S128x2048.Slices ![0, o] S128x512)
    (r : Fin 128) (j : Fin 512) :
    extractStridedSlice S128x512 ![0, o] G h (ix2 r j) = G (ix2 r (Spec.gu o j ho)) :=
  slice2_axis1_apply o G h r j _ rfl

/-- The cell update over a block of pre-activations whose row r reads `g` and a block of cell states whose row r reads
    `c`, at (r, j). -/
theorem cell_of (G : FVec Ideal S128x2048 .f32) (C : FVec Ideal S128x512 .f32)
    (h0 : S128x2048.Slices ![0, 0] S128x512) (h1 : S128x2048.Slices ![0, 512] S128x512)
    (h2 : S128x2048.Slices ![0, 1024] S128x512) (r : Fin 128) (g : Fin 2048 → EReal) (c : Fin 512 → EReal)
    (hG : ∀ n, G (ix2 r n) = g n) (hC : ∀ j, C (ix2 r j) = c j) (j : Fin 512) :
    addf (mulf (logistic (extractStridedSlice S128x512 ![0, 512] G h1)) C)
        (mulf (logistic (extractStridedSlice S128x512 ![0, 0] G h0)) (tanh (extractStridedSlice S128x512 ![0, 1024] G h2)))
        (ix2 r j)
      = Spec.cellNew g c j := by
  have e0 := gate_at 0 (by omega) G h0 r j
  have e1 := gate_at 512 (by omega) G h1 r j
  have e2 := gate_at 1024 (by omega) G h2 r j
  show Ideal.logistic (extractStridedSlice S128x512 ![0, 512] G h1 (ix2 r j)) * C (ix2 r j)
      + Ideal.logistic (extractStridedSlice S128x512 ![0, 0] G h0 (ix2 r j))
        * Ideal.tanh (extractStridedSlice S128x512 ![0, 1024] G h2 (ix2 r j)) = _
  rw [e0, e1, e2, hG, hG, hG, hC]
  rfl

/-- The hidden update over the same, given the new cell block's row r. -/
theorem hid_of (G : FVec Ideal S128x2048 .f32) (Cn : FVec Ideal S128x512 .f32)
    (h3 : S128x2048.Slices ![0, 1536] S128x512) (r : Fin 128) (g : Fin 2048 → EReal) (c : Fin 512 → EReal)
    (hG : ∀ n, G (ix2 r n) = g n) (hCn : ∀ j, Cn (ix2 r j) = Spec.cellNew g c j) (j : Fin 512) :
    mulf (logistic (extractStridedSlice S128x512 ![0, 1536] G h3)) (tanh Cn) (ix2 r j) = Spec.hidNew g c j := by
  have e3 := gate_at 1536 (by omega) G h3 r j
  show Ideal.logistic (extractStridedSlice S128x512 ![0, 1536] G h3 (ix2 r j)) * Ideal.tanh (Cn (ix2 r j)) = _
  rw [e3, hG, hCn]
  rfl

/-! ## The pre-activations at an index -/

/-- Layer 0's pre-activations at (r, n): the feature row against the input weights, the hidden row against the
    recurrent weights, and the bias row. -/
theorem pay6_apply (v0 : Vec Ideal S128x1472 .bf16) (v2 : Vec Ideal S1x128x512 .f32) (v10 : Vec Ideal S1472x2048 .bf16)
    (v14 : Vec Ideal S512x2048 .bf16) (v18 : Vec Ideal S1x2048 .f32) (r : Fin 128) (n : Fin 2048) :
    k0_pay6 v0 v2 v10 v14 v18 (ix2 r n)
      = (∑ k : Fin 1472, v0 (ix2 r k) * v10 (ix2 k n) + ∑ k : Fin 512, v2 (ix3 (0 : Fin 1) r k) * v14 (ix2 k n))
        + v18 (ix2 (0 : Fin 1) n) := by
  unfold k0_pay6
  simp only [shapeCast_self]
  rw [addf_apply, addf_apply, Cert.Lib.matmul_rc_apply _ rfl rfl rfl rfl rfl rfl,
    Cert.Lib.matmul_rc_apply _ rfl rfl rfl rfl rfl rfl, broadcastTo_1b_ab_apply]
  refine congrArg₂ (· + ·) (congrArg₂ (· + ·) rfl ?_) rfl
  refine Finset.sum_congr rfl fun k _ => ?_
  rw [truncf_apply, shapeCast_1ab_ab_apply]

theorem pay6_gates (v0 : Vec Ideal S128x1472 .bf16) (v2 : Vec Ideal S1x128x512 .f32) (v10 : Vec Ideal S1472x2048 .bf16)
    (v14 : Vec Ideal S512x2048 .bf16) (v18 : Vec Ideal S1x2048 .f32) (r : Fin 128)
    (x : Fin 1472 → EReal) (h : Fin 512 → EReal) (w : Fin 1472 → Fin 2048 → EReal) (u : Fin 512 → Fin 2048 → EReal)
    (b : Fin 2048 → EReal)
    (h0 : ∀ k, v0 (ix2 r k) = x k) (h2 : ∀ k, v2 (ix3 (0 : Fin 1) r k) = h k) (h10 : ∀ k n, v10 (ix2 k n) = w k n)
    (h14 : ∀ k n, v14 (ix2 k n) = u k n) (h18 : ∀ n, v18 (ix2 (0 : Fin 1) n) = b n) (n : Fin 2048) :
    k0_pay6 v0 v2 v10 v14 v18 (ix2 r n) = Spec.gates x h w u b n := by
  rw [pay6_apply]
  unfold Spec.gates
  simp only [h0, h2, h10, h14, h18]

/-- Layer 1's pre-activations at (r, n), over the block it is fed and the block of its previous hidden state. -/
theorem pay10_apply (v7 : FVec Ideal S128x512 .f32) (v35 : FVec Ideal S128x512 .bf16) (v36 v40 : Vec Ideal S512x2048 .bf16)
    (v44 : Vec Ideal S1x2048 .f32) (r : Fin 128) (n : Fin 2048) :
    k0_pay10 v7 v35 v36 v40 v44 (ix2 r n)
      = (∑ k : Fin 512, v35 (ix2 r k) * v36 (ix2 k n) + ∑ k : Fin 512, v7 (ix2 r k) * v40 (ix2 k n))
        + v44 (ix2 (0 : Fin 1) n) := by
  unfold k0_pay10
  simp only [shapeCast_self]
  rw [addf_apply, addf_apply, Cert.Lib.matmul_rc_apply _ rfl rfl rfl rfl rfl rfl,
    Cert.Lib.matmul_rc_apply _ rfl rfl rfl rfl rfl rfl, broadcastTo_1b_ab_apply]
  rfl

theorem pay10_gates (v7 : FVec Ideal S128x512 .f32) (v35 : FVec Ideal S128x512 .bf16) (v36 v40 : Vec Ideal S512x2048 .bf16)
    (v44 : Vec Ideal S1x2048 .f32) (r : Fin 128)
    (x h : Fin 512 → EReal) (w u : Fin 512 → Fin 2048 → EReal) (b : Fin 2048 → EReal)
    (h35 : ∀ k, v35 (ix2 r k) = x k) (h7 : ∀ k, v7 (ix2 r k) = h k) (h36 : ∀ k n, v36 (ix2 k n) = w k n)
    (h40 : ∀ k n, v40 (ix2 k n) = u k n) (h44 : ∀ n, v44 (ix2 (0 : Fin 1) n) = b n) (n : Fin 2048) :
    k0_pay10 v7 v35 v36 v40 v44 (ix2 r n) = Spec.gates x h w u b n := by
  rw [pay10_apply]
  unfold Spec.gates
  simp only [h35, h7, h36, h40, h44]

/-! ## Cell, hidden state and logits over the pre-activations -/

theorem pay7_apply (v0 : Vec Ideal S128x1472 .bf16) (v2 v4 : Vec Ideal S1x128x512 .f32) (v10 : Vec Ideal S1472x2048 .bf16)
    (v14 : Vec Ideal S512x2048 .bf16) (v18 : Vec Ideal S1x2048 .f32) (r : Fin 128)
    (g : Fin 2048 → EReal) (c : Fin 512 → EReal)
    (hG : ∀ n, k0_pay6 v0 v2 v10 v14 v18 (ix2 r n) = g n) (hC : ∀ j, v4 (ix3 (0 : Fin 1) r j) = c j) (j : Fin 512) :
    k0_pay7 v0 v2 v4 v10 v14 v18 (ix2 r j) = Spec.cellNew g c j := by
  unfold k0_pay7
  exact cell_of _ _ _ _ _ r g c hG (fun j => (shapeCast_1ab_ab_apply _ _ r j).trans (hC j)) j

theorem pay8_apply (v0 : Vec Ideal S128x1472 .bf16) (v2 v4 : Vec Ideal S1x128x512 .f32) (v10 : Vec Ideal S1472x2048 .bf16)
    (v14 : Vec Ideal S512x2048 .bf16) (v18 : Vec Ideal S1x2048 .f32) (r : Fin 128)
    (g : Fin 2048 → EReal) (c : Fin 512 → EReal)
    (hG : ∀ n, k0_pay6 v0 v2 v10 v14 v18 (ix2 r n) = g n) (hC : ∀ j, v4 (ix3 (0 : Fin 1) r j) = c j) (j : Fin 512) :
    k0_pay8 v0 v2 v4 v10 v14 v18 (ix2 r j) = Spec.hidNew g c j := by
  unfold k0_pay8
  exact hid_of _ _ _ r g c hG (fun j => pay7_apply v0 v2 v4 v10 v14 v18 r g c hG hC j) j

theorem pay11_apply (v7 v9 : FVec Ideal S128x512 .f32) (v35 : FVec Ideal S128x512 .bf16) (v36 v40 : Vec Ideal S512x2048 .bf16)
    (v44 : Vec Ideal S1x2048 .f32) (r : Fin 128) (g : Fin 2048 → EReal) (c : Fin 512 → EReal)
    (hG : ∀ n, k0_pay10 v7 v35 v36 v40 v44 (ix2 r n) = g n) (hC : ∀ j, v9 (ix2 r j) = c j) (j : Fin 512) :
    k0_pay11 v7 v9 v35 v36 v40 v44 (ix2 r j) = Spec.cellNew g c j := by
  unfold k0_pay11
  exact cell_of _ _ _ _ _ r g c hG hC j

theorem pay12_apply (v7 v9 : FVec Ideal S128x512 .f32) (v35 : FVec Ideal S128x512 .bf16) (v36 v40 : Vec Ideal S512x2048 .bf16)
    (v44 : Vec Ideal S1x2048 .f32) (r : Fin 128) (g : Fin 2048 → EReal) (c : Fin 512 → EReal)
    (hG : ∀ n, k0_pay10 v7 v35 v36 v40 v44 (ix2 r n) = g n) (hC : ∀ j, v9 (ix2 r j) = c j) (j : Fin 512) :
    k0_pay12 v7 v9 v35 v36 v40 v44 (ix2 r j) = Spec.hidNew g c j := by
  unfold k0_pay12
  exact hid_of _ _ _ r g c hG (fun j => pay11_apply v7 v9 v35 v36 v40 v44 r g c hG hC j) j

/-- The logits at (r, 0, n): layer 1's new hidden row against the read-out weights, and the read-out bias. -/
theorem pay13_apply (v7 v9 : FVec Ideal S128x512 .f32) (v35 : FVec Ideal S128x512 .bf16) (v36 v40 : Vec Ideal S512x2048 .bf16)
    (v44 : Vec Ideal S1x2048 .f32) (v62 : Vec Ideal S512x256 .bf16) (v65 : Vec Ideal S1x256 .f32) (r : Fin 128)
    (h : Fin 512 → EReal) (w : Fin 512 → Fin 256 → EReal) (b : Fin 256 → EReal)
    (hH : ∀ k, k0_pay12 v7 v9 v35 v36 v40 v44 (ix2 r k) = h k) (h62 : ∀ k n, v62 (ix2 k n) = w k n)
    (h65 : ∀ n, v65 (ix2 (0 : Fin 1) n) = b n) (n : Fin 256) :
    k0_pay13 v7 v9 v35 v36 v40 v44 v62 v65 (ix3 r (0 : Fin 1) n) = Spec.readOut h w b n := by
  unfold k0_pay13
  simp only [shapeCast_self]
  refine (shapeCast_apply _ _ (ix3 r (0 : Fin 1) n) (ix2 r n) ?_).trans ?_
  · rw [Shape.rowMajor_val_three, Shape.rowMajor_val_two]
    show r.val * 256 + n.val = (r.val * 1 + 0) * 256 + n.val
    omega
  · rw [addf_apply, Cert.Lib.matmul_rc_apply _ rfl rfl rfl rfl rfl rfl, broadcastTo_1b_ab_apply, h65]
    unfold Spec.readOut
    refine congrArg₂ (· + ·) (Finset.sum_congr rfl fun k _ => ?_) rfl
    rw [truncf_apply, hH, h62]

variable (x0 : Vec Ideal S128x1472 .bf16) (x1 x2 : Vec Ideal S2x128x512 .f32) (x3 : Vec Ideal S1472x2048 .bf16)
  (x4 x5 x6 : Vec Ideal S512x2048 .bf16) (x7 : Vec Ideal S512x256 .bf16) (x8 x9 : Vec Ideal S1x2048 .f32)
  (x10 : Vec Ideal S1x256 .f32)

/-- The parameters as the point's weight and bias blocks hold them (the weights already transposed, each layer's two
    bias vectors already summed into one row). -/
def bp : Spec.Params where
  w0 k n := x3 (ix2 k n)
  u0 k n := x4 (ix2 k n)
  b0 n := x8 (ix2 0 n)
  w1 k n := x5 (ix2 k n)
  u1 k n := x6 (ix2 k n)
  b1 n := x9 (ix2 0 n)
  wo k n := x7 (ix2 k n)
  bo n := x10 (ix2 0 n)

/-- Row `r` of the feature block, and of layer `l`'s half of a state block. -/
def bx (r : Fin 128) : Fin 1472 → EReal := fun k => x0 (ix2 r k)
def bs (s : Vec Ideal S2x128x512 .f32) (l : Fin 2) (r : Fin 128) : Fin 512 → EReal := fun k => s (ix3 l r k)

/-! ## The five values -/

/-- A load through the whole-buffer rectangle of a rank-2 buffer reads the buffer. -/
theorem ld2 {a b : Nat} {e : EltTy} (X : Vec Ideal ⟨2, ![a, b]⟩ e)
    (inb : ∀ i, (![0, 0] : Fin 2 → Nat) i + (⟨2, ![a, b]⟩ : Shape).size i ≤ (⟨2, ![a, b]⟩ : Shape).size i)
    (i : Fin a) (j : Fin b) :
    View.ld X (Rect.unit (s := ⟨2, ![a, b]⟩) ![0, 0] (⟨2, ![a, b]⟩ : Shape).size inb) (ix2 i j) = X (ix2 i j) :=
  congrFun (View.ld_unit_zero (Val := Elt Ideal) (S := ⟨2, ![a, b]⟩) hz inb X) (ix2 i j)

theorem pay4_apply (v6 : Vec Ideal S1x128x512 .f32) (r : Fin 128) (k : Fin 512) :
    k0_pay4 v6 (ix2 r k) = v6 (ix3 (0 : Fin 1) r k) := by
  unfold k0_pay4
  exact shapeCast_1ab_ab_apply _ _ r k

theorem pay5_apply (v8 : Vec Ideal S1x128x512 .f32) (r : Fin 128) (k : Fin 512) :
    k0_pay5 v8 (ix2 r k) = v8 (ix3 (0 : Fin 1) r k) := by
  unfold k0_pay5
  exact shapeCast_1ab_ab_apply _ _ r k

/-- Layer 0's pre-activations of row r. -/
theorem g0_apply (r : Fin 128) (n : Fin 2048) :
    k0_pay6 (View.ld x0 rX) (View.ld x1 rS0) (View.ld x3 rW) (View.ld x4 rU) (View.ld x8 rB) (ix2 r n)
      = Spec.g0 (bp x3 x4 x5 x6 x7 x8 x9 x10) (bx x0 r) (bs x1 0 r) n :=
  pay6_gates (View.ld x0 rX) (View.ld x1 rS0) (View.ld x3 rW) (View.ld x4 rU) (View.ld x8 rB) r _ _ _ _ _
    (fun k => ld2 x0 _ r k) (fun k => ld_rS0 x1 r k) (fun k n => ld2 x3 _ k n) (fun k n => ld2 x4 _ k n)
    (fun n => ld2 x8 _ 0 n) n

theorem cell1_apply (r : Fin 128) (j : Fin 512) :
    cell1 x0 x1 x2 x3 x4 x8 (ix2 r j)
      = Spec.c1 (bp x3 x4 x5 x6 x7 x8 x9 x10) (bx x0 r) (bs x1 0 r) (bs x2 0 r) j := by
  unfold cell1 Spec.c1
  exact pay7_apply _ _ _ _ _ _ r _ _ (g0_apply x0 x1 x3 x4 x5 x6 x7 x8 x9 x10 r) (fun j => ld_rS0 x2 r j) j

theorem hid1_apply (r : Fin 128) (j : Fin 512) :
    hid1 x0 x1 x2 x3 x4 x8 (ix2 r j)
      = Spec.h1 (bp x3 x4 x5 x6 x7 x8 x9 x10) (bx x0 r) (bs x1 0 r) (bs x2 0 r) j := by
  unfold hid1 Spec.h1
  exact pay8_apply _ _ _ _ _ _ r _ _ (g0_apply x0 x1 x3 x4 x5 x6 x7 x8 x9 x10 r) (fun j => ld_rS0 x2 r j) j

/-- Layer 1 is fed layer 0's new hidden row: the change of format is the identity. -/
theorem hid1n_apply (r : Fin 128) (k : Fin 512) :
    hid1n x0 x1 x2 x3 x4 x8 (ix2 r k)
      = Spec.h1 (bp x3 x4 x5 x6 x7 x8 x9 x10) (bx x0 r) (bs x1 0 r) (bs x2 0 r) k := by
  unfold hid1n k0_pay9
  rw [truncf_apply]
  exact hid1_apply x0 x1 x2 x3 x4 x5 x6 x7 x8 x9 x10 r k

/-- Layer 1's pre-activations of row r. -/
theorem g1_apply (r : Fin 128) (n : Fin 2048) :
    k0_pay10 (k0_pay4 (View.ld x1 rS1)) (hid1n x0 x1 x2 x3 x4 x8) (View.ld x5 rU) (View.ld x6 rU) (View.ld x9 rB) (ix2 r n)
      = Spec.g1 (bp x3 x4 x5 x6 x7 x8 x9 x10) (bx x0 r) (bs x1 0 r) (bs x2 0 r) (bs x1 1 r) n :=
  pay10_gates (k0_pay4 (View.ld x1 rS1)) (hid1n x0 x1 x2 x3 x4 x8) (View.ld x5 rU) (View.ld x6 rU) (View.ld x9 rB) r _ _ _ _ _
    (fun k => hid1n_apply x0 x1 x2 x3 x4 x5 x6 x7 x8 x9 x10 r k)
    (fun k => (pay4_apply _ r k).trans (ld_rS1 x1 r k)) (fun k n => ld2 x5 _ k n) (fun k n => ld2 x6 _ k n)
    (fun n => ld2 x9 _ 0 n) n

theorem cell2_apply (r : Fin 128) (j : Fin 512) :
    cell2 x0 x1 x2 x3 x4 x5 x6 x8 x9 (ix2 r j)
      = Spec.c2 (bp x3 x4 x5 x6 x7 x8 x9 x10) (bx x0 r) (bs x1 0 r) (bs x2 0 r) (bs x1 1 r) (bs x2 1 r) j := by
  unfold cell2 Spec.c2
  exact pay11_apply _ _ _ _ _ _ r _ _ (g1_apply x0 x1 x2 x3 x4 x5 x6 x7 x8 x9 x10 r)
    (fun j => (pay5_apply _ r j).trans (ld_rS1 x2 r j)) j

theorem hid2_apply (r : Fin 128) (j : Fin 512) :
    hid2 x0 x1 x2 x3 x4 x5 x6 x8 x9 (ix2 r j)
      = Spec.h2 (bp x3 x4 x5 x6 x7 x8 x9 x10) (bx x0 r) (bs x1 0 r) (bs x2 0 r) (bs x1 1 r) (bs x2 1 r) j := by
  unfold hid2 Spec.h2
  exact pay12_apply _ _ _ _ _ _ r _ _ (g1_apply x0 x1 x2 x3 x4 x5 x6 x7 x8 x9 x10 r)
    (fun j => (pay5_apply _ r j).trans (ld_rS1 x2 r j)) j

theorem logit_apply (r : Fin 128) (n : Fin 256) :
    logit x0 x1 x2 x3 x4 x5 x6 x7 x8 x9 x10 (ix3 r 0 n)
      = Spec.lg (bp x3 x4 x5 x6 x7 x8 x9 x10) (bx x0 r) (bs x1 0 r) (bs x2 0 r) (bs x1 1 r) (bs x2 1 r) n := by
  unfold logit Spec.lg
  exact pay13_apply _ _ _ _ _ _ _ _ r _ _ _ (fun k => hid2_apply x0 x1 x2 x3 x4 x5 x6 x7 x8 x9 x10 r k)
    (fun k n => ld2 x7 _ k n) (fun n => ld2 x10 _ 0 n) n

end Cert.KernelIdeal.Pay

end
-- ==== Proof.BlockReadsKernelIdeal.lean ====
/-
  Reading the region's inputs at an index. Grid point t stages rows 128·t … 128·t + 127 of the feature array and of both
  layers' halves of the two state arrays, and the whole of each transposed weight matrix and bias row. The weight matrices
  the region finds are the argument matrices transposed (and narrowed, which changes no value on the extended reals); a
  layer's bias row is the sum of its two bias vectors laid out as one row; the read-out's bias row is its bias vector.
-/
import proofs.«171206_j17300128268701_1_alg».proof.Proof.FrameHostKernelIdeal
import proofs.«171206_j17300128268701_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Fr
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-- The parameters read off the argument arrays. -/
abbrev prm : Spec.Params :=
  Spec.params (m ((c.tc : Thread nD τ).loc main_arg13)) (m ((c.tc : Thread nD τ).loc main_arg14)) (m ((c.tc : Thread nD τ).loc main_arg17))
    (m ((c.tc : Thread nD τ).loc main_arg18)) (m ((c.tc : Thread nD τ).loc main_arg15)) (m ((c.tc : Thread nD τ).loc main_arg16))
    (m ((c.tc : Thread nD τ).loc main_arg19)) (m ((c.tc : Thread nD τ).loc main_arg20)) (m ((c.tc : Thread nD τ).loc main_arg21))
    (m ((c.tc : Thread nD τ).loc main_arg22))

/-- The feature rows as the region finds them (computed by the host operations before it). -/
abbrev feat : S8192x1472.Idx → EReal := V m c main_v37

/-- Row 128·t + r of the batch. -/
def brow (t : Fin cfg0.N) (r : Fin 128) : Fin 8192 := ⟨t.val * 128 + r.val, by have := t.isLt; have := r.isLt; have : cfg0.N = 64 := N_0; omega⟩

/-! ## The arrays the host operations wrote, at an index -/

set_option maxHeartbeats 1000000

theorem V_w0 (k : Fin 1472) (n : Fin 2048) : V m c main_v39 (ix2 k n) = (prm m c).w0 k n := by
  have e : (V m c main_v39 : S1472x2048.Idx → EReal)
      = truncf (F := Ideal) .bf16 (transpose S1472x2048 [1, 0] ((m ((c.tc : Thread nD τ).loc main_arg13)) : FVec Ideal S2048x1472 .f32) transposes_S2048x1472_S1472x2048_1_0) bitsLt_bf16_f32 := by
    dsimp only [V, Gen.hostOps0]; after_results; try rfl
  refine (congrFun e (ix2 k n)).trans ?_
  rw [truncf_apply]
  exact transpose_ix2_apply _ _ k n

theorem V_u0 (k : Fin 512) (n : Fin 2048) : V m c main_v41 (ix2 k n) = (prm m c).u0 k n := by
  have e : (V m c main_v41 : S512x2048.Idx → EReal)
      = truncf (F := Ideal) .bf16 (transpose S512x2048 [1, 0] ((m ((c.tc : Thread nD τ).loc main_arg14)) : FVec Ideal S2048x512 .f32) transposes_S2048x512_S512x2048_1_0) bitsLt_bf16_f32 := by
    dsimp only [V, Gen.hostOps0]; after_results; try rfl
  refine (congrFun e (ix2 k n)).trans ?_
  rw [truncf_apply]
  exact transpose_ix2_apply _ _ k n

theorem V_w1 (k : Fin 512) (n : Fin 2048) : V m c main_v43 (ix2 k n) = (prm m c).w1 k n := by
  have e : (V m c main_v43 : S512x2048.Idx → EReal)
      = truncf (F := Ideal) .bf16 (transpose S512x2048 [1, 0] ((m ((c.tc : Thread nD τ).loc main_arg17)) : FVec Ideal S2048x512 .f32) transposes_S2048x512_S512x2048_1_0) bitsLt_bf16_f32 := by
    dsimp only [V, Gen.hostOps0]; after_results; try rfl
  refine (congrFun e (ix2 k n)).trans ?_
  rw [truncf_apply]
  exact transpose_ix2_apply _ _ k n

theorem V_u1 (k : Fin 512) (n : Fin 2048) : V m c main_v45 (ix2 k n) = (prm m c).u1 k n := by
  have e : (V m c main_v45 : S512x2048.Idx → EReal)
      = truncf (F := Ideal) .bf16 (transpose S512x2048 [1, 0] ((m ((c.tc : Thread nD τ).loc main_arg18)) : FVec Ideal S2048x512 .f32) transposes_S2048x512_S512x2048_1_0) bitsLt_bf16_f32 := by
    dsimp only [V, Gen.hostOps0]; after_results; try rfl
  refine (congrFun e (ix2 k n)).trans ?_
  rw [truncf_apply]
  exact transpose_ix2_apply _ _ k n

theorem V_wo (k : Fin 512) (n : Fin 256) : V m c main_v47 (ix2 k n) = (prm m c).wo k n := by
  have e : (V m c main_v47 : S512x256.Idx → EReal)
      = truncf (F := Ideal) .bf16 (transpose S512x256 [1, 0] ((m ((c.tc : Thread nD τ).loc main_arg21)) : FVec Ideal S256x512 .f32) transposes_S256x512_S512x256_1_0) bitsLt_bf16_f32 := by
    dsimp only [V, Gen.hostOps0]; after_results; try rfl
  refine (congrFun e (ix2 k n)).trans ?_
  rw [truncf_apply]
  exact transpose_ix2_apply _ _ k n

theorem V_b0 (n : Fin 2048) : V m c main_v49 (ix2 0 n) = (prm m c).b0 n := by
  have e : (V m c main_v49 : S1x2048.Idx → EReal)
      = shapeCast (α := EReal) S1x2048 (addf (F := Ideal) (s := S2048) (φ := .f32) ((m ((c.tc : Thread nD τ).loc main_arg15)) : FVec Ideal S2048 .f32) ((m ((c.tc : Thread nD τ).loc main_arg16)) : FVec Ideal S2048 .f32))
          shapeCasts_S2048_S1x2048 := by
    dsimp only [V, Gen.hostOps0]; after_results_simp; try rfl
  refine (congrFun e (ix2 0 n)).trans ?_
  refine (shapeCast_a_1a_apply _ _ (0 : Fin 1) n).trans ?_
  rfl

theorem V_b1 (n : Fin 2048) : V m c main_v51 (ix2 0 n) = (prm m c).b1 n := by
  have e : (V m c main_v51 : S1x2048.Idx → EReal)
      = shapeCast (α := EReal) S1x2048 (addf (F := Ideal) (s := S2048) (φ := .f32) ((m ((c.tc : Thread nD τ).loc main_arg19)) : FVec Ideal S2048 .f32) ((m ((c.tc : Thread nD τ).loc main_arg20)) : FVec Ideal S2048 .f32))
          shapeCasts_S2048_S1x2048 := by
    dsimp only [V, Gen.hostOps0]; after_results_simp; try rfl
  refine (congrFun e (ix2 0 n)).trans ?_
  refine (shapeCast_a_1a_apply _ _ (0 : Fin 1) n).trans ?_
  rfl

theorem V_bo (n : Fin 256) : V m c main_v52 (ix2 0 n) = (prm m c).bo n := by
  have e : (V m c main_v52 : S1x256.Idx → EReal)
      = shapeCast (α := EReal) S1x256 ((m ((c.tc : Thread nD τ).loc main_arg22)) : FVec Ideal S256 .f32) shapeCasts_S256_S1x256 := by
    dsimp only [V, Gen.hostOps0]; after_results; try rfl
  refine (congrFun e (ix2 0 n)).trans ?_
  exact shapeCast_a_1a_apply _ _ (0 : Fin 1) n

/-! ## The windows' blocks at an index -/

/-- The printed index maps, decided once over the grid: the row-blocked windows move with the grid point, every other
    window stays at block zero. -/
theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 3) = 0 ∧ win0_1.index t (1 : Fin 3) = t.val ∧ win0_1.index t (2 : Fin 3) = 0 :=
  (by decide +kernel : ∀ t : Fin grid0.N, _)
theorem idx_rows2 : ∀ t : Fin cfg0.N, win0_2.index t (0 : Fin 3) = 0 ∧ win0_2.index t (1 : Fin 3) = t.val ∧ win0_2.index t (2 : Fin 3) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)

theorem iblk0_apply (t : Fin cfg0.N) (r : Fin 128) (k : Fin 1472) : iblk m c 0 t (ix2 r k) = feat m c (ix2 (brow t r) k) := by
  obtain ⟨e0, e1⟩ := idx_rows0 t
  unfold iblk
  show feat m c (((cfg0.win 0).blk t).view.emb (ix2 r k)) = feat m c (ix2 (brow t r) k)
  refine congrArg (feat m c) (funext fun a => Fin.ext ?_)
  match a with
  | ⟨0, _⟩ => show win0_0.index t (0 : Fin 2) * 128 + 1 * r.val = t.val * 128 + r.val; omega
  | ⟨1, _⟩ => show win0_0.index t (1 : Fin 2) * 1472 + 1 * k.val = k.val; omega

theorem iblk1_apply (t : Fin cfg0.N) (l : Fin 2) (r : Fin 128) (k : Fin 512) : iblk m c 1 t (ix3 l r k) = (m ((c.tc : Thread nD τ).loc main_arg6)) (ix3 l (brow t r) k) := by
  obtain ⟨e0, e1, e2⟩ := idx_rows1 t
  unfold iblk
  show V m c main_arg6 (((cfg0.win 1).blk t).view.emb (ix3 l r k)) = _
  rw [V_main_arg6]
  refine congrArg (m ((c.tc : Thread nD τ).loc main_arg6)) (funext fun a => Fin.ext ?_)
  match a with
  | ⟨0, _⟩ => show win0_1.index t (0 : Fin 3) * 2 + 1 * l.val = l.val; omega
  | ⟨1, _⟩ => show win0_1.index t (1 : Fin 3) * 128 + 1 * r.val = t.val * 128 + r.val; omega
  | ⟨2, _⟩ => show win0_1.index t (2 : Fin 3) * 512 + 1 * k.val = k.val; omega

theorem iblk2_apply (t : Fin cfg0.N) (l : Fin 2) (r : Fin 128) (k : Fin 512) : iblk m c 2 t (ix3 l r k) = (m ((c.tc : Thread nD τ).loc main_arg7)) (ix3 l (brow t r) k) := by
  obtain ⟨e0, e1, e2⟩ := idx_rows2 t
  unfold iblk
  show V m c main_arg7 (((cfg0.win 2).blk t).view.emb (ix3 l r k)) = _
  rw [V_main_arg7]
  refine congrArg (m ((c.tc : Thread nD τ).loc main_arg7)) (funext fun a => Fin.ext ?_)
  match a with
  | ⟨0, _⟩ => show win0_2.index t (0 : Fin 3) * 2 + 1 * l.val = l.val; omega
  | ⟨1, _⟩ => show win0_2.index t (1 : Fin 3) * 128 + 1 * r.val = t.val * 128 + r.val; omega
  | ⟨2, _⟩ => show win0_2.index t (2 : Fin 3) * 512 + 1 * k.val = k.val; omega

theorem iblk3_apply (t : Fin cfg0.N) (k : Fin 1472) (n : Fin 2048) : iblk m c 3 t (ix2 k n) = V m c main_v39 (ix2 k n) := by
  obtain ⟨e0, e1⟩ := idx_whole3 t
  unfold iblk
  show V m c main_v39 (((cfg0.win 3).blk t).view.emb (ix2 k n)) = V m c main_v39 (ix2 k n)
  refine congrArg (V m c main_v39) (funext fun a => Fin.ext ?_)
  match a with
  | ⟨0, _⟩ => show win0_3.index t (0 : Fin 2) * 1472 + 1 * k.val = k.val; omega
  | ⟨1, _⟩ => show win0_3.index t (1 : Fin 2) * 2048 + 1 * n.val = n.val; omega

theorem iblk4_apply (t : Fin cfg0.N) (k : Fin 512) (n : Fin 2048) : iblk m c 4 t (ix2 k n) = V m c main_v41 (ix2 k n) := by
  obtain ⟨e0, e1⟩ := idx_whole4 t
  unfold iblk
  show V m c main_v41 (((cfg0.win 4).blk t).view.emb (ix2 k n)) = V m c main_v41 (ix2 k n)
  refine congrArg (V m c main_v41) (funext fun a => Fin.ext ?_)
  match a with
  | ⟨0, _⟩ => show win0_4.index t (0 : Fin 2) * 512 + 1 * k.val = k.val; omega
  | ⟨1, _⟩ => show win0_4.index t (1 : Fin 2) * 2048 + 1 * n.val = n.val; omega

theorem iblk5_apply (t : Fin cfg0.N) (k : Fin 512) (n : Fin 2048) : iblk m c 5 t (ix2 k n) = V m c main_v43 (ix2 k n) := by
  obtain ⟨e0, e1⟩ := idx_whole5 t
  unfold iblk
  show V m c main_v43 (((cfg0.win 5).blk t).view.emb (ix2 k n)) = V m c main_v43 (ix2 k n)
  refine congrArg (V m c main_v43) (funext fun a => Fin.ext ?_)
  match a with
  | ⟨0, _⟩ => show win0_5.index t (0 : Fin 2) * 512 + 1 * k.val = k.val; omega
  | ⟨1, _⟩ => show win0_5.index t (1 : Fin 2) * 2048 + 1 * n.val = n.val; omega

theorem iblk6_apply (t : Fin cfg0.N) (k : Fin 512) (n : Fin 2048) : iblk m c 6 t (ix2 k n) = V m c main_v45 (ix2 k n) := by
  obtain ⟨e0, e1⟩ := idx_whole6 t
  unfold iblk
  show V m c main_v45 (((cfg0.win 6).blk t).view.emb (ix2 k n)) = V m c main_v45 (ix2 k n)
  refine congrArg (V m c main_v45) (funext fun a => Fin.ext ?_)
  match a with
  | ⟨0, _⟩ => show win0_6.index t (0 : Fin 2) * 512 + 1 * k.val = k.val; omega
  | ⟨1, _⟩ => show win0_6.index t (1 : Fin 2) * 2048 + 1 * n.val = n.val; omega

theorem iblk7_apply (t : Fin cfg0.N) (k : Fin 512) (n : Fin 256) : iblk m c 7 t (ix2 k n) = V m c main_v47 (ix2 k n) := by
  obtain ⟨e0, e1⟩ := idx_whole7 t
  unfold iblk
  show V m c main_v47 (((cfg0.win 7).blk t).view.emb (ix2 k n)) = V m c main_v47 (ix2 k n)
  refine congrArg (V m c main_v47) (funext fun a => Fin.ext ?_)
  match a with
  | ⟨0, _⟩ => show win0_7.index t (0 : Fin 2) * 512 + 1 * k.val = k.val; omega
  | ⟨1, _⟩ => show win0_7.index t (1 : Fin 2) * 256 + 1 * n.val = n.val; omega

theorem iblk8_apply (t : Fin cfg0.N) (n : Fin 2048) : iblk m c 8 t (ix2 0 n) = V m c main_v49 (ix2 0 n) := by
  obtain ⟨e0, e1⟩ := idx_whole8 t
  unfold iblk
  show V m c main_v49 (((cfg0.win 8).blk t).view.emb (ix2 (0 : Fin 1) n)) = V m c main_v49 (ix2 (0 : Fin 1) n)
  refine congrArg (V m c main_v49) (funext fun a => Fin.ext ?_)
  match a with
  | ⟨0, _⟩ => show win0_8.index t (0 : Fin 2) * 1 + 1 * (0 : Fin 1).val = (0 : Fin 1).val; omega
  | ⟨1, _⟩ => show win0_8.index t (1 : Fin 2) * 2048 + 1 * n.val = n.val; omega

theorem iblk9_apply (t : Fin cfg0.N) (n : Fin 2048) : iblk m c 9 t (ix2 0 n) = V m c main_v51 (ix2 0 n) := by
  obtain ⟨e0, e1⟩ := idx_whole9 t
  unfold iblk
  show V m c main_v51 (((cfg0.win 9).blk t).view.emb (ix2 (0 : Fin 1) n)) = V m c main_v51 (ix2 (0 : Fin 1) n)
  refine congrArg (V m c main_v51) (funext fun a => Fin.ext ?_)
  match a with
  | ⟨0, _⟩ => show win0_9.index t (0 : Fin 2) * 1 + 1 * (0 : Fin 1).val = (0 : Fin 1).val; omega
  | ⟨1, _⟩ => show win0_9.index t (1 : Fin 2) * 2048 + 1 * n.val = n.val; omega

theorem iblk10_apply (t : Fin cfg0.N) (n : Fin 256) : iblk m c 10 t (ix2 0 n) = V m c main_v52 (ix2 0 n) := by
  obtain ⟨e0, e1⟩ := idx_whole10 t
  unfold iblk
  show V m c main_v52 (((cfg0.win 10).blk t).view.emb (ix2 (0 : Fin 1) n)) = V m c main_v52 (ix2 (0 : Fin 1) n)
  refine congrArg (V m c main_v52) (funext fun a => Fin.ext ?_)
  match a with
  | ⟨0, _⟩ => show win0_10.index t (0 : Fin 2) * 1 + 1 * (0 : Fin 1).val = (0 : Fin 1).val; omega
  | ⟨1, _⟩ => show win0_10.index t (1 : Fin 2) * 256 + 1 * n.val = n.val; omega

end Cert.KernelIdeal.Whole

end
-- ==== Proof.WholeKernelIdeal.lean ====
/-
  The three result arrays after the run, as the step's whole-array functions. Grid point t stages rows 128·t … 128·t + 127 of
  the feature array and of the two state arrays, and all of the five transposed weight matrices and the three bias rows; the
  body's value at row r of the point's blocks is the LSTM step of row 128·t + r of the arrays; the point writes the logits
  block back to rows 128·t … of the logits array and the two state blocks to the same rows of both layers' halves of the
  state arrays; the 64 points' blocks tile each result array.
-/
import proofs.«171206_j17300128268701_1_alg».proof.Proof.ValueBlocksKernelIdeal
import proofs.«171206_j17300128268701_1_alg».proof.Proof.PayloadKernelIdeal
import proofs.«171206_j17300128268701_1_alg».proof.Proof.BlockReadsKernelIdeal
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Whole

open Cert.KernelIdeal Cert.KernelIdeal.Gen Cert.KernelIdeal.Body Cert.KernelIdeal.Fr Cert.KernelIdeal.Val Cert.KernelIdeal.Pay
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (c : Dev nD)

/-! ## A row of the body's values, once the blocks' parameters and rows are named -/

section Rows

variable (x0 : Vec Ideal S128x1472 .bf16) (x1 x2 : Vec Ideal S2x128x512 .f32) (x3 : Vec Ideal S1472x2048 .bf16)
  (x4 x5 x6 : Vec Ideal S512x2048 .bf16) (x7 : Vec Ideal S512x256 .bf16) (x8 x9 : Vec Ideal S1x2048 .f32)
  (x10 : Vec Ideal S1x256 .f32)
variable (P : Spec.Params) (X : Fin 1472 → EReal) (H0 C0 H1 C1 : Fin 512 → EReal)

/-- Parameter blocks that read, entry by entry, the fields of a parameter record hold that record. -/
theorem bp_of (h3 : ∀ k n, x3 (ix2 k n) = P.w0 k n) (h4 : ∀ k n, x4 (ix2 k n) = P.u0 k n) (h8 : ∀ n, x8 (ix2 0 n) = P.b0 n)
    (h5 : ∀ k n, x5 (ix2 k n) = P.w1 k n) (h6 : ∀ k n, x6 (ix2 k n) = P.u1 k n) (h9 : ∀ n, x9 (ix2 0 n) = P.b1 n)
    (h7 : ∀ k n, x7 (ix2 k n) = P.wo k n) (h10 : ∀ n, x10 (ix2 0 n) = P.bo n) : bp x3 x4 x5 x6 x7 x8 x9 x10 = P := by
  cases P
  unfold bp
  simp only [Spec.Params.mk.injEq]
  exact ⟨funext fun k => funext fun n => h3 k n, funext fun k => funext fun n => h4 k n, funext fun n => h8 n,
    funext fun k => funext fun n => h5 k n, funext fun k => funext fun n => h6 k n, funext fun n => h9 n,
    funext fun k => funext fun n => h7 k n, funext fun n => h10 n⟩

theorem cell1_row (r : Fin 128) (j : Fin 512) (hp : bp x3 x4 x5 x6 x7 x8 x9 x10 = P) (hx : bx x0 r = X) (hh0 : bs x1 0 r = H0) (hc0 : bs x2 0 r = C0) :
    cell1 x0 x1 x2 x3 x4 x8 (ix2 r j) = Spec.c1 P X H0 C0 j := by
  subst hp hx hh0 hc0; exact cell1_apply x0 x1 x2 x3 x4 x5 x6 x7 x8 x9 x10 r j
theorem hid1_row (r : Fin 128) (j : Fin 512) (hp : bp x3 x4 x5 x6 x7 x8 x9 x10 = P) (hx : bx x0 r = X) (hh0 : bs x1 0 r = H0) (hc0 : bs x2 0 r = C0) :
    hid1 x0 x1 x2 x3 x4 x8 (ix2 r j) = Spec.h1 P X H0 C0 j := by
  subst hp hx hh0 hc0; exact hid1_apply x0 x1 x2 x3 x4 x5 x6 x7 x8 x9 x10 r j
theorem cell2_row (r : Fin 128) (j : Fin 512) (hp : bp x3 x4 x5 x6 x7 x8 x9 x10 = P) (hx : bx x0 r = X) (hh0 : bs x1 0 r = H0) (hc0 : bs x2 0 r = C0)
    (hh1 : bs x1 1 r = H1) (hc1 : bs x2 1 r = C1) :
    cell2 x0 x1 x2 x3 x4 x5 x6 x8 x9 (ix2 r j) = Spec.c2 P X H0 C0 H1 C1 j := by
  subst hp hx hh0 hc0 hh1 hc1; exact cell2_apply x0 x1 x2 x3 x4 x5 x6 x7 x8 x9 x10 r j
theorem hid2_row (r : Fin 128) (j : Fin 512) (hp : bp x3 x4 x5 x6 x7 x8 x9 x10 = P) (hx : bx x0 r = X) (hh0 : bs x1 0 r = H0) (hc0 : bs x2 0 r = C0)
    (hh1 : bs x1 1 r = H1) (hc1 : bs x2 1 r = C1) :
    hid2 x0 x1 x2 x3 x4 x5 x6 x8 x9 (ix2 r j) = Spec.h2 P X H0 C0 H1 C1 j := by
  subst hp hx hh0 hc0 hh1 hc1; exact hid2_apply x0 x1 x2 x3 x4 x5 x6 x7 x8 x9 x10 r j
theorem logit_row (r : Fin 128) (n : Fin 256) (hp : bp x3 x4 x5 x6 x7 x8 x9 x10 = P) (hx : bx x0 r = X) (hh0 : bs x1 0 r = H0) (hc0 : bs x2 0 r = C0)
    (hh1 : bs x1 1 r = H1) (hc1 : bs x2 1 r = C1) :
    logit x0 x1 x2 x3 x4 x5 x6 x7 x8 x9 x10 (ix3 r 0 n) = Spec.lg P X H0 C0 H1 C1 n := by
  subst hp hx hh0 hc0 hh1 hc1; exact logit_apply x0 x1 x2 x3 x4 x5 x6 x7 x8 x9 x10 r n

end Rows

/-! ## The parameters and rows the point's blocks hold -/

set_option maxHeartbeats 1000000 in
/-- The parameters the point's blocks hold are the parameters of the argument arrays. -/
theorem bp_eq (t : Fin cfg0.N) :
    bp (iblk m c 3 t) (iblk m c 4 t) (iblk m c 5 t) (iblk m c 6 t) (iblk m c 7 t) (iblk m c 8 t) (iblk m c 9 t) (iblk m c 10 t) = prm m c :=
  bp_of _ _ _ _ _ _ _ _ _
    (fun k n => (iblk3_apply m c t k n).trans (V_w0 m c k n)) (fun k n => (iblk4_apply m c t k n).trans (V_u0 m c k n))
    (fun n => (iblk8_apply m c t n).trans (V_b0 m c n))
    (fun k n => (iblk5_apply m c t k n).trans (V_w1 m c k n)) (fun k n => (iblk6_apply m c t k n).trans (V_u1 m c k n))
    (fun n => (iblk9_apply m c t n).trans (V_b1 m c n))
    (fun k n => (iblk7_apply m c t k n).trans (V_wo m c k n)) (fun n => (iblk10_apply m c t n).trans (V_bo m c n))

/-- Row r of the point's feature block is row 128·t + r of the feature array. -/
theorem bx_eq (t : Fin cfg0.N) (r : Fin 128) : bx (iblk m c 0 t) r = Spec.xr (feat m c) (brow t r) :=
  funext fun k => iblk0_apply m c t r k
/-- Row r of layer l's half of the point's hidden-state block is row 128·t + r of that layer's hidden states. -/
theorem bs1_eq (t : Fin cfg0.N) (l : Fin 2) (r : Fin 128) : bs (iblk m c 1 t) l r = Spec.sr (m ((c.tc : Thread nD τ).loc main_arg6)) l (brow t r) :=
  funext fun k => iblk1_apply m c t l r k
/-- The same for the cell states. -/
theorem bs2_eq (t : Fin cfg0.N) (l : Fin 2) (r : Fin 128) : bs (iblk m c 2 t) l r = Spec.sr (m ((c.tc : Thread nD τ).loc main_arg7)) l (brow t r) :=
  funext fun k => iblk2_apply m c t l r k

/-! ## Where the result windows' blocks lie -/

theorem idx11 : ∀ t : Fin cfg0.N, win0_11.index t (0 : Fin 3) = t.val ∧ win0_11.index t (1 : Fin 3) = 0 ∧ win0_11.index t (2 : Fin 3) = 0 :=
  (by decide +kernel : ∀ t : Fin grid0.N, win0_11.index t (0 : Fin 3) = t.val ∧ win0_11.index t (1 : Fin 3) = 0 ∧ win0_11.index t (2 : Fin 3) = 0)
theorem idx12 : ∀ t : Fin cfg0.N, win0_12.index t (0 : Fin 3) = 0 ∧ win0_12.index t (1 : Fin 3) = t.val ∧ win0_12.index t (2 : Fin 3) = 0 :=
  (by decide +kernel : ∀ t : Fin grid0.N, win0_12.index t (0 : Fin 3) = 0 ∧ win0_12.index t (1 : Fin 3) = t.val ∧ win0_12.index t (2 : Fin 3) = 0)
theorem idx13 : ∀ t : Fin cfg0.N, win0_13.index t (0 : Fin 3) = 0 ∧ win0_13.index t (1 : Fin 3) = t.val ∧ win0_13.index t (2 : Fin 3) = 0 :=
  (by decide +kernel : ∀ t : Fin grid0.N, win0_13.index t (0 : Fin 3) = 0 ∧ win0_13.index t (1 : Fin 3) = t.val ∧ win0_13.index t (2 : Fin 3) = 0)

/-- Row r, column n of point t's logits block is row 128·t + r, column n of the logits array. -/
theorem emb11 (t : Fin cfg0.N) (r : Fin 128) (n : Fin 256) :
    ((cfg0.win 11).blk t).view.emb (ix3 r 0 n) = (ix3 (brow t r) 0 n : S8192x1x256.Idx) := by
  obtain ⟨e0, e1, e2⟩ := idx11 t
  funext a
  apply Fin.ext
  match a with
  | ⟨0, _⟩ => show win0_11.index t (0 : Fin 3) * 128 + 1 * r.val = t.val * 128 + r.val; omega
  | ⟨1, _⟩ => show win0_11.index t (1 : Fin 3) * 1 + 1 * 0 = 0; omega
  | ⟨2, _⟩ => show win0_11.index t (2 : Fin 3) * 256 + 1 * n.val = n.val; omega
/-- Layer l, row r, column j of point t's hidden-state block is layer l, row 128·t + r, column j of the array. -/
theorem emb12 (t : Fin cfg0.N) (l : Fin 2) (r : Fin 128) (j : Fin 512) :
    ((cfg0.win 12).blk t).view.emb (ix3 l r j) = (ix3 l (brow t r) j : S2x8192x512.Idx) := by
  obtain ⟨e0, e1, e2⟩ := idx12 t
  funext a
  apply Fin.ext
  match a with
  | ⟨0, _⟩ => show win0_12.index t (0 : Fin 3) * 2 + 1 * l.val = l.val; omega
  | ⟨1, _⟩ => show win0_12.index t (1 : Fin 3) * 128 + 1 * r.val = t.val * 128 + r.val; omega
  | ⟨2, _⟩ => show win0_12.index t (2 : Fin 3) * 512 + 1 * j.val = j.val; omega
/-- The same for the cell-state block. -/
theorem emb13 (t : Fin cfg0.N) (l : Fin 2) (r : Fin 128) (j : Fin 512) :
    ((cfg0.win 13).blk t).view.emb (ix3 l r j) = (ix3 l (brow t r) j : S2x8192x512.Idx) := by
  obtain ⟨e0, e1, e2⟩ := idx13 t
  funext a
  apply Fin.ext
  match a with
  | ⟨0, _⟩ => show win0_13.index t (0 : Fin 3) * 2 + 1 * l.val = l.val; omega
  | ⟨1, _⟩ => show win0_13.index t (1 : Fin 3) * 128 + 1 * r.val = t.val * 128 + r.val; omega
  | ⟨2, _⟩ => show win0_13.index t (2 : Fin 3) * 512 + 1 * j.val = j.val; omega

/-! ## Stores into a buffer, read at an index -/

theorem zero3 : (![0, 0, 0] : Fin 3 → Nat) = fun _ => 0 := funext fun a => by fin_cases a <;> rfl

/-- A state buffer the body fills by two stores, layer 1's half then layer 0's, each a [128, 512] value laid out as one
    [1, 128, 512] half: the buffer holds a function G of the index as soon as each half does. -/
theorem canon_state (q1 q0 : Vec Ideal S1x128x512 .f32) (G : S2x128x512.Idx → EReal)
    (h1 : ∀ (u : Fin 1) (r : Fin 128) (j : Fin 512), q1 (ix3 u r j) = G (ix3 1 r j))
    (h0 : ∀ (u : Fin 1) (r : Fin 128) (j : Fin 512), q0 (ix3 u r j) = G (ix3 0 r j)) :
    (View.canon ([⟨rS1, q1⟩, ⟨rS0, q0⟩] : List (View.Piece (Elt Ideal) S2x128x512 .f32)) : S2x128x512.Idx → EReal) = G := by
  funext y
  refine View.canon_apply_of_pieces G _ ?_ y (cover0_st q1 q0 y)
  intro p hp x
  rcases List.mem_cons.mp hp with rfl | hp
  · obtain ⟨u, r, j, rfl⟩ : ∃ (u : Fin 1) (r : Fin 128) (j : Fin 512), x = ix3 u r j := ⟨x 0, x 1, x 2, eq_ix3 x⟩
    refine (h1 u r j).trans (congrArg G ?_)
    funext a
    apply Fin.ext
    match a with
    | ⟨0, _⟩ => show 1 = 1 + 1 * u.val; have := u.isLt; omega
    | ⟨1, _⟩ => show r.val = 0 + 1 * r.val; omega
    | ⟨2, _⟩ => show j.val = 0 + 1 * j.val; omega
  · obtain rfl : p = ⟨rS0, q0⟩ := List.mem_singleton.mp hp
    obtain ⟨u, r, j, rfl⟩ : ∃ (u : Fin 1) (r : Fin 128) (j : Fin 512), x = ix3 u r j := ⟨x 0, x 1, x 2, eq_ix3 x⟩
    refine (h0 u r j).trans (congrArg G ?_)
    funext a
    apply Fin.ext
    match a with
    | ⟨0, _⟩ => show 0 = 0 + 1 * u.val; have := u.isLt; omega
    | ⟨1, _⟩ => show r.val = 0 + 1 * r.val; omega
    | ⟨2, _⟩ => show j.val = 0 + 1 * j.val; omega

/-- A [128, 512] value laid out as one [1, 128, 512] half of a state buffer reads, at (u, r, j), the value at (r, j). -/
theorem pay1_apply (v : FVec Ideal S128x512 .f32) (u : Fin 1) (r : Fin 128) (j : Fin 512) : k0_pay1 v (ix3 u r j) = v (ix2 r j) := by
  unfold k0_pay1
  exact shapeCast_ab_1ab_apply _ _ u r j
theorem pay14_apply (v : FVec Ideal S128x512 .f32) (u : Fin 1) (r : Fin 128) (j : Fin 512) : k0_pay14 v (ix3 u r j) = v (ix2 r j) := by
  unfold k0_pay14
  exact shapeCast_ab_1ab_apply _ _ u r j
theorem pay3_apply (v : FVec Ideal S128x512 .f32) (u : Fin 1) (r : Fin 128) (j : Fin 512) : k0_pay3 v (ix3 u r j) = v (ix2 r j) := by
  unfold k0_pay3
  exact shapeCast_ab_1ab_apply _ _ u r j
theorem pay2_apply (v : FVec Ideal S128x512 .f32) (u : Fin 1) (r : Fin 128) (j : Fin 512) : k0_pay2 v (ix3 u r j) = v (ix2 r j) := by
  unfold k0_pay2
  exact shapeCast_ab_1ab_apply _ _ u r j

/-! ## What a point writes back is its block of the whole-array function -/

set_option maxHeartbeats 1000000 in
theorem flushed11_eq (t : Fin cfg0.N) : (dats m 0 c).flushed 11 t
    = ((cfg0.win 11).blk t).view.read (Elt Ideal) (Spec.Logits (prm m c) (feat m c) (m ((c.tc : Thread nD τ).loc main_arg6)) (m ((c.tc : Thread nD τ).loc main_arg7))) := by
  rw [flushed11]
  unfold out0_11
  rw [View.canon_unit_zero zero3]
  show (logit (F := Ideal) _ _ _ _ _ _ _ _ _ _ _ : S128x1x256.Idx → EReal)
      = fun y : S128x1x256.Idx => Spec.Logits (prm m c) (feat m c) (m ((c.tc : Thread nD τ).loc main_arg6)) (m ((c.tc : Thread nD τ).loc main_arg7)) (((cfg0.win 11).blk t).view.emb y)
  funext y
  obtain ⟨r, u, n, rfl⟩ : ∃ (r : Fin 128) (u : Fin 1) (n : Fin 256), y = ix3 r u n := ⟨y 0, y 1, y 2, eq_ix3 y⟩
  obtain rfl : u = 0 := Subsingleton.elim _ _
  refine (logit_row (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ r n (bp_eq m c t) (bx_eq m c t r) (bs1_eq m c t 0 r) (bs2_eq m c t 0 r) (bs1_eq m c t 1 r) (bs2_eq m c t 1 r)).trans ?_
  exact ((congrArg (Spec.Logits (prm m c) (feat m c) (m ((c.tc : Thread nD τ).loc main_arg6)) (m ((c.tc : Thread nD τ).loc main_arg7))) (emb11 t r n)).trans (Spec.Logits_ix _ _ _ _ (brow t r) n)).symm
set_option maxHeartbeats 1000000 in
theorem flushed12_eq (t : Fin cfg0.N) : (dats m 0 c).flushed 12 t
    = ((cfg0.win 12).blk t).view.read (Elt Ideal) (Spec.Hid (prm m c) (feat m c) (m ((c.tc : Thread nD τ).loc main_arg6)) (m ((c.tc : Thread nD τ).loc main_arg7))) := by
  rw [flushed12]
  unfold out0_12
  show (View.canon (_ : List (View.Piece (Elt Ideal) S2x128x512 .f32)) : S2x128x512.Idx → EReal)
      = fun y : S2x128x512.Idx => Spec.Hid (prm m c) (feat m c) (m ((c.tc : Thread nD τ).loc main_arg6)) (m ((c.tc : Thread nD τ).loc main_arg7)) (((cfg0.win 12).blk t).view.emb y)
  refine canon_state _ _ _ (fun u r j => ?_) (fun u r j => ?_)
  · refine (pay1_apply _ u r j).trans ?_
    refine (hid2_row (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ r j (bp_eq m c t) (bx_eq m c t r) (bs1_eq m c t 0 r) (bs2_eq m c t 0 r) (bs1_eq m c t 1 r) (bs2_eq m c t 1 r)).trans ?_
    exact ((congrArg (Spec.Hid (prm m c) (feat m c) (m ((c.tc : Thread nD τ).loc main_arg6)) (m ((c.tc : Thread nD τ).loc main_arg7))) (emb12 t 1 r j)).trans (Spec.Hid_ix1 _ _ _ _ (brow t r) j)).symm
  · refine (pay14_apply _ u r j).trans ?_
    refine (hid1_row (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ r j (bp_eq m c t) (bx_eq m c t r) (bs1_eq m c t 0 r) (bs2_eq m c t 0 r)).trans ?_
    exact ((congrArg (Spec.Hid (prm m c) (feat m c) (m ((c.tc : Thread nD τ).loc main_arg6)) (m ((c.tc : Thread nD τ).loc main_arg7))) (emb12 t 0 r j)).trans (Spec.Hid_ix0 _ _ _ _ (brow t r) j)).symm
set_option maxHeartbeats 1000000 in
theorem flushed13_eq (t : Fin cfg0.N) : (dats m 0 c).flushed 13 t
    = ((cfg0.win 13).blk t).view.read (Elt Ideal) (Spec.Cell (prm m c) (feat m c) (m ((c.tc : Thread nD τ).loc main_arg6)) (m ((c.tc : Thread nD τ).loc main_arg7))) := by
  rw [flushed13]
  unfold out0_13
  show (View.canon (_ : List (View.Piece (Elt Ideal) S2x128x512 .f32)) : S2x128x512.Idx → EReal)
      = fun y : S2x128x512.Idx => Spec.Cell (prm m c) (feat m c) (m ((c.tc : Thread nD τ).loc main_arg6)) (m ((c.tc : Thread nD τ).loc main_arg7)) (((cfg0.win 13).blk t).view.emb y)
  refine canon_state _ _ _ (fun u r j => ?_) (fun u r j => ?_)
  · refine (pay3_apply _ u r j).trans ?_
    refine (cell2_row (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ _ _ r j (bp_eq m c t) (bx_eq m c t r) (bs1_eq m c t 0 r) (bs2_eq m c t 0 r) (bs1_eq m c t 1 r) (bs2_eq m c t 1 r)).trans ?_
    exact ((congrArg (Spec.Cell (prm m c) (feat m c) (m ((c.tc : Thread nD τ).loc main_arg6)) (m ((c.tc : Thread nD τ).loc main_arg7))) (emb13 t 1 r j)).trans (Spec.Cell_ix1 _ _ _ _ (brow t r) j)).symm
  · refine (pay2_apply _ u r j).trans ?_
    refine (cell1_row (iblk m c 0 t) (iblk m c 1 t) (iblk m c 2 t) (iblk m c 3 t) (iblk m c 4 t) (iblk m c 5 t) (iblk m c 6 t) (iblk m c 7 t) (iblk m c 8 t) (iblk m c 9 t) (iblk m c 10 t) _ _ _ _ r j (bp_eq m c t) (bx_eq m c t r) (bs1_eq m c t 0 r) (bs2_eq m c t 0 r)).trans ?_
    exact ((congrArg (Spec.Cell (prm m c) (feat m c) (m ((c.tc : Thread nD τ).loc main_arg6)) (m ((c.tc : Thread nD τ).loc main_arg7))) (emb13 t 0 r j)).trans (Spec.Cell_ix0 _ _ _ _ (brow t r) j)).symm

/-! ## The blocks tile the result arrays -/

theorem cover11 (i : S8192x1x256.Idx) : ∃ t : Fin cfg0.N, (cfg0.win 11).flush t = true ∧ i ∈ ((cfg0.win 11).blk t).view.set := by
  have hN : cfg0.N = 64 := N_0
  have h0 : (i 0).val < 8192 := (i 0).isLt
  have h1 : (i 1).val < 1 := (i 1).isLt
  have h2 : (i 2).val < 256 := (i 2).isLt
  obtain ⟨t, ht⟩ : ∃ t : Fin cfg0.N, t.val = (i 0).val / 128 := ⟨⟨(i 0).val / 128, by omega⟩, rfl⟩
  obtain ⟨e0, e1, e2⟩ := idx11 t
  refine ⟨t, flush0_11 t, ?_⟩
  show i ∈ ((View.whole main_v53_0).slice (win0_11.rect t)).set
  rw [View.set_slice_whole, Rect.mem_set_unit]
  intro a
  match a with
  | ⟨0, _⟩ => show win0_11.index t (0 : Fin 3) * 128 ≤ (i 0).val ∧ (i 0).val < win0_11.index t (0 : Fin 3) * 128 + 128; omega
  | ⟨1, _⟩ => show win0_11.index t (1 : Fin 3) * 1 ≤ (i 1).val ∧ (i 1).val < win0_11.index t (1 : Fin 3) * 1 + 1; omega
  | ⟨2, _⟩ => show win0_11.index t (2 : Fin 3) * 256 ≤ (i 2).val ∧ (i 2).val < win0_11.index t (2 : Fin 3) * 256 + 256; omega
theorem cover12 (i : S2x8192x512.Idx) : ∃ t : Fin cfg0.N, (cfg0.win 12).flush t = true ∧ i ∈ ((cfg0.win 12).blk t).view.set := by
  have hN : cfg0.N = 64 := N_0
  have h0 : (i 0).val < 2 := (i 0).isLt
  have h1 : (i 1).val < 8192 := (i 1).isLt
  have h2 : (i 2).val < 512 := (i 2).isLt
  obtain ⟨t, ht⟩ : ∃ t : Fin cfg0.N, t.val = (i 1).val / 128 := ⟨⟨(i 1).val / 128, by omega⟩, rfl⟩
  obtain ⟨e0, e1, e2⟩ := idx12 t
  refine ⟨t, flush0_12 t, ?_⟩
  show i ∈ ((View.whole main_v53_1).slice (win0_12.rect t)).set
  rw [View.set_slice_whole, Rect.mem_set_unit]
  intro a
  match a with
  | ⟨0, _⟩ => show win0_12.index t (0 : Fin 3) * 2 ≤ (i 0).val ∧ (i 0).val < win0_12.index t (0 : Fin 3) * 2 + 2; omega
  | ⟨1, _⟩ => show win0_12.index t (1 : Fin 3) * 128 ≤ (i 1).val ∧ (i 1).val < win0_12.index t (1 : Fin 3) * 128 + 128; omega
  | ⟨2, _⟩ => show win0_12.index t (2 : Fin 3) * 512 ≤ (i 2).val ∧ (i 2).val < win0_12.index t (2 : Fin 3) * 512 + 512; omega
theorem cover13 (i : S2x8192x512.Idx) : ∃ t : Fin cfg0.N, (cfg0.win 13).flush t = true ∧ i ∈ ((cfg0.win 13).blk t).view.set := by
  have hN : cfg0.N = 64 := N_0
  have h0 : (i 0).val < 2 := (i 0).isLt
  have h1 : (i 1).val < 8192 := (i 1).isLt
  have h2 : (i 2).val < 512 := (i 2).isLt
  obtain ⟨t, ht⟩ : ∃ t : Fin cfg0.N, t.val = (i 1).val / 128 := ⟨⟨(i 1).val / 128, by omega⟩, rfl⟩
  obtain ⟨e0, e1, e2⟩ := idx13 t
  refine ⟨t, flush0_13 t, ?_⟩
  show i ∈ ((View.whole main_v53_2).slice (win0_13.rect t)).set
  rw [View.set_slice_whole, Rect.mem_set_unit]
  intro a
  match a with
  | ⟨0, _⟩ => show win0_13.index t (0 : Fin 3) * 2 ≤ (i 0).val ∧ (i 0).val < win0_13.index t (0 : Fin 3) * 2 + 2; omega
  | ⟨1, _⟩ => show win0_13.index t (1 : Fin 3) * 128 ≤ (i 1).val ∧ (i 1).val < win0_13.index t (1 : Fin 3) * 128 + 128; omega
  | ⟨2, _⟩ => show win0_13.index t (2 : Fin 3) * 512 ≤ (i 2).val ∧ (i 2).val < win0_13.index t (2 : Fin 3) * 512 + 512; omega

/-! ## The result arrays after the run -/

theorem final11 : (dats m 0 c).arrAt 11 cfg0.N = Spec.Logits (prm m c) (feat m c) (m ((c.tc : Thread nD τ).loc main_arg6)) (m ((c.tc : Thread nD τ).loc main_arg7)) :=
  (dats m 0 c).arrAt_eq_of_cover 11 _ (fun t _ => flushed11_eq m c t) (cover11)
theorem final12 : (dats m 0 c).arrAt 12 cfg0.N = Spec.Hid (prm m c) (feat m c) (m ((c.tc : Thread nD τ).loc main_arg6)) (m ((c.tc : Thread nD τ).loc main_arg7)) :=
  (dats m 0 c).arrAt_eq_of_cover 12 _ (fun t _ => flushed12_eq m c t) (cover12)
theorem final13 : (dats m 0 c).arrAt 13 cfg0.N = Spec.Cell (prm m c) (feat m c) (m ((c.tc : Thread nD τ).loc main_arg6)) (m ((c.tc : Thread nD τ).loc main_arg7)) :=
  (dats m 0 c).arrAt_eq_of_cover 13 _ (fun t _ => flushed13_eq m c t) (cover13)

end Cert.KernelIdeal.Whole

end
-- ==== Proof.FeatBridge.lean ====
/-
  The feature rows the kernel's program hands its region are the reference's. Both programs compute them with the same host
  operations — five table look-ups by the index arrays (a negative index wrapped once by the table's length), the
  concatenation of the looked-up rows with the numerical features, and the flattening of each sample's 16 × 92 entries
  into one row of 1472 — and the kernel's program then narrows the float format, which changes no value on the extended
  reals. So the array is ONE function of the argument arrays; it is never opened.
-/
import proofs.«171206_j17300128268701_1_alg».proof.Proof.FrameHostKernelIdeal
import proofs.«171206_j17300128268701_1_alg».proof.Proof.ReadRef
import Idealize.ShloMosaic.Lib.StableHlo.Run
import Idealize.ShloMosaic.Lib.ValueIdx

set_option maxRecDepth 16384

noncomputable section

namespace Cert.KernelIdeal.Whole

open Cert.KernelIdeal Cert.KernelIdeal.Gen Cert.KernelIdeal.Fr
open Idealize.ShloMosaic Idealize.ShloMosaic.TcCoe Idealize.SL.Sem Idealize.ShloMosaic.ValueIdx

variable (m : (ℓ : Loc nD τ sig) → Buf (Elt Ideal) ℓ) (c : Dev nD)

set_option maxHeartbeats 4000000 in
/-- The region finds the reference's feature array. -/
theorem feat_bridge : (V m c main_v37 : S8192x1472.Idx → EReal)
    = Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) := by
  have e : (V m c main_v37 : S8192x1472.Idx → EReal)
      = truncf (F := Ideal) .bf16 (Cert.ReferenceIdeal.Read.val_main_v36 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) bitsLt_bf16_f32 := by
    dsimp only [V, Gen.hostOps0]
    after_results <;> rfl
  rw [e]
  rfl

end Cert.KernelIdeal.Whole

end
-- ==== Proof.RefValue.lean ====
/-
  The reference's three results as the step's whole-array functions. The reference computes the same LSTM step on the
  whole batch at once: each product is a host dot_general of the whole feature (or state) array against a transposed weight
  matrix, each bias vector is broadcast down the rows and added in turn, the logistic is spelt 1 / (1 + exp (−x)), and the
  two layers' results are stacked along a new leading axis. Read at an index, each result is the step of one row.
-/
import proofs.«171206_j17300128268701_1_alg».proof.Proof.ReadRef
import proofs.«171206_j17300128268701_1_alg».proof.Proof.Spec
import proofs.«171206_j17300128268701_1_alg».proof.Proof.LibDotSum
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.RefVal

open Cert.ReferenceIdeal Cert.ReferenceIdeal.Gen Cert.ReferenceIdeal.Value Cert.ReferenceIdeal.Read
open Idealize.ShloMosaic Idealize.ShloMosaic.TcCoe Idealize.SL.Sem Idealize.ShloMosaic.ValueIdx

variable (m : (ℓ : Loc nD τ sig) → Buf (Elt Ideal) ℓ) (c : Dev nD)

/-- The parameters read off the argument arrays. -/
abbrev prm : Spec.Params :=
  Spec.params (m ((c.tc : Thread nD τ).loc main_arg13)) (m ((c.tc : Thread nD τ).loc main_arg14)) (m ((c.tc : Thread nD τ).loc main_arg17))
    (m ((c.tc : Thread nD τ).loc main_arg18)) (m ((c.tc : Thread nD τ).loc main_arg15)) (m ((c.tc : Thread nD τ).loc main_arg16))
    (m ((c.tc : Thread nD τ).loc main_arg19)) (m ((c.tc : Thread nD τ).loc main_arg20)) (m ((c.tc : Thread nD τ).loc main_arg21))
    (m ((c.tc : Thread nD τ).loc main_arg22))

/-- The feature rows: the five table look-ups and the numerical features, joined and flattened. -/
abbrev feat : S8192x1472.Idx → EReal :=
  val_main_v36 (F := Ideal) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg8)) (m ((c.tc : Thread nD τ).loc main_arg9)) (m ((c.tc : Thread nD τ).loc main_arg10))
    (m ((c.tc : Thread nD τ).loc main_arg11)) (m ((c.tc : Thread nD τ).loc main_arg12))

/-! ## Indices: two indices of one shape agree when their coordinates do -/

theorem idx1_ext {n0 : Nat} {i j : (⟨1, ![n0]⟩ : Shape).Idx} (h0 : (i 0).val = (j 0).val) : i = j :=
  funext fun a => Fin.ext (by match a with | ⟨0, _⟩ => exact h0)

theorem idx2_ext {n0 n1 : Nat} {i j : (⟨2, ![n0, n1]⟩ : Shape).Idx} (h0 : (i 0).val = (j 0).val) (h1 : (i 1).val = (j 1).val) :
    i = j :=
  funext fun a => Fin.ext (by match a with | ⟨0, _⟩ => exact h0 | ⟨1, _⟩ => exact h1)

theorem idx3_ext {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Position b·512 + k of a flattened [8192, 512] slab lies in row b … -/
theorem row_div (b : Fin 8192) (k : Fin 512) : (b.val * 512 + k.val) / 512 % 8192 = b.val := by
  have := b.isLt; have := k.isLt; omega

/-- … at column k. -/
theorem row_mod (b : Fin 8192) (k : Fin 512) : (b.val * 512 + k.val) % 512 = k.val := by
  have := k.isLt; omega

/-! ## The logistic as the reference spells it: 1 / (1 + exp (−x)), the two ones being the f32 literal 1.0 -/

theorem logistic_spelt (x : Ideal .f32) :
    FloatOps.hostDivf (F := Ideal) (φ := .f32) (FloatOps.ofBits .f32 0x3F800000#32)
        (FloatOps.addf (FloatOps.ofBits .f32 0x3F800000#32) (FloatOps.hostUnary .exp (FloatOps.hostNegf x)))
      = Ideal.logistic x := by
  show Ideal.div (Ideal.ofBits .f32 0x3F800000#32) (Ideal.ofBits .f32 0x3F800000#32 + Ideal.exp (-x)) = Ideal.div 1 (1 + Ideal.exp (-x))
  rw [Ideal.ofBits_one_f32]

/-! ## The program's stages at an index, over any argument arrays

  Each stage is read at explicit coordinates: a row b of the batch and a gate unit n (or a state unit j). The feature
  array is kept as it is; the parameters are read off the weight and bias arrays as the step's definition reads them. -/

section Stages

variable (x0 x1 x2 x3 x4 : (⟨S8192x16, .i32⟩ : BufTy).Contents (Elt Ideal)) (x5 : (⟨S8192x16x8, .f32⟩ : BufTy).Contents (Elt Ideal))
  (x6 x7 : (⟨S2x8192x512, .f32⟩ : BufTy).Contents (Elt Ideal)) (x8 : (⟨S257x32, .f32⟩ : BufTy).Contents (Elt Ideal))
  (x9 : (⟨S64x13, .f32⟩ : BufTy).Contents (Elt Ideal)) (x10 : (⟨S16x6, .f32⟩ : BufTy).Contents (Elt Ideal))
  (x11 : (⟨S8x4, .f32⟩ : BufTy).Contents (Elt Ideal)) (x12 : (⟨S256x29, .f32⟩ : BufTy).Contents (Elt Ideal))
  (x13 : (⟨S2048x1472, .f32⟩ : BufTy).Contents (Elt Ideal)) (x14 : (⟨S2048x512, .f32⟩ : BufTy).Contents (Elt Ideal))
  (x15 x16 : (⟨S2048, .f32⟩ : BufTy).Contents (Elt Ideal)) (x17 x18 : (⟨S2048x512, .f32⟩ : BufTy).Contents (Elt Ideal))
  (x19 x20 : (⟨S2048, .f32⟩ : BufTy).Contents (Elt Ideal)) (x21 : (⟨S256x512, .f32⟩ : BufTy).Contents (Elt Ideal))
  (x22 : (⟨S256, .f32⟩ : BufTy).Contents (Elt Ideal))

/-- The parameters of these argument arrays, and their feature rows. -/
local notation "PP" => Spec.params x13 x14 x17 x18 x15 x16 x19 x20 x21 x22
local notation "XX" => val_main_v36 (F := Ideal) x0 x1 x2 x3 x4 x5 x8 x9 x10 x11 x12

/-! ## The state rows: layer `l`'s slab of a state array, flattened, at (b, k) is the array at (l, b, k) -/

theorem v38_ix (b : Fin 8192) (k : Fin 512) :
    val_main_v38 (F := Ideal) x6 (ix2 b k) = x6 (ix3 0 b k) := by
  have hi : idx_main_v37 (idx_main_v38 (ix2 b k)) = ix3 0 b k := idx3_ext rfl (row_div b k) (row_mod b k)
  rw [val_main_v38_apply, val_main_v37_apply, hi]

theorem v40_ix (b : Fin 8192) (k : Fin 512) :
    val_main_v40 (F := Ideal) x7 (ix2 b k) = x7 (ix3 0 b k) := by
  have hi : idx_main_v39 (idx_main_v40 (ix2 b k)) = ix3 0 b k := idx3_ext rfl (row_div b k) (row_mod b k)
  rw [val_main_v40_apply, val_main_v39_apply, hi]

theorem v81_ix (b : Fin 8192) (k : Fin 512) :
    val_main_v81 (F := Ideal) x6 (ix2 b k) = x6 (ix3 1 b k) := by
  have hi : idx_main_v80 (idx_main_v81 (ix2 b k)) = ix3 1 b k := idx3_ext rfl (row_div b k) (row_mod b k)
  rw [val_main_v81_apply, val_main_v80_apply, hi]

theorem v83_ix (b : Fin 8192) (k : Fin 512) :
    val_main_v83 (F := Ideal) x7 (ix2 b k) = x7 (ix3 1 b k) := by
  have hi : idx_main_v82 (idx_main_v83 (ix2 b k)) = ix3 1 b k := idx3_ext rfl (row_div b k) (row_mod b k)
  rw [val_main_v83_apply, val_main_v82_apply, hi]

/-! ## A bias vector broadcast down the rows, at (b, n), is the vector at n -/

theorem v47_ix (b : Fin 8192) (n : Fin 2048) :
    val_main_v47 (F := Ideal) x15 (ix2 b n) = x15 (ix1 n) := by
  have hi : idx_main_v46 (idx_main_v47 (ix2 b n)) = ix1 n := idx1_ext rfl
  rw [val_main_v47_apply, val_main_v46_apply, hi]

theorem v50_ix (b : Fin 8192) (n : Fin 2048) :
    val_main_v50 (F := Ideal) x16 (ix2 b n) = x16 (ix1 n) := by
  have hi : idx_main_v49 (idx_main_v50 (ix2 b n)) = ix1 n := idx1_ext rfl
  rw [val_main_v50_apply, val_main_v49_apply, hi]

theorem v90_ix (b : Fin 8192) (n : Fin 2048) :
    val_main_v90 (F := Ideal) x19 (ix2 b n) = x19 (ix1 n) := by
  have hi : idx_main_v89 (idx_main_v90 (ix2 b n)) = ix1 n := idx1_ext rfl
  rw [val_main_v90_apply, val_main_v89_apply, hi]

theorem v93_ix (b : Fin 8192) (n : Fin 2048) :
    val_main_v93 (F := Ideal) x20 (ix2 b n) = x20 (ix1 n) := by
  have hi : idx_main_v92 (idx_main_v93 (ix2 b n)) = ix1 n := idx1_ext rfl
  rw [val_main_v93_apply, val_main_v92_apply, hi]

theorem v126_ix (b : Fin 8192) (n : Fin 256) :
    val_main_v126 (F := Ideal) x22 (ix2 b n) = x22 (ix1 n) := by
  have hi : idx_main_v125 (idx_main_v126 (ix2 b n)) = ix1 n := idx1_ext rfl
  rw [val_main_v126_apply, val_main_v125_apply, hi]

/-! ## The products: a row of the left operand against a row of the stored (untransposed) weight matrix -/

theorem v42_ix (b : Fin 8192) (n : Fin 2048) :
    val_main_v42 (F := Ideal) x0 x1 x2 x3 x4 x5 x8 x9 x10 x11 x12 x13 (ix2 b n) = ∑ k : Fin 1472, XX (ix2 b k) * x13 (ix2 n k) := by
  rw [val_main_v42_apply]
  refine Finset.sum_congr rfl fun k _ => ?_
  have hl : lidx_main_v42 (ix2 b n) k = ix2 b k := idx2_ext rfl rfl
  have hr : idx_main_v41 (ridx_main_v42 (ix2 b n) k) = ix2 n k := idx2_ext rfl rfl
  rw [val_main_v41_apply, hl, hr]

theorem v44_ix (b : Fin 8192) (n : Fin 2048) :
    val_main_v44 (F := Ideal) x6 x14 (ix2 b n) = ∑ k : Fin 512, x6 (ix3 0 b k) * x14 (ix2 n k) := by
  rw [val_main_v44_apply]
  refine Finset.sum_congr rfl fun k _ => ?_
  have hl : lidx_main_v44 (ix2 b n) k = ix2 b k := idx2_ext rfl rfl
  have hr : idx_main_v43 (ridx_main_v44 (ix2 b n) k) = ix2 n k := idx2_ext rfl rfl
  rw [val_main_v43_apply, hl, hr, v38_ix x6]

/-! ## Layer 0 -/

/-- The pre-activations: the two bias vectors, added in turn, are their sum added once. -/
theorem v51_ix (b : Fin 8192) (n : Fin 2048) :
    val_main_v51 (F := Ideal) x0 x1 x2 x3 x4 x5 x6 x8 x9 x10 x11 x12 x13 x14 x15 x16 (ix2 b n) = Spec.g0 PP (Spec.xr XX b) (Spec.sr x6 0 b) n := by
  rewrite [val_main_v51_apply, val_main_v48_apply, val_main_v45_apply, v42_ix x0 x1 x2 x3 x4 x5 x8 x9 x10 x11 x12 x13, v44_ix x6 x14, v47_ix x15, v50_ix x16]
  exact add_assoc _ _ _

theorem v52_ix (b : Fin 8192) (j : Fin 512) :
    val_main_v52 (F := Ideal) x0 x1 x2 x3 x4 x5 x6 x8 x9 x10 x11 x12 x13 x14 x15 x16 (ix2 b j) = Spec.g0 PP (Spec.xr XX b) (Spec.sr x6 0 b) (Spec.gu 0 j) := by
  have hi : idx_main_v52 (ix2 b j) = ix2 b (Spec.gu 0 j) := idx2_ext rfl (Nat.zero_add _).symm
  rw [val_main_v52_apply, hi, v51_ix x0 x1 x2 x3 x4 x5 x6 x8 x9 x10 x11 x12 x13 x14 x15 x16 x17 x18 x19 x20 x21 x22]

theorem v53_ix (b : Fin 8192) (j : Fin 512) :
    val_main_v53 (F := Ideal) x0 x1 x2 x3 x4 x5 x6 x8 x9 x10 x11 x12 x13 x14 x15 x16 (ix2 b j) = Spec.g0 PP (Spec.xr XX b) (Spec.sr x6 0 b) (Spec.gu 512 j) := by
  have hi : idx_main_v53 (ix2 b j) = ix2 b (Spec.gu 512 j) := idx2_ext rfl rfl
  rw [val_main_v53_apply, hi, v51_ix x0 x1 x2 x3 x4 x5 x6 x8 x9 x10 x11 x12 x13 x14 x15 x16 x17 x18 x19 x20 x21 x22]

theorem v54_ix (b : Fin 8192) (j : Fin 512) :
    val_main_v54 (F := Ideal) x0 x1 x2 x3 x4 x5 x6 x8 x9 x10 x11 x12 x13 x14 x15 x16 (ix2 b j) = Spec.g0 PP (Spec.xr XX b) (Spec.sr x6 0 b) (Spec.gu 1024 j) := by
  have hi : idx_main_v54 (ix2 b j) = ix2 b (Spec.gu 1024 j) := idx2_ext rfl rfl
  rw [val_main_v54_apply, hi, v51_ix x0 x1 x2 x3 x4 x5 x6 x8 x9 x10 x11 x12 x13 x14 x15 x16 x17 x18 x19 x20 x21 x22]

theorem v55_ix (b : Fin 8192) (j : Fin 512) :
    val_main_v55 (F := Ideal) x0 x1 x2 x3 x4 x5 x6 x8 x9 x10 x11 x12 x13 x14 x15 x16 (ix2 b j) = Spec.g0 PP (Spec.xr XX b) (Spec.sr x6 0 b) (Spec.gu 1536 j) := by
  have hi : idx_main_v55 (ix2 b j) = ix2 b (Spec.gu 1536 j) := idx2_ext rfl rfl
  rw [val_main_v55_apply, hi, v51_ix x0 x1 x2 x3 x4 x5 x6 x8 x9 x10 x11 x12 x13 x14 x15 x16 x17 x18 x19 x20 x21 x22]

theorem v61_ix (b : Fin 8192) (j : Fin 512) :
    val_main_v61 (F := Ideal) x0 x1 x2 x3 x4 x5 x6 x8 x9 x10 x11 x12 x13 x14 x15 x16 (ix2 b j) = Ideal.logistic (Spec.g0 PP (Spec.xr XX b) (Spec.sr x6 0 b) (Spec.gu 0 j)) := by
  rw [val_main_v61_apply, val_main_v60_apply, val_main_cst_9_apply, val_main_v59_apply, val_main_v58_apply,
    val_main_cst_apply, val_main_v57_apply, val_main_v56_apply, v52_ix x0 x1 x2 x3 x4 x5 x6 x8 x9 x10 x11 x12 x13 x14 x15 x16 x17 x18 x19 x20 x21 x22, logistic_spelt]

theorem v67_ix (b : Fin 8192) (j : Fin 512) :
    val_main_v67 (F := Ideal) x0 x1 x2 x3 x4 x5 x6 x8 x9 x10 x11 x12 x13 x14 x15 x16 (ix2 b j) = Ideal.logistic (Spec.g0 PP (Spec.xr XX b) (Spec.sr x6 0 b) (Spec.gu 512 j)) := by
  rw [val_main_v67_apply, val_main_v66_apply, val_main_cst_11_apply, val_main_v65_apply, val_main_v64_apply,
    val_main_cst_10_apply, val_main_v63_apply, val_main_v62_apply, v53_ix x0 x1 x2 x3 x4 x5 x6 x8 x9 x10 x11 x12 x13 x14 x15 x16 x17 x18 x19 x20 x21 x22, logistic_spelt]

theorem v73_ix (b : Fin 8192) (j : Fin 512) :
    val_main_v73 (F := Ideal) x0 x1 x2 x3 x4 x5 x6 x8 x9 x10 x11 x12 x13 x14 x15 x16 (ix2 b j) = Ideal.logistic (Spec.g0 PP (Spec.xr XX b) (Spec.sr x6 0 b) (Spec.gu 1536 j)) := by
  rw [val_main_v73_apply, val_main_v72_apply, val_main_cst_13_apply, val_main_v71_apply, val_main_v70_apply,
    val_main_cst_12_apply, val_main_v69_apply, val_main_v68_apply, v55_ix x0 x1 x2 x3 x4 x5 x6 x8 x9 x10 x11 x12 x13 x14 x15 x16 x17 x18 x19 x20 x21 x22, logistic_spelt]

theorem v74_ix (b : Fin 8192) (j : Fin 512) :
    val_main_v74 (F := Ideal) x0 x1 x2 x3 x4 x5 x6 x8 x9 x10 x11 x12 x13 x14 x15 x16 (ix2 b j) = Ideal.tanh (Spec.g0 PP (Spec.xr XX b) (Spec.sr x6 0 b) (Spec.gu 1024 j)) := by
  rewrite [val_main_v74_apply, v54_ix x0 x1 x2 x3 x4 x5 x6 x8 x9 x10 x11 x12 x13 x14 x15 x16 x17 x18 x19 x20 x21 x22]
  rfl

/-- Layer 0's new cell state. -/
theorem v77_ix (b : Fin 8192) (j : Fin 512) :
    val_main_v77 (F := Ideal) x0 x1 x2 x3 x4 x5 x6 x7 x8 x9 x10 x11 x12 x13 x14 x15 x16 (ix2 b j) = Spec.c1 PP (Spec.xr XX b) (Spec.sr x6 0 b) (Spec.sr x7 0 b) j := by
  rewrite [val_main_v77_apply, val_main_v75_apply, val_main_v76_apply, v67_ix x0 x1 x2 x3 x4 x5 x6 x8 x9 x10 x11 x12 x13 x14 x15 x16 x17 x18 x19 x20 x21 x22, v40_ix x7, v61_ix x0 x1 x2 x3 x4 x5 x6 x8 x9 x10 x11 x12 x13 x14 x15 x16 x17 x18 x19 x20 x21 x22, v74_ix x0 x1 x2 x3 x4 x5 x6 x8 x9 x10 x11 x12 x13 x14 x15 x16 x17 x18 x19 x20 x21 x22]
  rfl

/-- Layer 0's new hidden state. -/
theorem v79_ix (b : Fin 8192) (j : Fin 512) :
    val_main_v79 (F := Ideal) x0 x1 x2 x3 x4 x5 x6 x7 x8 x9 x10 x11 x12 x13 x14 x15 x16 (ix2 b j) = Spec.h1 PP (Spec.xr XX b) (Spec.sr x6 0 b) (Spec.sr x7 0 b) j := by
  rewrite [val_main_v79_apply, val_main_v78_apply, v73_ix x0 x1 x2 x3 x4 x5 x6 x8 x9 x10 x11 x12 x13 x14 x15 x16 x17 x18 x19 x20 x21 x22, v77_ix x0 x1 x2 x3 x4 x5 x6 x7 x8 x9 x10 x11 x12 x13 x14 x15 x16 x17 x18 x19 x20 x21 x22]
  rfl

/-! ## Layer 1, fed layer 0's new hidden rows -/

theorem v85_ix (b : Fin 8192) (n : Fin 2048) :
    val_main_v85 (F := Ideal) x0 x1 x2 x3 x4 x5 x6 x7 x8 x9 x10 x11 x12 x13 x14 x15 x16 x17 (ix2 b n) = ∑ k : Fin 512, Spec.h1 PP (Spec.xr XX b) (Spec.sr x6 0 b) (Spec.sr x7 0 b) k * x17 (ix2 n k) := by
  rw [val_main_v85_apply]
  refine Finset.sum_congr rfl fun k _ => ?_
  have hl : lidx_main_v85 (ix2 b n) k = ix2 b k := idx2_ext rfl rfl
  have hr : idx_main_v84 (ridx_main_v85 (ix2 b n) k) = ix2 n k := idx2_ext rfl rfl
  rw [val_main_v84_apply, hl, hr, v79_ix x0 x1 x2 x3 x4 x5 x6 x7 x8 x9 x10 x11 x12 x13 x14 x15 x16 x17 x18 x19 x20 x21 x22]

theorem v87_ix (b : Fin 8192) (n : Fin 2048) :
    val_main_v87 (F := Ideal) x6 x18 (ix2 b n) = ∑ k : Fin 512, x6 (ix3 1 b k) * x18 (ix2 n k) := by
  rw [val_main_v87_apply]
  refine Finset.sum_congr rfl fun k _ => ?_
  have hl : lidx_main_v87 (ix2 b n) k = ix2 b k := idx2_ext rfl rfl
  have hr : idx_main_v86 (ridx_main_v87 (ix2 b n) k) = ix2 n k := idx2_ext rfl rfl
  rw [val_main_v86_apply, hl, hr, v81_ix x6]

theorem v94_ix (b : Fin 8192) (n : Fin 2048) :
    val_main_v94 (F := Ideal) x0 x1 x2 x3 x4 x5 x6 x7 x8 x9 x10 x11 x12 x13 x14 x15 x16 x17 x18 x19 x20 (ix2 b n) = Spec.g1 PP (Spec.xr XX b) (Spec.sr x6 0 b) (Spec.sr x7 0 b) (Spec.sr x6 1 b) n := by
  rewrite [val_main_v94_apply, val_main_v91_apply, val_main_v88_apply, v85_ix x0 x1 x2 x3 x4 x5 x6 x7 x8 x9 x10 x11 x12 x13 x14 x15 x16 x17 x18 x19 x20 x21 x22, v87_ix x6 x18, v90_ix x19, v93_ix x20]
  exact add_assoc _ _ _

theorem v95_ix (b : Fin 8192) (j : Fin 512) :
    val_main_v95 (F := Ideal) x0 x1 x2 x3 x4 x5 x6 x7 x8 x9 x10 x11 x12 x13 x14 x15 x16 x17 x18 x19 x20 (ix2 b j) = Spec.g1 PP (Spec.xr XX b) (Spec.sr x6 0 b) (Spec.sr x7 0 b) (Spec.sr x6 1 b) (Spec.gu 0 j) := by
  have hi : idx_main_v95 (ix2 b j) = ix2 b (Spec.gu 0 j) := idx2_ext rfl (Nat.zero_add _).symm
  rw [val_main_v95_apply, hi, v94_ix x0 x1 x2 x3 x4 x5 x6 x7 x8 x9 x10 x11 x12 x13 x14 x15 x16 x17 x18 x19 x20 x21 x22]

theorem v96_ix (b : Fin 8192) (j : Fin 512) :
    val_main_v96 (F := Ideal) x0 x1 x2 x3 x4 x5 x6 x7 x8 x9 x10 x11 x12 x13 x14 x15 x16 x17 x18 x19 x20 (ix2 b j) = Spec.g1 PP (Spec.xr XX b) (Spec.sr x6 0 b) (Spec.sr x7 0 b) (Spec.sr x6 1 b) (Spec.gu 512 j) := by
  have hi : idx_main_v96 (ix2 b j) = ix2 b (Spec.gu 512 j) := idx2_ext rfl rfl
  rw [val_main_v96_apply, hi, v94_ix x0 x1 x2 x3 x4 x5 x6 x7 x8 x9 x10 x11 x12 x13 x14 x15 x16 x17 x18 x19 x20 x21 x22]

theorem v97_ix (b : Fin 8192) (j : Fin 512) :
    val_main_v97 (F := Ideal) x0 x1 x2 x3 x4 x5 x6 x7 x8 x9 x10 x11 x12 x13 x14 x15 x16 x17 x18 x19 x20 (ix2 b j) = Spec.g1 PP (Spec.xr XX b) (Spec.sr x6 0 b) (Spec.sr x7 0 b) (Spec.sr x6 1 b) (Spec.gu 1024 j) := by
  have hi : idx_main_v97 (ix2 b j) = ix2 b (Spec.gu 1024 j) := idx2_ext rfl rfl
  rw [val_main_v97_apply, hi, v94_ix x0 x1 x2 x3 x4 x5 x6 x7 x8 x9 x10 x11 x12 x13 x14 x15 x16 x17 x18 x19 x20 x21 x22]

theorem v98_ix (b : Fin 8192) (j : Fin 512) :
    val_main_v98 (F := Ideal) x0 x1 x2 x3 x4 x5 x6 x7 x8 x9 x10 x11 x12 x13 x14 x15 x16 x17 x18 x19 x20 (ix2 b j) = Spec.g1 PP (Spec.xr XX b) (Spec.sr x6 0 b) (Spec.sr x7 0 b) (Spec.sr x6 1 b) (Spec.gu 1536 j) := by
  have hi : idx_main_v98 (ix2 b j) = ix2 b (Spec.gu 1536 j) := idx2_ext rfl rfl
  rw [val_main_v98_apply, hi, v94_ix x0 x1 x2 x3 x4 x5 x6 x7 x8 x9 x10 x11 x12 x13 x14 x15 x16 x17 x18 x19 x20 x21 x22]

theorem v104_ix (b : Fin 8192) (j : Fin 512) :
    val_main_v104 (F := Ideal) x0 x1 x2 x3 x4 x5 x6 x7 x8 x9 x10 x11 x12 x13 x14 x15 x16 x17 x18 x19 x20 (ix2 b j) = Ideal.logistic (Spec.g1 PP (Spec.xr XX b) (Spec.sr x6 0 b) (Spec.sr x7 0 b) (Spec.sr x6 1 b) (Spec.gu 0 j)) := by
  rw [val_main_v104_apply, val_main_v103_apply, val_main_cst_15_apply, val_main_v102_apply, val_main_v101_apply,
    val_main_cst_14_apply, val_main_v100_apply, val_main_v99_apply, v95_ix x0 x1 x2 x3 x4 x5 x6 x7 x8 x9 x10 x11 x12 x13 x14 x15 x16 x17 x18 x19 x20 x21 x22, logistic_spelt]

theorem v110_ix (b : Fin 8192) (j : Fin 512) :
    val_main_v110 (F := Ideal) x0 x1 x2 x3 x4 x5 x6 x7 x8 x9 x10 x11 x12 x13 x14 x15 x16 x17 x18 x19 x20 (ix2 b j) = Ideal.logistic (Spec.g1 PP (Spec.xr XX b) (Spec.sr x6 0 b) (Spec.sr x7 0 b) (Spec.sr x6 1 b) (Spec.gu 512 j)) := by
  rw [val_main_v110_apply, val_main_v109_apply, val_main_cst_17_apply, val_main_v108_apply, val_main_v107_apply,
    val_main_cst_16_apply, val_main_v106_apply, val_main_v105_apply, v96_ix x0 x1 x2 x3 x4 x5 x6 x7 x8 x9 x10 x11 x12 x13 x14 x15 x16 x17 x18 x19 x20 x21 x22, logistic_spelt]

theorem v116_ix (b : Fin 8192) (j : Fin 512) :
    val_main_v116 (F := Ideal) x0 x1 x2 x3 x4 x5 x6 x7 x8 x9 x10 x11 x12 x13 x14 x15 x16 x17 x18 x19 x20 (ix2 b j) = Ideal.logistic (Spec.g1 PP (Spec.xr XX b) (Spec.sr x6 0 b) (Spec.sr x7 0 b) (Spec.sr x6 1 b) (Spec.gu 1536 j)) := by
  rw [val_main_v116_apply, val_main_v115_apply, val_main_cst_19_apply, val_main_v114_apply, val_main_v113_apply,
    val_main_cst_18_apply, val_main_v112_apply, val_main_v111_apply, v98_ix x0 x1 x2 x3 x4 x5 x6 x7 x8 x9 x10 x11 x12 x13 x14 x15 x16 x17 x18 x19 x20 x21 x22, logistic_spelt]

theorem v117_ix (b : Fin 8192) (j : Fin 512) :
    val_main_v117 (F := Ideal) x0 x1 x2 x3 x4 x5 x6 x7 x8 x9 x10 x11 x12 x13 x14 x15 x16 x17 x18 x19 x20 (ix2 b j) = Ideal.tanh (Spec.g1 PP (Spec.xr XX b) (Spec.sr x6 0 b) (Spec.sr x7 0 b) (Spec.sr x6 1 b) (Spec.gu 1024 j)) := by
  rewrite [val_main_v117_apply, v97_ix x0 x1 x2 x3 x4 x5 x6 x7 x8 x9 x10 x11 x12 x13 x14 x15 x16 x17 x18 x19 x20 x21 x22]
  rfl

/-- Layer 1's new cell state. -/
theorem v120_ix (b : Fin 8192) (j : Fin 512) :
    val_main_v120 (F := Ideal) x0 x1 x2 x3 x4 x5 x6 x7 x8 x9 x10 x11 x12 x13 x14 x15 x16 x17 x18 x19 x20 (ix2 b j) = Spec.c2 PP (Spec.xr XX b) (Spec.sr x6 0 b) (Spec.sr x7 0 b) (Spec.sr x6 1 b) (Spec.sr x7 1 b) j := by
  rewrite [val_main_v120_apply, val_main_v118_apply, val_main_v119_apply, v110_ix x0 x1 x2 x3 x4 x5 x6 x7 x8 x9 x10 x11 x12 x13 x14 x15 x16 x17 x18 x19 x20 x21 x22, v83_ix x7, v104_ix x0 x1 x2 x3 x4 x5 x6 x7 x8 x9 x10 x11 x12 x13 x14 x15 x16 x17 x18 x19 x20 x21 x22, v117_ix x0 x1 x2 x3 x4 x5 x6 x7 x8 x9 x10 x11 x12 x13 x14 x15 x16 x17 x18 x19 x20 x21 x22]
  rfl

/-- Layer 1's new hidden state. -/
theorem v122_ix (b : Fin 8192) (j : Fin 512) :
    val_main_v122 (F := Ideal) x0 x1 x2 x3 x4 x5 x6 x7 x8 x9 x10 x11 x12 x13 x14 x15 x16 x17 x18 x19 x20 (ix2 b j) = Spec.h2 PP (Spec.xr XX b) (Spec.sr x6 0 b) (Spec.sr x7 0 b) (Spec.sr x6 1 b) (Spec.sr x7 1 b) j := by
  rewrite [val_main_v122_apply, val_main_v121_apply, v116_ix x0 x1 x2 x3 x4 x5 x6 x7 x8 x9 x10 x11 x12 x13 x14 x15 x16 x17 x18 x19 x20 x21 x22, v120_ix x0 x1 x2 x3 x4 x5 x6 x7 x8 x9 x10 x11 x12 x13 x14 x15 x16 x17 x18 x19 x20 x21 x22]
  rfl

/-! ## The read-out -/

theorem v124_ix (b : Fin 8192) (n : Fin 256) :
    val_main_v124 (F := Ideal) x0 x1 x2 x3 x4 x5 x6 x7 x8 x9 x10 x11 x12 x13 x14 x15 x16 x17 x18 x19 x20 x21 (ix2 b n) = ∑ k : Fin 512, Spec.h2 PP (Spec.xr XX b) (Spec.sr x6 0 b) (Spec.sr x7 0 b) (Spec.sr x6 1 b) (Spec.sr x7 1 b) k * x21 (ix2 n k) := by
  rw [val_main_v124_apply]
  refine Finset.sum_congr rfl fun k _ => ?_
  have hl : lidx_main_v124 (ix2 b n) k = ix2 b k := idx2_ext rfl rfl
  have hr : idx_main_v123 (ridx_main_v124 (ix2 b n) k) = ix2 n k := idx2_ext rfl rfl
  rw [val_main_v123_apply, hl, hr, v122_ix x0 x1 x2 x3 x4 x5 x6 x7 x8 x9 x10 x11 x12 x13 x14 x15 x16 x17 x18 x19 x20 x21 x22]

theorem v127_ix (b : Fin 8192) (n : Fin 256) :
    val_main_v127 (F := Ideal) x0 x1 x2 x3 x4 x5 x6 x7 x8 x9 x10 x11 x12 x13 x14 x15 x16 x17 x18 x19 x20 x21 x22 (ix2 b n) = Spec.lg PP (Spec.xr XX b) (Spec.sr x6 0 b) (Spec.sr x7 0 b) (Spec.sr x6 1 b) (Spec.sr x7 1 b) n := by
  rewrite [val_main_v127_apply, v124_ix x0 x1 x2 x3 x4 x5 x6 x7 x8 x9 x10 x11 x12 x13 x14 x15 x16 x17 x18 x19 x20 x21 x22, v126_ix x22]
  rfl

/-- The logits, with the unit axis put back. -/
theorem v128_ix (b : Fin 8192) (n : Fin 256) :
    val_main_v128 (F := Ideal) x0 x1 x2 x3 x4 x5 x6 x7 x8 x9 x10 x11 x12 x13 x14 x15 x16 x17 x18 x19 x20 x21 x22 (ix3 b 0 n) = Spec.lg PP (Spec.xr XX b) (Spec.sr x6 0 b) (Spec.sr x7 0 b) (Spec.sr x6 1 b) (Spec.sr x7 1 b) n := by
  have hi : idx_main_v128 (ix3 b 0 n) = ix2 b n := idx2_ext rfl rfl
  rw [val_main_v128_apply, hi, v127_ix x0 x1 x2 x3 x4 x5 x6 x7 x8 x9 x10 x11 x12 x13 x14 x15 x16 x17 x18 x19 x20 x21 x22]

/-! ## The two layers' results stacked along a new leading axis -/

theorem v131_ix0 (b : Fin 8192) (j : Fin 512) :
    val_main_v131 (F := Ideal) x0 x1 x2 x3 x4 x5 x6 x7 x8 x9 x10 x11 x12 x13 x14 x15 x16 x17 x18 x19 x20 (ix3 0 b j) = Spec.h1 PP (Spec.xr XX b) (Spec.sr x6 0 b) (Spec.sr x7 0 b) j := by
  unfold val_main_v131
  refine (concatenate_pair_apply_left (t := S2x8192x512) (s₁ := S1x8192x512) (s₂ := S1x8192x512) (0 : Fin S2x8192x512.rank)
    (val_main_v129 (F := Ideal) x0 x1 x2 x3 x4 x5 x6 x7 x8 x9 x10 x11 x12 x13 x14 x15 x16) (val_main_v130 (F := Ideal) x0 x1 x2 x3 x4 x5 x6 x7 x8 x9 x10 x11 x12 x13 x14 x15 x16 x17 x18 x19 x20) concatenates_S1x8192x512_S1x8192x512_S2x8192x512_d0 (ix3 0 b j) rfl (ix3 0 b j)
    (fun a => by match a with | ⟨0, _⟩ => rfl | ⟨1, _⟩ => rfl | ⟨2, _⟩ => rfl)).trans ?_
  have hi : idx_main_v129 (ix3 0 b j) = ix2 b j := idx2_ext rfl rfl
  rw [val_main_v129_apply, hi, v79_ix x0 x1 x2 x3 x4 x5 x6 x7 x8 x9 x10 x11 x12 x13 x14 x15 x16 x17 x18 x19 x20 x21 x22]

theorem v131_ix1 (b : Fin 8192) (j : Fin 512) :
    val_main_v131 (F := Ideal) x0 x1 x2 x3 x4 x5 x6 x7 x8 x9 x10 x11 x12 x13 x14 x15 x16 x17 x18 x19 x20 (ix3 1 b j) = Spec.h2 PP (Spec.xr XX b) (Spec.sr x6 0 b) (Spec.sr x7 0 b) (Spec.sr x6 1 b) (Spec.sr x7 1 b) j := by
  unfold val_main_v131
  refine (concatenate_pair_apply_right (t := S2x8192x512) (s₁ := S1x8192x512) (s₂ := S1x8192x512) (0 : Fin S2x8192x512.rank)
    (val_main_v129 (F := Ideal) x0 x1 x2 x3 x4 x5 x6 x7 x8 x9 x10 x11 x12 x13 x14 x15 x16) (val_main_v130 (F := Ideal) x0 x1 x2 x3 x4 x5 x6 x7 x8 x9 x10 x11 x12 x13 x14 x15 x16 x17 x18 x19 x20) concatenates_S1x8192x512_S1x8192x512_S2x8192x512_d0 (ix3 1 b j) rfl rfl (ix3 0 b j)
    (fun a ha => by match a, ha with | ⟨0, _⟩, ha => exact absurd rfl ha | ⟨1, _⟩, _ => rfl | ⟨2, _⟩, _ => rfl) rfl).trans ?_
  have hi : idx_main_v130 (ix3 0 b j) = ix2 b j := idx2_ext rfl rfl
  rw [val_main_v130_apply, hi, v122_ix x0 x1 x2 x3 x4 x5 x6 x7 x8 x9 x10 x11 x12 x13 x14 x15 x16 x17 x18 x19 x20 x21 x22]

theorem v134_ix0 (b : Fin 8192) (j : Fin 512) :
    val_main_v134 (F := Ideal) x0 x1 x2 x3 x4 x5 x6 x7 x8 x9 x10 x11 x12 x13 x14 x15 x16 x17 x18 x19 x20 (ix3 0 b j) = Spec.c1 PP (Spec.xr XX b) (Spec.sr x6 0 b) (Spec.sr x7 0 b) j := by
  unfold val_main_v134
  refine (concatenate_pair_apply_left (t := S2x8192x512) (s₁ := S1x8192x512) (s₂ := S1x8192x512) (0 : Fin S2x8192x512.rank)
    (val_main_v132 (F := Ideal) x0 x1 x2 x3 x4 x5 x6 x7 x8 x9 x10 x11 x12 x13 x14 x15 x16) (val_main_v133 (F := Ideal) x0 x1 x2 x3 x4 x5 x6 x7 x8 x9 x10 x11 x12 x13 x14 x15 x16 x17 x18 x19 x20) concatenates_S1x8192x512_S1x8192x512_S2x8192x512_d0 (ix3 0 b j) rfl (ix3 0 b j)
    (fun a => by match a with | ⟨0, _⟩ => rfl | ⟨1, _⟩ => rfl | ⟨2, _⟩ => rfl)).trans ?_
  have hi : idx_main_v132 (ix3 0 b j) = ix2 b j := idx2_ext rfl rfl
  rw [val_main_v132_apply, hi, v77_ix x0 x1 x2 x3 x4 x5 x6 x7 x8 x9 x10 x11 x12 x13 x14 x15 x16 x17 x18 x19 x20 x21 x22]

theorem v134_ix1 (b : Fin 8192) (j : Fin 512) :
    val_main_v134 (F := Ideal) x0 x1 x2 x3 x4 x5 x6 x7 x8 x9 x10 x11 x12 x13 x14 x15 x16 x17 x18 x19 x20 (ix3 1 b j) = Spec.c2 PP (Spec.xr XX b) (Spec.sr x6 0 b) (Spec.sr x7 0 b) (Spec.sr x6 1 b) (Spec.sr x7 1 b) j := by
  unfold val_main_v134
  refine (concatenate_pair_apply_right (t := S2x8192x512) (s₁ := S1x8192x512) (s₂ := S1x8192x512) (0 : Fin S2x8192x512.rank)
    (val_main_v132 (F := Ideal) x0 x1 x2 x3 x4 x5 x6 x7 x8 x9 x10 x11 x12 x13 x14 x15 x16) (val_main_v133 (F := Ideal) x0 x1 x2 x3 x4 x5 x6 x7 x8 x9 x10 x11 x12 x13 x14 x15 x16 x17 x18 x19 x20) concatenates_S1x8192x512_S1x8192x512_S2x8192x512_d0 (ix3 1 b j) rfl rfl (ix3 0 b j)
    (fun a ha => by match a, ha with | ⟨0, _⟩, ha => exact absurd rfl ha | ⟨1, _⟩, _ => rfl | ⟨2, _⟩, _ => rfl) rfl).trans ?_
  have hi : idx_main_v133 (ix3 0 b j) = ix2 b j := idx2_ext rfl rfl
  rw [val_main_v133_apply, hi, v120_ix x0 x1 x2 x3 x4 x5 x6 x7 x8 x9 x10 x11 x12 x13 x14 x15 x16 x17 x18 x19 x20 x21 x22]

end Stages

theorem logits_eq : res_main_v128 (F := Ideal) m c
    = Spec.Logits (prm m c) (feat m c) (m ((c.tc : Thread nD τ).loc main_arg6)) (m ((c.tc : Thread nD τ).loc main_arg7)) := by
  refine (val_main_v128_eq (F := Ideal) m c).trans ?_
  funext i
  obtain ⟨b, z, n, rfl⟩ : ∃ (b : Fin 8192) (z : Fin 1) (n : Fin 256), i = ix3 b z n := ⟨_, _, _, eq_ix3 i⟩
  obtain rfl : z = 0 := Subsingleton.elim _ _
  exact (v128_ix _ _ _ _ _ _ _ _ _ _ _ _ _ _ _ _ _ _ _ _ _ _ _ b n).trans (Spec.Logits_ix _ _ _ _ b n).symm

theorem hid_eq : res_main_v131 (F := Ideal) m c
    = Spec.Hid (prm m c) (feat m c) (m ((c.tc : Thread nD τ).loc main_arg6)) (m ((c.tc : Thread nD τ).loc main_arg7)) := by
  refine (val_main_v131_eq (F := Ideal) m c).trans ?_
  funext i
  obtain ⟨l, b, j, rfl⟩ : ∃ (l : Fin 2) (b : Fin 8192) (j : Fin 512), i = ix3 l b j := ⟨_, _, _, eq_ix3 i⟩
  match l with
  | ⟨0, _⟩ => exact (v131_ix0 _ _ _ _ _ _ _ _ _ _ _ _ _ _ _ _ _ _ _ _ _ _ _ b j).trans (Spec.Hid_ix0 _ _ _ _ b j).symm
  | ⟨1, _⟩ => exact (v131_ix1 _ _ _ _ _ _ _ _ _ _ _ _ _ _ _ _ _ _ _ _ _ _ _ b j).trans (Spec.Hid_ix1 _ _ _ _ b j).symm

theorem cell_eq : res_main_v134 (F := Ideal) m c
    = Spec.Cell (prm m c) (feat m c) (m ((c.tc : Thread nD τ).loc main_arg6)) (m ((c.tc : Thread nD τ).loc main_arg7)) := by
  refine (val_main_v134_eq (F := Ideal) m c).trans ?_
  funext i
  obtain ⟨l, b, j, rfl⟩ : ∃ (l : Fin 2) (b : Fin 8192) (j : Fin 512), i = ix3 l b j := ⟨_, _, _, eq_ix3 i⟩
  match l with
  | ⟨0, _⟩ => exact (v134_ix0 _ _ _ _ _ _ _ _ _ _ _ _ _ _ _ _ _ _ _ _ _ _ _ b j).trans (Spec.Cell_ix0 _ _ _ _ b j).symm
  | ⟨1, _⟩ => exact (v134_ix1 _ _ _ _ _ _ _ _ _ _ _ _ _ _ _ _ _ _ _ _ _ _ _ b j).trans (Spec.Cell_ix1 _ _ _ _ b j).symm

end Cert.ReferenceIdeal.RefVal

end
-- ==== Proof.lean ====
/-
  A fused kernel for one step of a two-layer LSTM with a linear read-out, against the same step written with whole-array
  host operations. Both programs first build the feature rows by five table look-ups, a concatenation and a flattening. The
  kernel then runs over 64 blocks of 128 batch rows: each block computes, row by row, the gates
  (x·Wᵀ + h·Uᵀ) + (bᵢ + bₕ), the new cell state σ(f)·c + σ(i)·tanh(g) and hidden state σ(o)·tanh(c') of layer 0, the same
  for layer 1 fed layer 0's new hidden row, and the logits h''·Wₒᵀ + bₒ. The reference does the same on all 8192 rows at
  once, adding the two bias vectors one after the other and spelling the logistic 1 / (1 + exp (−x)). On the extended reals
  the two agree entry by entry: the step is a function of one batch row, sums are sums whatever their blocking, addition is
  associative, a change of float format is the identity, and the logistic is that quotient by definition. No finiteness of
  the inputs is used.
  The frames: every argument array is left as launched by each program (the kernel's at the word level and on the extended
  reals, by the run of its pipelined region; the reference's by its run of host operations). The idealization rewrote no
  operation, so there is nothing to preserve.
-/
import proofs.«171206_j17300128268701_1_alg».proof.Defs
import proofs.«171206_j17300128268701_1_alg».proof.Proof.Gen.Kernel
import proofs.«171206_j17300128268701_1_alg».proof.Proof.Gen.KernelIdeal
import proofs.«171206_j17300128268701_1_alg».proof.Proof.Gen.ReferenceIdeal
import proofs.«171206_j17300128268701_1_alg».proof.Proof.RunRef
import proofs.«171206_j17300128268701_1_alg».proof.Proof.ReadRef
import proofs.«171206_j17300128268701_1_alg».proof.Proof.Gen.Pre_finite_inputs
import proofs.«171206_j17300128268701_1_alg».proof.Proof.FrameRunKernel
import proofs.«171206_j17300128268701_1_alg».proof.Proof.FrameRunKernelIdeal
import proofs.«171206_j17300128268701_1_alg».proof.Proof.WholeKernelIdeal
import proofs.«171206_j17300128268701_1_alg».proof.Proof.FeatBridge
import proofs.«171206_j17300128268701_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel leaves its arguments as launched. -/
theorem frame_k : Cert.frame_Kernel :=
  fun m ρ _ => Cert.Kernel.Fr.frame m ρ

/-- So does the kernel read on the extended reals. -/
theorem frame_ki : Cert.frame_KernelIdeal :=
  fun m ρ _ => Cert.KernelIdeal.Fr.frame m ρ

/-- The reference is host operations only: its run names every result and keeps every argument. -/
theorem frame_ri : Cert.frame_ReferenceIdeal :=
  fun m ρ _ => (θ_run Cert.ReferenceIdeal.defs _ _).mono (fun _ h c => (h c).2.2.2)
    (Cert.ReferenceIdeal.Value.run (F := Ideal) m ρ)

/-- The idealization rewrote nothing. -/
theorem preserves : Cert.preserves_Kernel_KernelIdeal := trivial

/-- The kernel's run on the extended reals, each result array at the step's whole-array function of the arguments. -/
theorem run_ki (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v53_0)
            = Spec.Logits (Cert.KernelIdeal.Whole.prm m c) (Cert.KernelIdeal.Whole.feat m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_v53_1)
            = Spec.Hid (Cert.KernelIdeal.Whole.prm m c) (Cert.KernelIdeal.Whole.feat m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_v53_2)
            = Spec.Cell (Cert.KernelIdeal.Whole.prm m c) (Cert.KernelIdeal.Whole.feat m c) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
        ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
        ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
        ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
        ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
        ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
        ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
        ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
        ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
        ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
        ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
        ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)) :=
  (θ_run Cert.KernelIdeal.defs _ _).mono (fun r h c =>
      ⟨(h c).1.trans (Cert.KernelIdeal.Whole.final11 m c), (h c).2.1.trans (Cert.KernelIdeal.Whole.final12 m c),
        (h c).2.2.1.trans (Cert.KernelIdeal.Whole.final13 m c), (h c).2.2.2⟩)
    (Cert.KernelIdeal.Val.run_blocks (F := Ideal) m ρ)

/-- From memories that agree on the arguments the two programs end with equal results: the kernel's arrays are the step's
    functions of its arguments (`run_ki`), the reference's are the same functions of its own, and the feature array the
    kernel's region finds is the reference's. -/
theorem algebraic : Cert.algebraic_KernelIdeal_ReferenceIdeal := by
  intro m ρ m' ρ' _ hagree
  refine ⟨_, _, _, run_ki m ρ, ?_⟩
  have hp : ∀ c, Cert.ReferenceIdeal.RefVal.prm m' c = Cert.KernelIdeal.Whole.prm m c := by
    intro c
    obtain ⟨e0, e1, e2, e3, e4, e5, e6, e7, e8, e9, e10, e11, e12, e13, e14, e15, e16, e17, e18, e19, e20, e21, e22⟩ := hagree c
    dsimp only [Cert.ReferenceIdeal.RefVal.prm, Cert.KernelIdeal.Whole.prm]
    rw [e13, e14, e15, e16, e17, e18, e19, e20, e21, e22]
  have hf : ∀ c, Cert.ReferenceIdeal.RefVal.feat m' c = Cert.KernelIdeal.Whole.feat m c := by
    intro c
    obtain ⟨e0, e1, e2, e3, e4, e5, e6, e7, e8, e9, e10, e11, e12, e13, e14, e15, e16, e17, e18, e19, e20, e21, e22⟩ := hagree c
    dsimp only [Cert.ReferenceIdeal.RefVal.feat, Cert.KernelIdeal.Whole.feat]
    rw [e0, e1, e2, e3, e4, e5, e8, e9, e10, e11, e12]
    exact (Cert.KernelIdeal.Whole.feat_bridge m c).symm
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.RefVal.logits_eq, hp c, hf c, (hagree c).2.2.2.2.2.2.1, (hagree c).2.2.2.2.2.2.2.1]
  · rw [Cert.ReferenceIdeal.RefVal.hid_eq, hp c, hf c, (hagree c).2.2.2.2.2.2.1, (hagree c).2.2.2.2.2.2.2.1]
  · rw [Cert.ReferenceIdeal.RefVal.cell_eq, hp c, hf c, (hagree c).2.2.2.2.2.2.1, (hagree c).2.2.2.2.2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
